-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S512x11008 : Shape := ⟨2, ![512, 11008]⟩
abbrev S32x1376 : Shape := ⟨2, ![32, 1376]⟩
abbrev S32x11008 : Shape := ⟨2, ![32, 11008]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : IVec S512x11008 32) (main_arg2 : IVec S32x1376 32) (main_arg3 : FVec F S32x11008 .f32) (main_arg4 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S32x11008 .f32 := Host.absf main_arg3
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S512x11008 : Shape := ⟨2, ![512, 11008]⟩
abbrev S32x1376 : Shape := ⟨2, ![32, 1376]⟩
abbrev S32x11008 : Shape := ⟨2, ![32, 11008]⟩
abbrev S11008 : Shape := ⟨1, ![11008]⟩
abbrev S8192x4096 : Shape := ⟨2, ![8192, 4096]⟩
abbrev S8 : Shape := ⟨1, ![8]⟩
abbrev S_ : Shape := ⟨0, ![]⟩
abbrev S32x1376x1 : Shape := ⟨3, ![32, 1376, 1]⟩
abbrev S1x1x8 : Shape := ⟨3, ![1, 1, 8]⟩
abbrev S32x1376x8 : Shape := ⟨3, ![32, 1376, 8]⟩
abbrev S1x11008 : Shape := ⟨2, ![1, 11008]⟩
abbrev S8192x11008 : Shape := ⟨2, ![8192, 11008]⟩
abbrev S2048x1024 : Shape := ⟨2, ![2048, 1024]⟩
abbrev S128x1024 : Shape := ⟨2, ![128, 1024]⟩
abbrev S8x1024 : Shape := ⟨2, ![8, 1024]⟩
abbrev S1x1024 : Shape := ⟨2, ![1, 1024]⟩
abbrev S1024x1024 : Shape := ⟨2, ![1024, 1024]⟩
abbrev S1x8 : Shape := ⟨2, ![1, 8]⟩
abbrev S1x8x1 : Shape := ⟨3, ![1, 8, 1]⟩
abbrev S16x1024 : Shape := ⟨2, ![16, 1024]⟩
abbrev S16x1x1024 : Shape := ⟨3, ![16, 1, 1024]⟩
abbrev S16x8x1024 : Shape := ⟨3, ![16, 8, 1024]⟩
abbrev S4x2048x11008 : Shape := ⟨3, ![4, 2048, 11008]⟩

abbrev nBuf : Space → Nat
  | .hbm => 33
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S512x11008, .i32⟩
  | .hbm, ⟨2, _⟩ => ⟨S32x1376, .i32⟩
  | .hbm, ⟨3, _⟩ => ⟨S32x11008, .f32⟩
  | .hbm, ⟨4, _⟩ => ⟨S11008, .f32⟩
  | .hbm, ⟨5, _⟩ => ⟨S8192x4096, .f32⟩
  | .hbm, ⟨6, _⟩ => ⟨S8192x4096, .bf16⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S32x1376x1, .i32⟩
  | .hbm, ⟨15, _⟩ => ⟨S1x1x8, .i32⟩
  | .hbm, ⟨16, _⟩ => ⟨S32x1376x8, .i32⟩
  | .hbm, ⟨17, _⟩ => ⟨S32x1376x8, .i32⟩
  | .hbm, ⟨18, _⟩ => ⟨S32x1376x8, .i32⟩
  | .hbm, ⟨19, _⟩ => ⟨S_, .i32⟩
  | .hbm, ⟨20, _⟩ => ⟨S32x1376x8, .i32⟩
  | .hbm, ⟨21, _⟩ => ⟨S32x1376x8, .i32⟩
  | .hbm, ⟨22, _⟩ => ⟨S_, .i32⟩
  | .hbm, ⟨23, _⟩ => ⟨S32x1376x8, .i32⟩
  | .hbm, ⟨24, _⟩ => ⟨S32x1376x8, .i32⟩
  | .hbm, ⟨25, _⟩ => ⟨S_, .i32⟩
  | .hbm, ⟨26, _⟩ => ⟨S32x1376x8, .i32⟩
  | .hbm, ⟨27, _⟩ => ⟨S32x1376x8, .i32⟩
  | .hbm, ⟨28, _⟩ => ⟨S32x11008, .i32⟩
  | .hbm, ⟨29, _⟩ => ⟨S32x11008, .f32⟩
  | .hbm, ⟨30, _⟩ => ⟨S1x11008, .f32⟩
  | .hbm, ⟨31, _⟩ => ⟨S8192x11008, .f32⟩
  | .hbm, ⟨32, _⟩ => ⟨S4x2048x11008, .f32⟩
  | .local _ .vmem, ⟨0, _⟩ => ⟨S2048x1024, .bf16⟩
  | .local _ .vmem, ⟨1, _⟩ => ⟨S2048x1024, .bf16⟩
  | .local _ .vmem, ⟨2, _⟩ => ⟨S128x1024, .i32⟩
  | .local _ .vmem, ⟨3, _⟩ => ⟨S128x1024, .i32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S1x1024, .f32⟩
  | .local _ .vmem, ⟨9, _⟩ => ⟨S1x1024, .f32⟩
  | .local _ .vmem, ⟨10, _⟩ => ⟨S2048x1024, .f32⟩
  | .local _ .vmem, ⟨11, _⟩ => ⟨S2048x1024, .f32⟩
  | .local _ .vmem, ⟨12, _⟩ => ⟨S1024x1024, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 11, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  bitsLt_bf16_f32 : FTy.bits .bf16 < FTy.bits .f32
  bcast_S_S8 : S_.BroadcastsInDim S8 (![] : Fin 0 → Fin S8.rank)
  bcast_S32x1376_S32x1376x1_0_1 : S32x1376.BroadcastsInDim S32x1376x1 (![0, 1] : Fin 2 → Fin S32x1376x1.rank)
  bcast_S8_S1x1x8_2 : S8.BroadcastsInDim S1x1x8 (![2] : Fin 1 → Fin S1x1x8.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  shapeCasts_S11008_S1x11008 : S11008.ShapeCasts S1x11008
  inb_S2048x1024_S2048x1024_0_0 : ∀ a, (![0, 0] : Fin 2 → Nat) a + S2048x1024.size a ≤ S2048x1024.size a
  h_S2048x1024 : 0 < S2048x1024.numel
  iota_S1x8_d1_w32 : S1x8.Iotas .tc 32 [1]
  shapeCasts_S1x8_S8 : S1x8.ShapeCasts S8
  shapeCasts_S8_S1x8x1 : S8.ShapeCasts S1x8x1
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S128x1024_S16x1024_0_0 : ∀ a, (![0, 0] : Fin 2 → Nat) a + S16x1024.size a ≤ S128x1024.size a
  h_S16x1024 : 0 < S16x1024.numel
  shapeCasts_S16x1024_S16x1x1024 : S16x1024.ShapeCasts S16x1x1024
  broadcasts_S16x1x1024_S16x8x1024 : S16x1x1024.Broadcasts S16x8x1024
  broadcasts_S1x8x1_S16x8x1024 : S1x8x1.Broadcasts S16x8x1024
  shapeCasts_S16x8x1024_S128x1024 : S16x8x1024.ShapeCasts S128x1024
  slices_S8x1024_o0_0_S1x1024 : S8x1024.Slices ![0, 0] S1x1024
  shapeCasts_S1x1024_S1x1024 : S1x1024.ShapeCasts S1x1024
  broadcasts_S1x1024_S128x1024 : S1x1024.Broadcasts S128x1024
  inb_S1024x1024_S128x1024_0_0 : ∀ a, (![0, 0] : Fin 2 → Nat) a + S128x1024.size a ≤ S1024x1024.size a
  h_S128x1024 : 0 < S128x1024.numel
  shapeCasts_S128x1024_S128x1024 : S128x1024.ShapeCasts S128x1024
  packedbf16_S1024x1024_S128x1024_0_0 : (Rect.unit (s := S1024x1024) ![0, 0] S128x1024.size inb_S1024x1024_S128x1024_0_0).PackedRows (EltTy.packing .bf16)
  inb_S128x1024_S16x1024_16_0 : ∀ a, (![16, 0] : Fin 2 → Nat) a + S16x1024.size a ≤ S128x1024.size a
  slices_S8x1024_o1_0_S1x1024 : S8x1024.Slices ![1, 0] S1x1024
  inb_S1024x1024_S128x1024_128_0 : ∀ a, (![128, 0] : Fin 2 → Nat) a + S128x1024.size a ≤ S1024x1024.size a
  packedbf16_S1024x1024_S128x1024_128_0 : (Rect.unit (s := S1024x1024) ![128, 0] S128x1024.size inb_S1024x1024_S128x1024_128_0).PackedRows (EltTy.packing .bf16)
  inb_S128x1024_S16x1024_32_0 : ∀ a, (![32, 0] : Fin 2 → Nat) a + S16x1024.size a ≤ S128x1024.size a
  slices_S8x1024_o2_0_S1x1024 : S8x1024.Slices ![2, 0] S1x1024
  inb_S1024x1024_S128x1024_256_0 : ∀ a, (![256, 0] : Fin 2 → Nat) a + S128x1024.size a ≤ S1024x1024.size a
  packedbf16_S1024x1024_S128x1024_256_0 : (Rect.unit (s := S1024x1024) ![256, 0] S128x1024.size inb_S1024x1024_S128x1024_256_0).PackedRows (EltTy.packing .bf16)
  inb_S128x1024_S16x1024_48_0 : ∀ a, (![48, 0] : Fin 2 → Nat) a + S16x1024.size a ≤ S128x1024.size a
  slices_S8x1024_o3_0_S1x1024 : S8x1024.Slices ![3, 0] S1x1024
  inb_S1024x1024_S128x1024_384_0 : ∀ a, (![384, 0] : Fin 2 → Nat) a + S128x1024.size a ≤ S1024x1024.size a
  packedbf16_S1024x1024_S128x1024_384_0 : (Rect.unit (s := S1024x1024) ![384, 0] S128x1024.size inb_S1024x1024_S128x1024_384_0).PackedRows (EltTy.packing .bf16)
  inb_S128x1024_S16x1024_64_0 : ∀ a, (![64, 0] : Fin 2 → Nat) a + S16x1024.size a ≤ S128x1024.size a
  slices_S8x1024_o4_0_S1x1024 : S8x1024.Slices ![4, 0] S1x1024
  inb_S1024x1024_S128x1024_512_0 : ∀ a, (![512, 0] : Fin 2 → Nat) a + S128x1024.size a ≤ S1024x1024.size a
  packedbf16_S1024x1024_S128x1024_512_0 : (Rect.unit (s := S1024x1024) ![512, 0] S128x1024.size inb_S1024x1024_S128x1024_512_0).PackedRows (EltTy.packing .bf16)
  inb_S128x1024_S16x1024_80_0 : ∀ a, (![80, 0] : Fin 2 → Nat) a + S16x1024.size a ≤ S128x1024.size a
  slices_S8x1024_o5_0_S1x1024 : S8x1024.Slices ![5, 0] S1x1024
  inb_S1024x1024_S128x1024_640_0 : ∀ a, (![640, 0] : Fin 2 → Nat) a + S128x1024.size a ≤ S1024x1024.size a
  packedbf16_S1024x1024_S128x1024_640_0 : (Rect.unit (s := S1024x1024) ![640, 0] S128x1024.size inb_S1024x1024_S128x1024_640_0).PackedRows (EltTy.packing .bf16)
  inb_S128x1024_S16x1024_96_0 : ∀ a, (![96, 0] : Fin 2 → Nat) a + S16x1024.size a ≤ S128x1024.size a
  slices_S8x1024_o6_0_S1x1024 : S8x1024.Slices ![6, 0] S1x1024
  inb_S1024x1024_S128x1024_768_0 : ∀ a, (![768, 0] : Fin 2 → Nat) a + S128x1024.size a ≤ S1024x1024.size a
  packedbf16_S1024x1024_S128x1024_768_0 : (Rect.unit (s := S1024x1024) ![768, 0] S128x1024.size inb_S1024x1024_S128x1024_768_0).PackedRows (EltTy.packing .bf16)
  inb_S128x1024_S16x1024_112_0 : ∀ a, (![112, 0] : Fin 2 → Nat) a + S16x1024.size a ≤ S128x1024.size a
  slices_S8x1024_o7_0_S1x1024 : S8x1024.Slices ![7, 0] S1x1024
  inb_S1024x1024_S128x1024_896_0 : ∀ a, (![896, 0] : Fin 2 → Nat) a + S128x1024.size a ≤ S1024x1024.size a
  packedbf16_S1024x1024_S128x1024_896_0 : (Rect.unit (s := S1024x1024) ![896, 0] S128x1024.size inb_S1024x1024_S128x1024_896_0).PackedRows (EltTy.packing .bf16)
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  broadcasts_S1x1024_S2048x1024 : S1x1024.Broadcasts S2048x1024
  shapeCasts_S8192x11008_S4x2048x11008 : S8192x11008.ShapeCasts S4x2048x11008
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S128x1024.size a < S512x11008.size a
  hwx0_1 : ∀ i : grid0.Coords, EltTy.bits .i32 = 32 ∨ (Rect.unit (s := S512x11008) (fun a => cc0_transform_1 i a * S128x1024.size a) (fun a => (Pipeline.Clip.of (cc0_transform_1 i a) (S128x1024.size a) (S512x11008.size a)).extent (S128x1024.size a)) fun a => Pipeline.Clip.inb (Pipeline.Clip.ok_of (hstart0_1 i a))).WholeWords (EltTy.packing .i32)
  hwxs0_1 : ∀ i : grid0.Coords, EltTy.bits .i32 = 32 ∨ (Rect.unit (s := S128x1024) (fun _ => 0) (fun a => (Pipeline.Clip.of (cc0_transform_1 i a) (S128x1024.size a) (S512x11008.size a)).extent (S128x1024.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8x1024.size a < S32x11008.size a
  hwx0_2 : ∀ i : grid0.Coords, EltTy.bits .f32 = 32 ∨ (Rect.unit (s := S32x11008) (fun a => cc0_transform_2 i a * S8x1024.size a) (fun a => (Pipeline.Clip.of (cc0_transform_2 i a) (S8x1024.size a) (S32x11008.size a)).extent (S8x1024.size a)) fun a => Pipeline.Clip.inb (Pipeline.Clip.ok_of (hstart0_2 i a))).WholeWords (EltTy.packing .f32)
  hwxs0_2 : ∀ i : grid0.Coords, EltTy.bits .f32 = 32 ∨ (Rect.unit (s := S8x1024) (fun _ => 0) (fun a => (Pipeline.Clip.of (cc0_transform_2 i a) (S8x1024.size a) (S32x11008.size a)).extent (S8x1024.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S8x1024.size a < S32x11008.size a
  hwx0_3 : ∀ i : grid0.Coords, EltTy.bits .f32 = 32 ∨ (Rect.unit (s := S32x11008) (fun a => cc0_transform_3 i a * S8x1024.size a) (fun a => (Pipeline.Clip.of (cc0_transform_3 i a) (S8x1024.size a) (S32x11008.size a)).extent (S8x1024.size a)) fun a => Pipeline.Clip.inb (Pipeline.Clip.ok_of (hstart0_3 i a))).WholeWords (EltTy.packing .f32)
  hwxs0_3 : ∀ i : grid0.Coords, EltTy.bits .f32 = 32 ∨ (Rect.unit (s := S8x1024) (fun _ => 0) (fun a => (Pipeline.Clip.of (cc0_transform_3 i a) (S8x1024.size a) (S32x11008.size a)).extent (S8x1024.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1x1024.size a < S1x11008.size a
  hwx0_4 : ∀ i : grid0.Coords, EltTy.bits .f32 = 32 ∨ (Rect.unit (s := S1x11008) (fun a => cc0_transform_4 i a * S1x1024.size a) (fun a => (Pipeline.Clip.of (cc0_transform_4 i a) (S1x1024.size a) (S1x11008.size a)).extent (S1x1024.size a)) fun a => Pipeline.Clip.inb (Pipeline.Clip.ok_of (hstart0_4 i a))).WholeWords (EltTy.packing .f32)
  hwxs0_4 : ∀ i : grid0.Coords, EltTy.bits .f32 = 32 ∨ (Rect.unit (s := S1x1024) (fun _ => 0) (fun a => (Pipeline.Clip.of (cc0_transform_4 i a) (S1x1024.size a) (S1x11008.size a)).extent (S1x1024.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S2048x1024.size a < S8192x11008.size a
  hwx0_5 : ∀ i : grid0.Coords, EltTy.bits .f32 = 32 ∨ (Rect.unit (s := S8192x11008) (fun a => cc0_transform_5 i a * S2048x1024.size a) (fun a => (Pipeline.Clip.of (cc0_transform_5 i a) (S2048x1024.size a) (S8192x11008.size a)).extent (S2048x1024.size a)) fun a => Pipeline.Clip.inb (Pipeline.Clip.ok_of (hstart0_5 i a))).WholeWords (EltTy.packing .f32)
  hwxs0_5 : ∀ i : grid0.Coords, EltTy.bits .f32 = 32 ∨ (Rect.unit (s := S2048x1024) (fun _ => 0) (fun a => (Pipeline.Clip.of (cc0_transform_5 i a) (S2048x1024.size a) (S8192x11008.size a)).extent (S2048x1024.size a)) fun a => (Nat.zero_add _).trans_le (Pipeline.Clip.extent_le (Pipeline.Clip.ok_of (hstart0_5 i a)))).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_v1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S128x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v19) S8x1024.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_arg3) S8x1024.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v20) S1x1024.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v21) S2048x1024.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S512x11008 : Shape := ⟨2, ![512, 11008]⟩
abbrev S32x1376 : Shape := ⟨2, ![32, 1376]⟩
abbrev S32x11008 : Shape := ⟨2, ![32, 11008]⟩
abbrev S11008 : Shape := ⟨1, ![11008]⟩
abbrev S8 : Shape := ⟨1, ![8]⟩
abbrev S_ : Shape := ⟨0, ![]⟩
abbrev S512x1x11008 : Shape := ⟨3, ![512, 1, 11008]⟩
abbrev S1x8x1 : Shape := ⟨3, ![1, 8, 1]⟩
abbrev S512x8x11008 : Shape := ⟨3, ![512, 8, 11008]⟩
abbrev S4096x11008 : Shape := ⟨2, ![4096, 11008]⟩
abbrev S32x1376x1 : Shape := ⟨3, ![32, 1376, 1]⟩
abbrev S1x1x8 : Shape := ⟨3, ![1, 1, 8]⟩
abbrev S32x1376x8 : Shape := ⟨3, ![32, 1376, 8]⟩
abbrev S4096 : Shape := ⟨1, ![4096]⟩
abbrev S4096x1 : Shape := ⟨2, ![4096, 1]⟩
abbrev S8192x4096 : Shape := ⟨2, ![8192, 4096]⟩
abbrev S8192x11008 : Shape := ⟨2, ![8192, 11008]⟩
abbrev S4x2048x11008 : Shape := ⟨3, ![4, 2048, 11008]⟩
abbrev S1x1x11008 : Shape := ⟨3, ![1, 1, 11008]⟩

abbrev nBuf : Space → Nat
  | .hbm => 90
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S512x11008, .i32⟩
  | .hbm, ⟨2, _⟩ => ⟨S32x1376, .i32⟩
  | .hbm, ⟨3, _⟩ => ⟨S32x11008, .f32⟩
  | .hbm, ⟨4, _⟩ => ⟨S11008, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S512x1x11008, .i32⟩
  | .hbm, ⟨13, _⟩ => ⟨S1x8x1, .i32⟩
  | .hbm, ⟨14, _⟩ => ⟨S512x8x11008, .i32⟩
  | .hbm, ⟨15, _⟩ => ⟨S512x8x11008, .i32⟩
  | .hbm, ⟨16, _⟩ => ⟨S512x8x11008, .i32⟩
  | .hbm, ⟨17, _⟩ => ⟨S_, .i32⟩
  | .hbm, ⟨18, _⟩ => ⟨S512x8x11008, .i32⟩
  | .hbm, ⟨19, _⟩ => ⟨S512x8x11008, .i32⟩
  | .hbm, ⟨20, _⟩ => ⟨S4096x11008, .i32⟩
  | .hbm, ⟨21, _⟩ => ⟨S8, .i32⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S32x1376x1, .i32⟩
  | .hbm, ⟨29, _⟩ => ⟨S1x1x8, .i32⟩
  | .hbm, ⟨30, _⟩ => ⟨S32x1376x8, .i32⟩
  | .hbm, ⟨31, _⟩ => ⟨S32x1376x8, .i32⟩
  | .hbm, ⟨32, _⟩ => ⟨S32x1376x8, .i32⟩
  | .hbm, ⟨33, _⟩ => ⟨S_, .i32⟩
  | .hbm, ⟨34, _⟩ => ⟨S32x1376x8, .i32⟩
  | .hbm, ⟨35, _⟩ => ⟨S32x1376x8, .i32⟩
  | .hbm, ⟨36, _⟩ => ⟨S_, .i32⟩
  | .hbm, ⟨37, _⟩ => ⟨S32x1376x8, .i32⟩
  | .hbm, ⟨38, _⟩ => ⟨S32x1376x8, .i32⟩
  | .hbm, ⟨39, _⟩ => ⟨S_, .i32⟩
  | .hbm, ⟨40, _⟩ => ⟨S32x1376x8, .i32⟩
  | .hbm, ⟨41, _⟩ => ⟨S32x1376x8, .i32⟩
  | .hbm, ⟨42, _⟩ => ⟨S32x11008, .i32⟩
  | .hbm, ⟨43, _⟩ => ⟨S4096, .i32⟩
  | .hbm, ⟨44, _⟩ => ⟨S_, .i32⟩
  | .hbm, ⟨45, _⟩ => ⟨S_, .i32⟩
  | .hbm, ⟨46, _⟩ => ⟨S4096, .i32⟩
  | .hbm, ⟨47, _⟩ => ⟨S4096, .i32⟩
  | .hbm, ⟨48, _⟩ => ⟨S4096, .i32⟩
  | .hbm, ⟨49, _⟩ => ⟨S_, .i32⟩
  | .hbm, ⟨50, _⟩ => ⟨S4096, .i32⟩
  | .hbm, ⟨51, _⟩ => ⟨S4096, .i1⟩
  | .hbm, ⟨52, _⟩ => ⟨S4096, .i32⟩
  | .hbm, ⟨53, _⟩ => ⟨S4096, .i32⟩
  | .hbm, ⟨54, _⟩ => ⟨S_, .i32⟩
  | .hbm, ⟨55, _⟩ => ⟨S4096, .i32⟩
  | .hbm, ⟨56, _⟩ => ⟨S4096, .i1⟩
  | .hbm, ⟨57, _⟩ => ⟨S4096, .i1⟩
  | .hbm, ⟨58, _⟩ => ⟨S_, .i32⟩
  | .hbm, ⟨59, _⟩ => ⟨S4096, .i32⟩
  | .hbm, ⟨60, _⟩ => ⟨S4096, .i32⟩
  | .hbm, ⟨61, _⟩ => ⟨S4096, .i32⟩
  | .hbm, ⟨62, _⟩ => ⟨S4096x11008, .f32⟩
  | .hbm, ⟨63, _⟩ => ⟨S_, .i32⟩
  | .hbm, ⟨64, _⟩ => ⟨S4096, .i32⟩
  | .hbm, ⟨65, _⟩ => ⟨S4096, .i1⟩
  | .hbm, ⟨66, _⟩ => ⟨S_, .i32⟩
  | .hbm, ⟨67, _⟩ => ⟨S4096, .i32⟩
  | .hbm, ⟨68, _⟩ => ⟨S4096, .i32⟩
  | .hbm, ⟨69, _⟩ => ⟨S4096, .i32⟩
  | .hbm, ⟨70, _⟩ => ⟨S4096x1, .i32⟩
  | .hbm, ⟨71, _⟩ => ⟨S4096x11008, .i32⟩
  | .hbm, ⟨72, _⟩ => ⟨S4096x11008, .f32⟩
  | .hbm, ⟨73, _⟩ => ⟨S4096x11008, .f32⟩
  | .hbm, ⟨74, _⟩ => ⟨S_, .i32⟩
  | .hbm, ⟨75, _⟩ => ⟨S4096, .i32⟩
  | .hbm, ⟨76, _⟩ => ⟨S4096, .i1⟩
  | .hbm, ⟨77, _⟩ => ⟨S_, .i32⟩
  | .hbm, ⟨78, _⟩ => ⟨S4096, .i32⟩
  | .hbm, ⟨79, _⟩ => ⟨S4096, .i32⟩
  | .hbm, ⟨80, _⟩ => ⟨S4096, .i32⟩
  | .hbm, ⟨81, _⟩ => ⟨S4096x1, .i32⟩
  | .hbm, ⟨82, _⟩ => ⟨S4096x11008, .f32⟩
  | .hbm, ⟨83, _⟩ => ⟨S4096x11008, .f32⟩
  | .hbm, ⟨84, _⟩ => ⟨S8192x4096, .f32⟩
  | .hbm, ⟨85, _⟩ => ⟨S8192x11008, .f32⟩
  | .hbm, ⟨86, _⟩ => ⟨S4x2048x11008, .f32⟩
  | .hbm, ⟨87, _⟩ => ⟨S1x1x11008, .f32⟩
  | .hbm, ⟨88, _⟩ => ⟨S4x2048x11008, .f32⟩
  | .hbm, ⟨89, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_7 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_c : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_0 : Ref sig .tc := ⟨.hbm, 58, rfl⟩
abbrev main_call0_v12 : Ref sig .tc := ⟨.hbm, 59, rfl⟩
abbrev main_call0_v13 : Ref sig .tc := ⟨.hbm, 60, rfl⟩
abbrev main_v31 : Ref sig .tc := ⟨.hbm, 61, rfl⟩
abbrev main_v32 : Ref sig .tc := ⟨.hbm, 62, rfl⟩
abbrev main_c_8 : Ref sig .tc := ⟨.hbm, 63, rfl⟩
abbrev main_v33 : Ref sig .tc := ⟨.hbm, 64, rfl⟩
abbrev main_v34 : Ref sig .tc := ⟨.hbm, 65, rfl⟩
abbrev main_c_9 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_c_10 : Ref sig .tc := ⟨.hbm, 74, rfl⟩
abbrev main_v42 : Ref sig .tc := ⟨.hbm, 75, rfl⟩
abbrev main_v43 : Ref sig .tc := ⟨.hbm, 76, rfl⟩
abbrev main_c_11 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x11008_S512x1x11008_0_2 : S512x11008.BroadcastsInDim S512x1x11008 (![0, 2] : Fin 2 → Fin S512x1x11008.rank)
  bcast_S8_S1x8x1_1 : S8.BroadcastsInDim S1x8x1 (![1] : Fin 1 → Fin S1x8x1.rank)
  bcast_S512x1x11008_S512x8x11008_0_1_2 : S512x1x11008.BroadcastsInDim S512x8x11008 (![0, 1, 2] : Fin 3 → Fin S512x8x11008.rank)
  bcast_S1x8x1_S512x8x11008_0_1_2 : S1x8x1.BroadcastsInDim S512x8x11008 (![0, 1, 2] : Fin 3 → Fin S512x8x11008.rank)
  bcast_S_S512x8x11008 : S_.BroadcastsInDim S512x8x11008 (![] : Fin 0 → Fin S512x8x11008.rank)
  shapeCasts_S512x8x11008_S4096x11008 : S512x8x11008.ShapeCasts S4096x11008
  bcast_S32x1376_S32x1376x1_0_1 : S32x1376.BroadcastsInDim S32x1376x1 (![0, 1] : Fin 2 → Fin S32x1376x1.rank)
  bcast_S8_S1x1x8_2 : S8.BroadcastsInDim S1x1x8 (![2] : Fin 1 → Fin S1x1x8.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  bcast_S_S4096 : S_.BroadcastsInDim S4096 (![] : Fin 0 → Fin S4096.rank)
  bcast_S4096_S4096x1_0 : S4096.BroadcastsInDim S4096x1 (![0] : Fin 1 → Fin S4096x1.rank)
  shapeCasts_S4x2048x4096_S8192x4096 : S4x2048x4096.ShapeCasts S8192x4096
  shapeCasts_S8192x11008_S4x2048x11008 : S8192x11008.ShapeCasts S4x2048x11008
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  gather_S32x11008_S4096x1_S4096x11008_1_0_n_n_0_1_111008_wf : GatherDims.WF S32x11008 S4096x1 S4096x11008 [1] [0] [] [0] [] 1 ![1, 11008]
  dot_S8192x4096_S4096x11008_S8192x11008_1_0_0_1_n_n_wf : DotDims.WF S8192x4096 S4096x11008 S8192x11008 [1] [0] [0] [1] [] []

variable [Facts₀]

def gather_S32x11008_S4096x1_S4096x11008_1_0_n_n_0_1_111008 : GatherDims S32x11008 S4096x1 S4096x11008 where
  offsetDims := [1]
  collapsedSliceDims := [0]
  operandBatchingDims := []
  startIndicesBatchingDims := []
  startIndexMap := [0]
  indexVectorDim := 1
  sliceSizes := ![1, 11008]
  wf := gather_S32x11008_S4096x1_S4096x11008_1_0_n_n_0_1_111008_wf
def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf

class Facts : Prop extends Facts₀ where

variable [Facts]
-- ==== Proof.BData.lean ====
/-
  The proof data of the one pipelined call, on one core, with the output block's contents after each grid point left as
  a parameter `out`.

  The arrays are what the call finds (the host operations before it have run). After the body at point `t` each INPUT
  window's staging buffer holds that window's block at `t`: the `x` window's blocks tile its array; the other four
  windows' blocks are cut at the array's last column block (11008 = 10·1024 + 768), where a fetch fills only the leading
  768 columns — there the data names the block on those columns and a zero word on the rest, and the obligation only
  ever speaks of the columns the fetch fills. The body's invariant is the class invariant (the weight scratch at some
  contents and the generator register); nothing is owed and every share is full.

  What the body finds in an input window's buffer at any point is then "the block where the fetch fills it, anything
  elsewhere" — also for the bias window, which is fetched only where the column block changes (every fourth point) and
  kept in between: its cut is a function of its block index, which has not moved.
-/
import proofs.«416578_j10419590660824_3_alg».proof.Proof.Gen.Kernel.Frame
import Idealize.ShloMosaic.Lib.Pipeline.FrameBody
import Idealize.ShloMosaic.Lib.Pipeline.Frame

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

variable (m : (ℓ : Loc nD τ sig) → Buf (Elt F) ℓ)

/-- The proof data on core `c`, the output block's contents after each point given by `out`. -/
def datOf (out : Fin cfg0.N → S2048x1024.Idx → F .f32) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0#32 : BitVec 32)) (iblk m c 1 t)
    | ⟨2, _⟩ => win0_2.fill (grid0.coords t) (fun _ => (Scalar.ofBits .f32 0#32 : F .f32)) (iblk m c 2 t)
    | ⟨3, _⟩ => win0_3.fill (grid0.coords t) (fun _ => (Scalar.ofBits .f32 0#32 : F .f32)) (iblk m c 3 t)
    | ⟨4, _⟩ => win0_4.fill (grid0.coords t) (fun _ => (Scalar.ofBits .f32 0#32 : F .f32)) (iblk m c 4 t)
    | ⟨5, _⟩ => out t
  Φ _ := Pipeline.ΦA spec0 c
  q _ := fullShare
  owed _ := 0

variable (out : Fin cfg0.N → S2048x1024.Idx → F .f32) (c : Dev nD)

theorem datOf_A (w : Fin cfg0.W) : (datOf m out c).A w = V m c (Pipeline.arrRef spec0 w) := rfl
theorem datOf_Φ (t : Fin (cfg0.N + 1)) : (datOf m out c).Φ t = Pipeline.ΦA spec0 c := rfl

/-- A cut window's cut is a function of its block index. -/
theorem clip_of_index (w : Fin cfg0.W) (t t' : Fin cfg0.N) (h : (cfg0.win w).index t = (cfg0.win w).index t') :
    (cfg0.win w).clip (cfg0.grid.coords t) = (cfg0.win w).clip (cfg0.grid.coords t') := by
  have h' : (cfg0.win w).indexMap (cfg0.grid.coords t) = (cfg0.win w).indexMap (cfg0.grid.coords t') := h
  match w with
  | ⟨0, _⟩ => rfl
  | ⟨1, _⟩ => exact funext fun a => congrArg (fun z => Pipeline.Clip.of z (S128x1024.size a) (S512x11008.size a)) (congrFun h' a)
  | ⟨2, _⟩ => exact funext fun a => congrArg (fun z => Pipeline.Clip.of z (S8x1024.size a) (S32x11008.size a)) (congrFun h' a)
  | ⟨3, _⟩ => exact funext fun a => congrArg (fun z => Pipeline.Clip.of z (S8x1024.size a) (S32x11008.size a)) (congrFun h' a)
  | ⟨4, _⟩ => exact funext fun a => congrArg (fun z => Pipeline.Clip.of z (S1x1024.size a) (S1x11008.size a)) (congrFun h' a)
  | ⟨5, _⟩ => exact funext fun a => congrArg (fun z => Pipeline.Clip.of z (S2048x1024.size a) (S8192x11008.size a)) (congrFun h' a)

/-- What the body leaves in each cut input window's buffer, on the columns the fetch fills, is the block. -/
theorem keep_1 (t : Fin cfg0.N) : (cfg0.win 1).cut (cfg0.grid.coords t) ((datOf m out c).after 1 t) = (datOf m out c).blockOf 1 t :=
  win0_1.cut_fill _ _ _
theorem keep_2 (t : Fin cfg0.N) : (cfg0.win 2).cut (cfg0.grid.coords t) ((datOf m out c).after 2 t) = (datOf m out c).blockOf 2 t :=
  win0_2.cut_fill _ _ _
theorem keep_3 (t : Fin cfg0.N) : (cfg0.win 3).cut (cfg0.grid.coords t) ((datOf m out c).after 3 t) = (datOf m out c).blockOf 3 t :=
  win0_3.cut_fill _ _ _
theorem keep_4 (t : Fin cfg0.N) : (cfg0.win 4).cut (cfg0.grid.coords t) ((datOf m out c).after 4 t) = (datOf m out c).blockOf 4 t :=
  win0_4.cut_fill _ _ _

/-- What the body finds in the `x` window's buffer: its block. -/
theorem before_0 (t : Fin cfg0.N) (d) : (datOf m out c).before 0 t d = iblk m c 0 t :=
  before0_0_of m (datOf m out c) rfl (fun _ => rfl) t d

/-- What the body finds in a cut input window's buffer: the block on the columns the fetch fills, anything elsewhere. -/
theorem before_1 (t : Fin cfg0.N) (d) : (datOf m out c).before 1 t d = win0_1.fill (grid0.coords t) d (iblk m c 1 t) :=
  (datOf m out c).before_in_eq_fetched 1 rfl (fun _ => rfl) (clip_of_index 1) (keep_1 m out c) t d
theorem before_2 (t : Fin cfg0.N) (d) : (datOf m out c).before 2 t d = win0_2.fill (grid0.coords t) d (iblk m c 2 t) :=
  (datOf m out c).before_in_eq_fetched 2 rfl (fun _ => rfl) (clip_of_index 2) (keep_2 m out c) t d
theorem before_3 (t : Fin cfg0.N) (d) : (datOf m out c).before 3 t d = win0_3.fill (grid0.coords t) d (iblk m c 3 t) :=
  (datOf m out c).before_in_eq_fetched 3 rfl (fun _ => rfl) (clip_of_index 3) (keep_3 m out c) t d
theorem before_4 (t : Fin cfg0.N) (d) : (datOf m out c).before 4 t d = win0_4.fill (grid0.coords t) d (iblk m c 4 t) :=
  (datOf m out c).before_in_eq_fetched 4 rfl (fun _ => rfl) (clip_of_index 4) (keep_4 m out c) t d

/-- What the `x` window's buffer holds after the body is its block (the window is not cut). -/
theorem after_0 (t : Fin cfg0.N) : (datOf m out c).after 0 t = iblk m c 0 t := rfl
theorem after_5 (t : Fin cfg0.N) : (datOf m out c).after 5 t = out t := rfl

/-- For a cut input window, what the loose obligation asks back — the data's contents on the columns the fetch fills,
    `d` elsewhere — is what the body found there. -/
theorem leaves_1 (t : Fin cfg0.N) (d) :
    (win0 1).fill (grid0.coords t) d ((win0 1).cut (grid0.coords t) ((datOf m out c).after 1 t)) = (datOf m out c).before 1 t d := by
  rw [show (win0 1).cut (grid0.coords t) ((datOf m out c).after 1 t) = (datOf m out c).blockOf 1 t from keep_1 m out c t]
  exact ((datOf m out c).before_in_eq_fetched 1 rfl (fun _ => rfl) (clip_of_index 1) (keep_1 m out c) t d).symm
theorem leaves_2 (t : Fin cfg0.N) (d) :
    (win0 2).fill (grid0.coords t) d ((win0 2).cut (grid0.coords t) ((datOf m out c).after 2 t)) = (datOf m out c).before 2 t d := by
  rw [show (win0 2).cut (grid0.coords t) ((datOf m out c).after 2 t) = (datOf m out c).blockOf 2 t from keep_2 m out c t]
  exact ((datOf m out c).before_in_eq_fetched 2 rfl (fun _ => rfl) (clip_of_index 2) (keep_2 m out c) t d).symm
theorem leaves_3 (t : Fin cfg0.N) (d) :
    (win0 3).fill (grid0.coords t) d ((win0 3).cut (grid0.coords t) ((datOf m out c).after 3 t)) = (datOf m out c).before 3 t d := by
  rw [show (win0 3).cut (grid0.coords t) ((datOf m out c).after 3 t) = (datOf m out c).blockOf 3 t from keep_3 m out c t]
  exact ((datOf m out c).before_in_eq_fetched 3 rfl (fun _ => rfl) (clip_of_index 3) (keep_3 m out c) t d).symm
theorem leaves_4 (t : Fin cfg0.N) (d) :
    (win0 4).fill (grid0.coords t) d ((win0 4).cut (grid0.coords t) ((datOf m out c).after 4 t)) = (datOf m out c).before 4 t d := by
  rw [show (win0 4).cut (grid0.coords t) ((datOf m out c).after 4 t) = (datOf m out c).blockOf 4 t from keep_4 m out c t]
  exact ((datOf m out c).before_in_eq_fetched 4 rfl (fun _ => rfl) (clip_of_index 4) (keep_4 m out c) t d).symm

end Cert.Kernel.Hand

end
-- ==== Proof.BRunMid.lean ====
/-
  The kernel body at a grid point whose reduction coordinate is neither the first nor the last: neither branch is
  taken. On any seven whole buffers — the five inputs at named contents, the output block at its running contents, the
  weight scratch at anything — the body runs without a fault, leaves the inputs as found, leaves the scratch at some contents, and
  leaves the output block written over by a list of pieces; that list is what the run itself finds, and is this
  definition's value. Nothing is assumed of the float instance.
-/
import proofs.«416578_j10419590660824_3_alg».proof.Proof.Gen.Kernel.Frame
import proofs.«416578_j10419590660824_3_alg».proof.Proof.Gen.Kernel.Skeleton
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition (the reduction coordinate is 0) and the second's (it is 3), as the body computes them
    from the grid coordinates. -/
abbrev condFirst (i : grid0.Coords) : Prop := (Scalar.cmpi .ne (Scalar.extui (Scalar.cmpi .eq (BitVec.ofNat 32 (i 2).val) 0#32)) 0#32) = 1#1
abbrev condLast (i : grid0.Coords) : Prop := (Scalar.cmpi .ne (Scalar.extui (Scalar.cmpi .eq (BitVec.ofNat 32 (i 2).val) 3#32)) 0#32) = 1#1

/-- The reduction axis is the innermost of the grid and has four points: the first branch is taken at the points
    ≡ 0 (mod 4) and the second at those ≡ 3 (mod 4). -/
theorem hcondFirst : ∀ t : Fin cfg0.N, condFirst (grid0.coords t) ↔ t.val % 4 = 0 :=
  (by decide +kernel : ∀ t : Fin grid0.N, condFirst (grid0.coords t) ↔ t.val % 4 = 0)
theorem hcondLast : ∀ t : Fin cfg0.N, condLast (grid0.coords t) ↔ t.val % 4 = 3 :=
  (by decide +kernel : ∀ t : Fin grid0.N, condLast (grid0.coords t) ↔ t.val % 4 = 3)

set_option maxHeartbeats 4000000 in
/-- The body where neither branch is taken: the output block is read at its running contents `xo` and stored once. -/
noncomputable def kernelRunMid (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S1024x1024 .bf16) (harg9 : arg9.IsWhole) (hc1 : ¬condFirst i) (hc2 : ¬condLast i)
    (x0 : Vec F S2048x1024 .bf16) (x1 : Vec F S128x1024 .i32) (x2 : Vec F S8x1024 .f32) (x3 : Vec F S8x1024 .f32) (x4 : Vec F S1x1024 .f32) (xo : Vec F S2048x1024 .f32) :
    { L : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare xo
            ∗ (∃ d, owns (c : Thread nD τ) arg9 fullShare d)
            ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
                ∗ (∃ f, arg8.view.loc (c : Thread nD τ) ↦[arg8.view.set]{fullShare} arg8.view.writes (Elt F) f L)
                ∗ (∃ d, owns (c : Thread nD τ) arg9 fullShare d)) -∗ K ⟨⟩))
          ⊢ wp frame (wpE (defs₀ (F := F)) Variants.none c none) E (cc0__qlinear_kernel i arg3 harg3 arg4 harg4 arg5 harg5 arg6 harg6 arg7 harg7 arg8 harg8 arg9 harg9) K } := by
  refine ⟨?_, fun E K => ?run⟩
  case run =>
    simp only [cc0__qlinear_kernel_eq_skeleton]; unfold cc0__qlinear_kernel_skel
    simp only [k0_part1_eq_skeleton, k0_part2_eq_skeleton, k0_part3_eq_skeleton, k0_part4_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg3.eq_unread hf3; obtain rfl := harg4.eq_unread hf4; obtain rfl := harg5.eq_unread hf5
    obtain rfl := harg6.eq_unread hf6; obtain rfl := harg7.eq_unread hf7; obtain rfl := harg8.eq_unread hf8
    sl_exec (disch := first | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    · iexists _, _; isplitr; swap; · iexact H9
      ipureintro; rfl

end Cert.Kernel.Hand

end
-- ==== Proof.BRunFirst.lean ====
/-
  The kernel body at a grid point whose reduction coordinate is the first: the first branch stores zeros over the
  output block before anything reads it, so the block may arrive at any contents; the second branch is not taken.
-/
import proofs.«416578_j10419590660824_3_alg».proof.Proof.BRunMid
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the first branch is taken and the second is not: the output block arrives at anything and is stored twice (zeros, then the accumulated product). -/
noncomputable def kernelRunFirst (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S1024x1024 .bf16) (harg9 : arg9.IsWhole) (hc1 : condFirst i) (hc2 : ¬condLast i)
    (x0 : Vec F S2048x1024 .bf16) (x1 : Vec F S128x1024 .i32) (x2 : Vec F S8x1024 .f32) (x3 : Vec F S8x1024 .f32) (x4 : Vec F S1x1024 .f32) :
    { L : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg8 fullShare d)
            ∗ (∃ d, owns (c : Thread nD τ) arg9 fullShare d)
            ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
                ∗ (∃ f, arg8.view.loc (c : Thread nD τ) ↦[arg8.view.set]{fullShare} arg8.view.writes (Elt F) f L)
                ∗ (∃ d, owns (c : Thread nD τ) arg9 fullShare d)) -∗ K ⟨⟩))
          ⊢ wp frame (wpE (defs₀ (F := F)) Variants.none c none) E (cc0__qlinear_kernel i arg3 harg3 arg4 harg4 arg5 harg5 arg6 harg6 arg7 harg7 arg8 harg8 arg9 harg9) K } := by
  refine ⟨?_, fun E K => ?run⟩
  case run =>
    simp only [cc0__qlinear_kernel_eq_skeleton]; unfold cc0__qlinear_kernel_skel
    simp only [k0_part1_eq_skeleton, k0_part2_eq_skeleton, k0_part3_eq_skeleton, k0_part4_eq_skeleton]
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg3.eq_unread hf3; obtain rfl := harg4.eq_unread hf4; obtain rfl := harg5.eq_unread hf5
    obtain rfl := harg6.eq_unread hf6; obtain rfl := harg7.eq_unread hf7
    sl_exec (disch := first | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    · iexists _, _; isplitr; swap; · iexact H9
      ipureintro; rfl

end Cert.Kernel.Hand

end
-- ==== Proof.BRunLast.lean ====
/-
  The kernel body at a grid point whose reduction coordinate is the last: the first branch is not taken, and the second
  adds the bias row to the output block after the product has been accumulated into it.
-/
import proofs.«416578_j10419590660824_3_alg».proof.Proof.BRunFirst
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the second branch is taken and the first is not: the output block is read at its running contents `xo` and stored twice (the accumulated product, then that plus the bias row). -/
noncomputable def kernelRunLast (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S1024x1024 .bf16) (harg9 : arg9.IsWhole) (hc1 : ¬condFirst i) (hc2 : condLast i)
    (x0 : Vec F S2048x1024 .bf16) (x1 : Vec F S128x1024 .i32) (x2 : Vec F S8x1024 .f32) (x3 : Vec F S8x1024 .f32) (x4 : Vec F S1x1024 .f32) (xo : Vec F S2048x1024 .f32) :
    { L : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare xo
            ∗ (∃ d, owns (c : Thread nD τ) arg9 fullShare d)
            ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
                ∗ (∃ f, arg8.view.loc (c : Thread nD τ) ↦[arg8.view.set]{fullShare} arg8.view.writes (Elt F) f L)
                ∗ (∃ d, owns (c : Thread nD τ) arg9 fullShare d)) -∗ K ⟨⟩))
          ⊢ wp frame (wpE (defs₀ (F := F)) Variants.none c none) E (cc0__qlinear_kernel i arg3 harg3 arg4 harg4 arg5 harg5 arg6 harg6 arg7 harg7 arg8 harg8 arg9 harg9) K } := by
  refine ⟨?_, fun E K => ?run⟩
  case run =>
    simp only [cc0__qlinear_kernel_eq_skeleton]; unfold cc0__qlinear_kernel_skel
    simp only [k0_part1_eq_skeleton, k0_part2_eq_skeleton, k0_part3_eq_skeleton, k0_part4_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg3.eq_unread hf3; obtain rfl := harg4.eq_unread hf4; obtain rfl := harg5.eq_unread hf5
    obtain rfl := harg6.eq_unread hf6; obtain rfl := harg7.eq_unread hf7; obtain rfl := harg8.eq_unread hf8
    sl_exec (disch := first | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    · iexists _, _; isplitr; swap; · iexact H9
      ipureintro; rfl

end Cert.Kernel.Hand

end
-- ==== Proof.BFrame.lean ====
/-
  The frame of the program: it runs to the end without a fault and its argument arrays end as they began — at any
  float instance.

  The output block's staging buffer is read back by the body at the later reduction steps, and the block is cut at the
  array's last column block, so what the buffer holds on the columns past the array's end is never named; over an
  arbitrary float instance the matrix product is an uninterpreted function of its whole operands, so nothing can be
  said of the accumulated block either. The frame needs neither: the output window is FORGOTTEN (handed to the body at
  any contents, taken back at any contents), and the obligation is then only that the body, from any contents of the
  seven buffers, runs without a fault and leaves the five input buffers as it found them — the three case runs. Each
  input's buffer goes back holding what it held, which on the columns its fetch fills is its block: all the loose
  obligation asks of a cut window.

  The run is the library's frame run around the call with relational data; its post gives every array a window stages
  and every other unscoped buffer but the one the host operation after the call writes (the reshaped result) at its
  contents when the call was entered, and no host operation before the call writes an argument.
-/
import proofs.«416578_j10419590660824_3_alg».proof.Proof.BData
import proofs.«416578_j10419590660824_3_alg».proof.Proof.BRunLast
import Idealize.ShloMosaic.Lib.Pipeline.FrameSuffix
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ)

/-- The windows the frame forgets: the output's. -/
abbrev fgtOut : Fin cfg0.W → Bool := fun | 0 => false | 1 => false | 2 => false | 3 => false | 4 => false | 5 => true | ⟨_ + 6, h⟩ => absurd h (Nat.not_lt.2 (Nat.le_add_left _ _))

/-- The weight scratch at some contents, as the class invariant holds it and as the body's runs take it. -/
theorem scr_in (c : Dev nD) :
    (iprop(∃ f : Buf (Elt F) ((c : Thread nD τ).loc cc0_scratch0), ((c : Thread nD τ).loc cc0_scratch0) ↦{fullShare} f) : sProp 𝕄)
      ⊢ iprop(∃ d, owns (c : Thread nD τ) (Memref.whole cc0_scratch0 : Memref sig .tc .vmem S1024x1024 .bf16) fullShare d) := by
  simp only [owns_whole_eq]
  iintro ⟨%f, H⟩; iexists f, f; isplitr; · ipureintro; rfl
  iexact H
theorem scr_out (c : Dev nD) :
    (iprop(∃ d, owns (c : Thread nD τ) (Memref.whole cc0_scratch0 : Memref sig .tc .vmem S1024x1024 .bf16) fullShare d) : sProp 𝕄)
      ⊢ iprop(∃ f : Buf (Elt F) ((c : Thread nD τ).loc cc0_scratch0), ((c : Thread nD τ).loc cc0_scratch0) ↦{fullShare} f) := by
  simp only [owns_whole_eq]
  iintro ⟨%d, %f, -, H⟩; iexists f; iexact H

variable (out : Fin cfg0.N → S2048x1024.Idx → F .f32) (c : Dev nD)

set_option maxHeartbeats 2000000 in
/-- The body at point `t`, the output window forgotten: by the reduction coordinate's case (first, last, or neither),
    the case's run on the point's staging buffers and the scratch. -/
theorem sound_body_fgt (t : Fin cfg0.N) :
    iprop(Pipeline.ΦA spec0 c ∗ (datOf m out c).owesAt () t.castSucc
        ∗ (∃ d, owns (c : Thread nD τ) (st0_0 t) fullShare ((datOf m out c).before 0 t d))
        ∗ (∃ d, owns (c : Thread nD τ) (st0_1 t) fullShare ((datOf m out c).before 1 t d))
        ∗ (∃ d, owns (c : Thread nD τ) (st0_2 t) fullShare ((datOf m out c).before 2 t d))
        ∗ (∃ d, owns (c : Thread nD τ) (st0_3 t) fullShare ((datOf m out c).before 3 t d))
        ∗ (∃ d, owns (c : Thread nD τ) (st0_4 t) fullShare ((datOf m out c).before 4 t d))
        ∗ (∃ X, owns (c : Thread nD τ) (st0_5 t) fullShare X))
      ⊢ wp frame (wpE (defs₀ (F := F)) Variants.none c none) Set.univ (bodyAt0 (F := F) t) (fun _ =>
          iprop(Pipeline.ΦA spec0 c ∗ (datOf m out c).owesAt () t.castSucc
            ∗ owns (c : Thread nD τ) (st0_0 t) fullShare ((datOf m out c).after 0 t)
            ∗ (∃ d, owns (c : Thread nD τ) (st0_1 t) fullShare ((win0 1).fill (grid0.coords t) d ((win0 1).cut (grid0.coords t) ((datOf m out c).after 1 t))))
            ∗ (∃ d, owns (c : Thread nD τ) (st0_2 t) fullShare ((win0 2).fill (grid0.coords t) d ((win0 2).cut (grid0.coords t) ((datOf m out c).after 2 t))))
            ∗ (∃ d, owns (c : Thread nD τ) (st0_3 t) fullShare ((win0 3).fill (grid0.coords t) d ((win0 3).cut (grid0.coords t) ((datOf m out c).after 3 t))))
            ∗ (∃ d, owns (c : Thread nD τ) (st0_4 t) fullShare ((win0 4).fill (grid0.coords t) d ((win0 4).cut (grid0.coords t) ((datOf m out c).after 4 t))))
            ∗ (∃ X, owns (c : Thread nD τ) (st0_5 t) fullShare X))) := by
  unfold Pipeline.ΦA
  rw [scopedRest0_eq c]
  iintro ⟨⟨⟨%fs, HS⟩, Hg⟩, Ho, ⟨%d0, H0⟩, ⟨%d1, H1⟩, ⟨%d2, H2⟩, ⟨%d3, H3⟩, ⟨%d4, H4⟩, ⟨%X5, H5⟩⟩
  rw [before_0 m out c t d0]
  by_cases h0 : t.val % 4 = 0
  · have hc1 : condFirst (grid0.coords t) := (hcondFirst t).mpr h0
    have hc2 : ¬condLast (grid0.coords t) := fun h => by have := (hcondLast t).mp h; omega
    iapply ((kernelRunFirst (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) hc1 hc2 (iblk m c 0 t) ((datOf m out c).before 1 t d1) ((datOf m out c).before 2 t d2) ((datOf m out c).before 3 t d3) ((datOf m out c).before 4 t d4)).2 Set.univ _)
    isplitl [H0]; · iexact H0
    isplitl [H1]; · iexact H1
    isplitl [H2]; · iexact H2
    isplitl [H3]; · iexact H3
    isplitl [H4]; · iexact H4
    isplitl [H5]; · iexists X5; iexact H5
    isplitl [HS]
    · iapply (scr_in (F := F) c); iexists fs; iexact HS
    iintro ⟨H0, H1, H2, H3, H4, ⟨%f8, H8⟩, H9⟩
    isplitl [H9 Hg]
    · isplitl [H9]
      · iapply (scr_out (F := F) c); iexact H9
      · iexact Hg
    isplitl [Ho]; · iexact Ho
    isplitl [H0]; · rw [after_0]; iexact H0
    isplitl [H1]; · iexists d1; rw [leaves_1 m out c t d1]; iexact H1
    isplitl [H2]; · iexists d2; rw [leaves_2 m out c t d2]; iexact H2
    isplitl [H3]; · iexists d3; rw [leaves_3 m out c t d3]; iexact H3
    isplitl [H4]; · iexists d4; rw [leaves_4 m out c t d4]; iexact H4
    unfold owns; iexists _, _; isplitr; swap; · iexact H8
    ipureintro; rfl
  by_cases h3 : t.val % 4 = 3
  · have hc1 : ¬condFirst (grid0.coords t) := fun h => h0 ((hcondFirst t).mp h)
    have hc2 : condLast (grid0.coords t) := (hcondLast t).mpr h3
    iapply ((kernelRunLast (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) hc1 hc2 (iblk m c 0 t) ((datOf m out c).before 1 t d1) ((datOf m out c).before 2 t d2) ((datOf m out c).before 3 t d3) ((datOf m out c).before 4 t d4) X5).2 Set.univ _)
    isplitl [H0]; · iexact H0
    isplitl [H1]; · iexact H1
    isplitl [H2]; · iexact H2
    isplitl [H3]; · iexact H3
    isplitl [H4]; · iexact H4
    isplitl [H5]; · iexact H5
    isplitl [HS]
    · iapply (scr_in (F := F) c); iexists fs; iexact HS
    iintro ⟨H0, H1, H2, H3, H4, ⟨%f8, H8⟩, H9⟩
    isplitl [H9 Hg]
    · isplitl [H9]
      · iapply (scr_out (F := F) c); iexact H9
      · iexact Hg
    isplitl [Ho]; · iexact Ho
    isplitl [H0]; · rw [after_0]; iexact H0
    isplitl [H1]; · iexists d1; rw [leaves_1 m out c t d1]; iexact H1
    isplitl [H2]; · iexists d2; rw [leaves_2 m out c t d2]; iexact H2
    isplitl [H3]; · iexists d3; rw [leaves_3 m out c t d3]; iexact H3
    isplitl [H4]; · iexists d4; rw [leaves_4 m out c t d4]; iexact H4
    unfold owns; iexists _, _; isplitr; swap; · iexact H8
    ipureintro; rfl
  · have hc1 : ¬condFirst (grid0.coords t) := fun h => h0 ((hcondFirst t).mp h)
    have hc2 : ¬condLast (grid0.coords t) := fun h => h3 ((hcondLast t).mp h)
    iapply ((kernelRunMid (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) hc1 hc2 (iblk m c 0 t) ((datOf m out c).before 1 t d1) ((datOf m out c).before 2 t d2) ((datOf m out c).before 3 t d3) ((datOf m out c).before 4 t d4) X5).2 Set.univ _)
    isplitl [H0]; · iexact H0
    isplitl [H1]; · iexact H1
    isplitl [H2]; · iexact H2
    isplitl [H3]; · iexact H3
    isplitl [H4]; · iexact H4
    isplitl [H5]; · iexact H5
    isplitl [HS]
    · iapply (scr_in (F := F) c); iexists fs; iexact HS
    iintro ⟨H0, H1, H2, H3, H4, ⟨%f8, H8⟩, H9⟩
    isplitl [H9 Hg]
    · isplitl [H9]
      · iapply (scr_out (F := F) c); iexact H9
      · iexact Hg
    isplitl [Ho]; · iexact Ho
    isplitl [H0]; · rw [after_0]; iexact H0
    isplitl [H1]; · iexists d1; rw [leaves_1 m out c t d1]; iexact H1
    isplitl [H2]; · iexists d2; rw [leaves_2 m out c t d2]; iexact H2
    isplitl [H3]; · iexists d3; rw [leaves_3 m out c t d3]; iexact H3
    isplitl [H4]; · iexists d4; rw [leaves_4 m out c t d4]; iexact H4
    unfold owns; iexists _, _; isplitr; swap; · iexact H8
    ipureintro; rfl

/-- The loose body obligation with the output window forgotten. -/
theorem obl_fgt : BodyObligationLoose (datOf m out c) (defs₀ (F := F)) Variants.none () Set.univ fgtOut := fun t => by
  rw [bigSep_W0, bigSep_W0]
  exact sound_body_fgt m out c t

/-- The one buffer the host operation after the call writes: the reshaped result. -/
abbrev tailWrites : Finset (Ref sig .tc) := {main_v22}

theorem tail_writes : ∀ ops ∈ ([hostOps1] : List (List (HloOp τ sig (Elt F)))), ∀ op ∈ ops, ∀ b : Ref sig .tc,
    Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  obtain rfl : b = main_v22 := Proc.devRef_injective (τ := τ) _ hb
  exact Finset.mem_singleton_self _

variable (ρ : Dev nD → PrngReg)

set_option backward.isDefEq.respectTransparency.types false in
/-- The frame run, the output window forgotten. -/
theorem run_fgt :
    θ_run defs (onTc (τ := τ) (main (F := F))) (s₀ m ρ)
      (Pipeline.RDat.FramePostR cfg0 (fun c => (datOf m out c).toRForget fgtOut) tailWrites (fun c b => V0 m c (Proc.devRef .tc b))) :=
  Pipeline.RDat.θ_run_frame_around_T cfgs 0 launch0 defs₀ Variants.none (fun c => (datOf m out c).toRForget fgtOut) tailWrites m ρ main
    (hbody := fun c => (obl_fgt m out c).toRForget)
    (hshare := fun c => ((datOf m out c).toRForget fgtOut).share_full fun _ => rfl)
    (howed := fun _ _ => rfl)
    (V₀ := V0 m) (opss := [hostOps1]) (hsub := sfx_sub) (hfresh := sfx_fresh) (hkeep := sfx_keeps) (hT := tail_writes)
    (hmain := hmain m Variants.none) (hA := fun _ _ => rfl) (hΦ := fun _ _ => rfl)

/-- THE FRAME, at any float instance: every weakly fair execution terminates without a fault and the five argument
    arrays end as they began. -/
theorem frame_post :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_fgt m (fun _ _ => (Scalar.ofBits .f32 0#32 : F .f32)) ρ)
  have h1 := Pipeline.RDat.FramePostR.arr_in h c 1 rfl
  have h3 := Pipeline.RDat.FramePostR.arr_in h c 3 rfl
  exact ⟨((h c).2 main_arg0 (Finset.mem_sdiff.mpr ⟨Pipeline.mem_restRefs_of main_arg0 (by decide) (by decide), by decide⟩)).trans (V_main_arg0 m c),
    h1.trans (V_main_arg1 m c),
    ((h c).2 main_arg2 (Finset.mem_sdiff.mpr ⟨Pipeline.mem_restRefs_of main_arg2 (by decide) (by decide), by decide⟩)).trans (V_main_arg2 m c),
    h3.trans (V_main_arg3 m c),
    ((h c).2 main_arg4 (Finset.mem_sdiff.mpr ⟨Pipeline.mem_restRefs_of main_arg4 (by decide) (by decide), by decide⟩)).trans (V_main_arg4 m c)⟩

end Cert.Kernel.Hand

end
-- ==== Proof.KData.lean ====
/-
  The proof data of the one pipelined call, on one core, with the output block's contents after each grid point left as
  a parameter `out`.

  The arrays are what the call finds (the host operations before it have run). After the body at point `t` each INPUT
  window's staging buffer holds that window's block at `t`: the `x` window's blocks tile its array; the other four
  windows' blocks are cut at the array's last column block (11008 = 10·1024 + 768), where a fetch fills only the leading
  768 columns — there the data names the block on those columns and a zero word on the rest, and the obligation only
  ever speaks of the columns the fetch fills. The body's invariant is the class invariant (the weight scratch at some
  contents and the generator register); nothing is owed and every share is full.

  What the body finds in an input window's buffer at any point is then "the block where the fetch fills it, anything
  elsewhere" — also for the bias window, which is fetched only where the column block changes (every fourth point) and
  kept in between: its cut is a function of its block index, which has not moved.
-/
import proofs.«416578_j10419590660824_3_alg».proof.Proof.Gen.KernelIdeal.Frame
import Idealize.ShloMosaic.Lib.Pipeline.FrameBody
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

variable (m : (ℓ : Loc nD τ sig) → Buf (Elt F) ℓ)

/-- The proof data on core `c`, the output block's contents after each point given by `out`. -/
def datOf (out : Fin cfg0.N → S2048x1024.Idx → F .f32) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0#32 : BitVec 32)) (iblk m c 1 t)
    | ⟨2, _⟩ => win0_2.fill (grid0.coords t) (fun _ => (Scalar.ofBits .f32 0#32 : F .f32)) (iblk m c 2 t)
    | ⟨3, _⟩ => win0_3.fill (grid0.coords t) (fun _ => (Scalar.ofBits .f32 0#32 : F .f32)) (iblk m c 3 t)
    | ⟨4, _⟩ => win0_4.fill (grid0.coords t) (fun _ => (Scalar.ofBits .f32 0#32 : F .f32)) (iblk m c 4 t)
    | ⟨5, _⟩ => out t
  Φ _ := Pipeline.ΦA spec0 c
  q _ := fullShare
  owed _ := 0

variable (out : Fin cfg0.N → S2048x1024.Idx → F .f32) (c : Dev nD)

theorem datOf_A (w : Fin cfg0.W) : (datOf m out c).A w = V m c (Pipeline.arrRef spec0 w) := rfl
theorem datOf_Φ (t : Fin (cfg0.N + 1)) : (datOf m out c).Φ t = Pipeline.ΦA spec0 c := rfl

/-- A cut window's cut is a function of its block index. -/
theorem clip_of_index (w : Fin cfg0.W) (t t' : Fin cfg0.N) (h : (cfg0.win w).index t = (cfg0.win w).index t') :
    (cfg0.win w).clip (cfg0.grid.coords t) = (cfg0.win w).clip (cfg0.grid.coords t') := by
  have h' : (cfg0.win w).indexMap (cfg0.grid.coords t) = (cfg0.win w).indexMap (cfg0.grid.coords t') := h
  match w with
  | ⟨0, _⟩ => rfl
  | ⟨1, _⟩ => exact funext fun a => congrArg (fun z => Pipeline.Clip.of z (S128x1024.size a) (S512x11008.size a)) (congrFun h' a)
  | ⟨2, _⟩ => exact funext fun a => congrArg (fun z => Pipeline.Clip.of z (S8x1024.size a) (S32x11008.size a)) (congrFun h' a)
  | ⟨3, _⟩ => exact funext fun a => congrArg (fun z => Pipeline.Clip.of z (S8x1024.size a) (S32x11008.size a)) (congrFun h' a)
  | ⟨4, _⟩ => exact funext fun a => congrArg (fun z => Pipeline.Clip.of z (S1x1024.size a) (S1x11008.size a)) (congrFun h' a)
  | ⟨5, _⟩ => exact funext fun a => congrArg (fun z => Pipeline.Clip.of z (S2048x1024.size a) (S8192x11008.size a)) (congrFun h' a)

/-- What the body leaves in each cut input window's buffer, on the columns the fetch fills, is the block. -/
theorem keep_1 (t : Fin cfg0.N) : (cfg0.win 1).cut (cfg0.grid.coords t) ((datOf m out c).after 1 t) = (datOf m out c).blockOf 1 t :=
  win0_1.cut_fill _ _ _
theorem keep_2 (t : Fin cfg0.N) : (cfg0.win 2).cut (cfg0.grid.coords t) ((datOf m out c).after 2 t) = (datOf m out c).blockOf 2 t :=
  win0_2.cut_fill _ _ _
theorem keep_3 (t : Fin cfg0.N) : (cfg0.win 3).cut (cfg0.grid.coords t) ((datOf m out c).after 3 t) = (datOf m out c).blockOf 3 t :=
  win0_3.cut_fill _ _ _
theorem keep_4 (t : Fin cfg0.N) : (cfg0.win 4).cut (cfg0.grid.coords t) ((datOf m out c).after 4 t) = (datOf m out c).blockOf 4 t :=
  win0_4.cut_fill _ _ _

/-- What the body finds in the `x` window's buffer: its block. -/
theorem before_0 (t : Fin cfg0.N) (d) : (datOf m out c).before 0 t d = iblk m c 0 t :=
  before0_0_of m (datOf m out c) rfl (fun _ => rfl) t d

/-- What the body finds in a cut input window's buffer: the block on the columns the fetch fills, anything elsewhere. -/
theorem before_1 (t : Fin cfg0.N) (d) : (datOf m out c).before 1 t d = win0_1.fill (grid0.coords t) d (iblk m c 1 t) :=
  (datOf m out c).before_in_eq_fetched 1 rfl (fun _ => rfl) (clip_of_index 1) (keep_1 m out c) t d
theorem before_2 (t : Fin cfg0.N) (d) : (datOf m out c).before 2 t d = win0_2.fill (grid0.coords t) d (iblk m c 2 t) :=
  (datOf m out c).before_in_eq_fetched 2 rfl (fun _ => rfl) (clip_of_index 2) (keep_2 m out c) t d
theorem before_3 (t : Fin cfg0.N) (d) : (datOf m out c).before 3 t d = win0_3.fill (grid0.coords t) d (iblk m c 3 t) :=
  (datOf m out c).before_in_eq_fetched 3 rfl (fun _ => rfl) (clip_of_index 3) (keep_3 m out c) t d
theorem before_4 (t : Fin cfg0.N) (d) : (datOf m out c).before 4 t d = win0_4.fill (grid0.coords t) d (iblk m c 4 t) :=
  (datOf m out c).before_in_eq_fetched 4 rfl (fun _ => rfl) (clip_of_index 4) (keep_4 m out c) t d

/-- What the `x` window's buffer holds after the body is its block (the window is not cut). -/
theorem after_0 (t : Fin cfg0.N) : (datOf m out c).after 0 t = iblk m c 0 t := rfl
theorem after_5 (t : Fin cfg0.N) : (datOf m out c).after 5 t = out t := rfl

/-- For a cut input window, what the loose obligation asks back — the data's contents on the columns the fetch fills,
    `d` elsewhere — is what the body found there. -/
theorem leaves_1 (t : Fin cfg0.N) (d) :
    (win0 1).fill (grid0.coords t) d ((win0 1).cut (grid0.coords t) ((datOf m out c).after 1 t)) = (datOf m out c).before 1 t d := by
  rw [show (win0 1).cut (grid0.coords t) ((datOf m out c).after 1 t) = (datOf m out c).blockOf 1 t from keep_1 m out c t]
  exact ((datOf m out c).before_in_eq_fetched 1 rfl (fun _ => rfl) (clip_of_index 1) (keep_1 m out c) t d).symm
theorem leaves_2 (t : Fin cfg0.N) (d) :
    (win0 2).fill (grid0.coords t) d ((win0 2).cut (grid0.coords t) ((datOf m out c).after 2 t)) = (datOf m out c).before 2 t d := by
  rw [show (win0 2).cut (grid0.coords t) ((datOf m out c).after 2 t) = (datOf m out c).blockOf 2 t from keep_2 m out c t]
  exact ((datOf m out c).before_in_eq_fetched 2 rfl (fun _ => rfl) (clip_of_index 2) (keep_2 m out c) t d).symm
theorem leaves_3 (t : Fin cfg0.N) (d) :
    (win0 3).fill (grid0.coords t) d ((win0 3).cut (grid0.coords t) ((datOf m out c).after 3 t)) = (datOf m out c).before 3 t d := by
  rw [show (win0 3).cut (grid0.coords t) ((datOf m out c).after 3 t) = (datOf m out c).blockOf 3 t from keep_3 m out c t]
  exact ((datOf m out c).before_in_eq_fetched 3 rfl (fun _ => rfl) (clip_of_index 3) (keep_3 m out c) t d).symm
theorem leaves_4 (t : Fin cfg0.N) (d) :
    (win0 4).fill (grid0.coords t) d ((win0 4).cut (grid0.coords t) ((datOf m out c).after 4 t)) = (datOf m out c).before 4 t d := by
  rw [show (win0 4).cut (grid0.coords t) ((datOf m out c).after 4 t) = (datOf m out c).blockOf 4 t from keep_4 m out c t]
  exact ((datOf m out c).before_in_eq_fetched 4 rfl (fun _ => rfl) (clip_of_index 4) (keep_4 m out c) t d).symm

end Cert.KernelIdeal.Hand

end
-- ==== Proof.KRunMid.lean ====
/-
  The kernel body at a grid point whose reduction coordinate is neither the first nor the last: neither branch is
  taken. On any seven whole buffers — the five inputs at named contents, the output block at its running contents, the
  weight scratch at anything — the body runs without a fault, leaves the inputs as found, leaves the scratch at some contents, and
  leaves the output block written over by a list of pieces; that list is what the run itself finds, and is this
  definition's value. Nothing is assumed of the float instance.
-/
import proofs.«416578_j10419590660824_3_alg».proof.Proof.Gen.KernelIdeal.Frame
import proofs.«416578_j10419590660824_3_alg».proof.Proof.Gen.KernelIdeal.Skeleton
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition (the reduction coordinate is 0) and the second's (it is 3), as the body computes them
    from the grid coordinates. -/
abbrev condFirst (i : grid0.Coords) : Prop := (Scalar.cmpi .ne (Scalar.extui (Scalar.cmpi .eq (BitVec.ofNat 32 (i 2).val) 0#32)) 0#32) = 1#1
abbrev condLast (i : grid0.Coords) : Prop := (Scalar.cmpi .ne (Scalar.extui (Scalar.cmpi .eq (BitVec.ofNat 32 (i 2).val) 3#32)) 0#32) = 1#1

/-- The reduction axis is the innermost of the grid and has four points: the first branch is taken at the points
    ≡ 0 (mod 4) and the second at those ≡ 3 (mod 4). -/
theorem hcondFirst : ∀ t : Fin cfg0.N, condFirst (grid0.coords t) ↔ t.val % 4 = 0 :=
  (by decide +kernel : ∀ t : Fin grid0.N, condFirst (grid0.coords t) ↔ t.val % 4 = 0)
theorem hcondLast : ∀ t : Fin cfg0.N, condLast (grid0.coords t) ↔ t.val % 4 = 3 :=
  (by decide +kernel : ∀ t : Fin grid0.N, condLast (grid0.coords t) ↔ t.val % 4 = 3)

set_option maxHeartbeats 4000000 in
/-- The body where neither branch is taken: the output block is read at its running contents `xo` and stored once. -/
noncomputable def kernelRunMid (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S1024x1024 .bf16) (harg9 : arg9.IsWhole) (hc1 : ¬condFirst i) (hc2 : ¬condLast i)
    (x0 : Vec F S2048x1024 .bf16) (x1 : Vec F S128x1024 .i32) (x2 : Vec F S8x1024 .f32) (x3 : Vec F S8x1024 .f32) (x4 : Vec F S1x1024 .f32) (xo : Vec F S2048x1024 .f32) :
    { L : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare xo
            ∗ (∃ d, owns (c : Thread nD τ) arg9 fullShare d)
            ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
                ∗ (∃ f, arg8.view.loc (c : Thread nD τ) ↦[arg8.view.set]{fullShare} arg8.view.writes (Elt F) f L)
                ∗ (∃ d, owns (c : Thread nD τ) arg9 fullShare d)) -∗ K ⟨⟩))
          ⊢ wp frame (wpE (defs₀ (F := F)) Variants.none c none) E (cc0__qlinear_kernel i arg3 harg3 arg4 harg4 arg5 harg5 arg6 harg6 arg7 harg7 arg8 harg8 arg9 harg9) K } := by
  refine ⟨?_, fun E K => ?run⟩
  case run =>
    simp only [cc0__qlinear_kernel_eq_skeleton]; unfold cc0__qlinear_kernel_skel
    simp only [k0_part1_eq_skeleton, k0_part2_eq_skeleton, k0_part3_eq_skeleton, k0_part4_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg3.eq_unread hf3; obtain rfl := harg4.eq_unread hf4; obtain rfl := harg5.eq_unread hf5
    obtain rfl := harg6.eq_unread hf6; obtain rfl := harg7.eq_unread hf7; obtain rfl := harg8.eq_unread hf8
    sl_exec (disch := first | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    · iexists _, _; isplitr; swap; · iexact H9
      ipureintro; rfl

end Cert.KernelIdeal.Hand

end
-- ==== Proof.KRunFirst.lean ====
/-
  The kernel body at a grid point whose reduction coordinate is the first: the first branch stores zeros over the
  output block before anything reads it, so the block may arrive at any contents; the second branch is not taken.
-/
import proofs.«416578_j10419590660824_3_alg».proof.Proof.KRunMid
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the first branch is taken and the second is not: the output block arrives at anything and is stored twice (zeros, then the accumulated product). -/
noncomputable def kernelRunFirst (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S1024x1024 .bf16) (harg9 : arg9.IsWhole) (hc1 : condFirst i) (hc2 : ¬condLast i)
    (x0 : Vec F S2048x1024 .bf16) (x1 : Vec F S128x1024 .i32) (x2 : Vec F S8x1024 .f32) (x3 : Vec F S8x1024 .f32) (x4 : Vec F S1x1024 .f32) :
    { L : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg8 fullShare d)
            ∗ (∃ d, owns (c : Thread nD τ) arg9 fullShare d)
            ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
                ∗ (∃ f, arg8.view.loc (c : Thread nD τ) ↦[arg8.view.set]{fullShare} arg8.view.writes (Elt F) f L)
                ∗ (∃ d, owns (c : Thread nD τ) arg9 fullShare d)) -∗ K ⟨⟩))
          ⊢ wp frame (wpE (defs₀ (F := F)) Variants.none c none) E (cc0__qlinear_kernel i arg3 harg3 arg4 harg4 arg5 harg5 arg6 harg6 arg7 harg7 arg8 harg8 arg9 harg9) K } := by
  refine ⟨?_, fun E K => ?run⟩
  case run =>
    simp only [cc0__qlinear_kernel_eq_skeleton]; unfold cc0__qlinear_kernel_skel
    simp only [k0_part1_eq_skeleton, k0_part2_eq_skeleton, k0_part3_eq_skeleton, k0_part4_eq_skeleton]
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg3.eq_unread hf3; obtain rfl := harg4.eq_unread hf4; obtain rfl := harg5.eq_unread hf5
    obtain rfl := harg6.eq_unread hf6; obtain rfl := harg7.eq_unread hf7
    sl_exec (disch := first | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    · iexists _, _; isplitr; swap; · iexact H9
      ipureintro; rfl

end Cert.KernelIdeal.Hand

end
-- ==== Proof.KRunLast.lean ====
/-
  The kernel body at a grid point whose reduction coordinate is the last: the first branch is not taken, and the second
  adds the bias row to the output block after the product has been accumulated into it.
-/
import proofs.«416578_j10419590660824_3_alg».proof.Proof.KRunFirst
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the second branch is taken and the first is not: the output block is read at its running contents `xo` and stored twice (the accumulated product, then that plus the bias row). -/
noncomputable def kernelRunLast (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S1024x1024 .bf16) (harg9 : arg9.IsWhole) (hc1 : ¬condFirst i) (hc2 : condLast i)
    (x0 : Vec F S2048x1024 .bf16) (x1 : Vec F S128x1024 .i32) (x2 : Vec F S8x1024 .f32) (x3 : Vec F S8x1024 .f32) (x4 : Vec F S1x1024 .f32) (xo : Vec F S2048x1024 .f32) :
    { L : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare xo
            ∗ (∃ d, owns (c : Thread nD τ) arg9 fullShare d)
            ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
                ∗ (∃ f, arg8.view.loc (c : Thread nD τ) ↦[arg8.view.set]{fullShare} arg8.view.writes (Elt F) f L)
                ∗ (∃ d, owns (c : Thread nD τ) arg9 fullShare d)) -∗ K ⟨⟩))
          ⊢ wp frame (wpE (defs₀ (F := F)) Variants.none c none) E (cc0__qlinear_kernel i arg3 harg3 arg4 harg4 arg5 harg5 arg6 harg6 arg7 harg7 arg8 harg8 arg9 harg9) K } := by
  refine ⟨?_, fun E K => ?run⟩
  case run =>
    simp only [cc0__qlinear_kernel_eq_skeleton]; unfold cc0__qlinear_kernel_skel
    simp only [k0_part1_eq_skeleton, k0_part2_eq_skeleton, k0_part3_eq_skeleton, k0_part4_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg3.eq_unread hf3; obtain rfl := harg4.eq_unread hf4; obtain rfl := harg5.eq_unread hf5
    obtain rfl := harg6.eq_unread hf6; obtain rfl := harg7.eq_unread hf7; obtain rfl := harg8.eq_unread hf8
    sl_exec (disch := first | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    · iexists _, _; isplitr; swap; · iexact H9
      ipureintro; rfl

end Cert.KernelIdeal.Hand

end
-- ==== Proof.KFrame.lean ====
/-
  The frame of the program: it runs to the end without a fault and its argument arrays end as they began — at any
  float instance.

  The output block's staging buffer is read back by the body at the later reduction steps, and the block is cut at the
  array's last column block, so what the buffer holds on the columns past the array's end is never named; over an
  arbitrary float instance the matrix product is an uninterpreted function of its whole operands, so nothing can be
  said of the accumulated block either. The frame needs neither: the output window is FORGOTTEN (handed to the body at
  any contents, taken back at any contents), and the obligation is then only that the body, from any contents of the
  seven buffers, runs without a fault and leaves the five input buffers as it found them — the three case runs. Each
  input's buffer goes back holding what it held, which on the columns its fetch fills is its block: all the loose
  obligation asks of a cut window.

  The run is the library's frame run around the call with relational data; its post gives every array a window stages
  and every other unscoped buffer but the one the host operation after the call writes (the reshaped result) at its
  contents when the call was entered, and no host operation before the call writes an argument.
-/
import proofs.«416578_j10419590660824_3_alg».proof.Proof.KData
import proofs.«416578_j10419590660824_3_alg».proof.Proof.KRunLast
import Idealize.ShloMosaic.Lib.Pipeline.FrameSuffix
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ)

/-- The windows the frame forgets: the output's. -/
abbrev fgtOut : Fin cfg0.W → Bool := fun | 0 => false | 1 => false | 2 => false | 3 => false | 4 => false | 5 => true | ⟨_ + 6, h⟩ => absurd h (Nat.not_lt.2 (Nat.le_add_left _ _))

/-- The weight scratch at some contents, as the class invariant holds it and as the body's runs take it. -/
theorem scr_in (c : Dev nD) :
    (iprop(∃ f : Buf (Elt F) ((c : Thread nD τ).loc cc0_scratch0), ((c : Thread nD τ).loc cc0_scratch0) ↦{fullShare} f) : sProp 𝕄)
      ⊢ iprop(∃ d, owns (c : Thread nD τ) (Memref.whole cc0_scratch0 : Memref sig .tc .vmem S1024x1024 .bf16) fullShare d) := by
  simp only [owns_whole_eq]
  iintro ⟨%f, H⟩; iexists f, f; isplitr; · ipureintro; rfl
  iexact H
theorem scr_out (c : Dev nD) :
    (iprop(∃ d, owns (c : Thread nD τ) (Memref.whole cc0_scratch0 : Memref sig .tc .vmem S1024x1024 .bf16) fullShare d) : sProp 𝕄)
      ⊢ iprop(∃ f : Buf (Elt F) ((c : Thread nD τ).loc cc0_scratch0), ((c : Thread nD τ).loc cc0_scratch0) ↦{fullShare} f) := by
  simp only [owns_whole_eq]
  iintro ⟨%d, %f, -, H⟩; iexists f; iexact H

variable (out : Fin cfg0.N → S2048x1024.Idx → F .f32) (c : Dev nD)

set_option maxHeartbeats 2000000 in
/-- The body at point `t`, the output window forgotten: by the reduction coordinate's case (first, last, or neither),
    the case's run on the point's staging buffers and the scratch. -/
theorem sound_body_fgt (t : Fin cfg0.N) :
    iprop(Pipeline.ΦA spec0 c ∗ (datOf m out c).owesAt () t.castSucc
        ∗ (∃ d, owns (c : Thread nD τ) (st0_0 t) fullShare ((datOf m out c).before 0 t d))
        ∗ (∃ d, owns (c : Thread nD τ) (st0_1 t) fullShare ((datOf m out c).before 1 t d))
        ∗ (∃ d, owns (c : Thread nD τ) (st0_2 t) fullShare ((datOf m out c).before 2 t d))
        ∗ (∃ d, owns (c : Thread nD τ) (st0_3 t) fullShare ((datOf m out c).before 3 t d))
        ∗ (∃ d, owns (c : Thread nD τ) (st0_4 t) fullShare ((datOf m out c).before 4 t d))
        ∗ (∃ X, owns (c : Thread nD τ) (st0_5 t) fullShare X))
      ⊢ wp frame (wpE (defs₀ (F := F)) Variants.none c none) Set.univ (bodyAt0 (F := F) t) (fun _ =>
          iprop(Pipeline.ΦA spec0 c ∗ (datOf m out c).owesAt () t.castSucc
            ∗ owns (c : Thread nD τ) (st0_0 t) fullShare ((datOf m out c).after 0 t)
            ∗ (∃ d, owns (c : Thread nD τ) (st0_1 t) fullShare ((win0 1).fill (grid0.coords t) d ((win0 1).cut (grid0.coords t) ((datOf m out c).after 1 t))))
            ∗ (∃ d, owns (c : Thread nD τ) (st0_2 t) fullShare ((win0 2).fill (grid0.coords t) d ((win0 2).cut (grid0.coords t) ((datOf m out c).after 2 t))))
            ∗ (∃ d, owns (c : Thread nD τ) (st0_3 t) fullShare ((win0 3).fill (grid0.coords t) d ((win0 3).cut (grid0.coords t) ((datOf m out c).after 3 t))))
            ∗ (∃ d, owns (c : Thread nD τ) (st0_4 t) fullShare ((win0 4).fill (grid0.coords t) d ((win0 4).cut (grid0.coords t) ((datOf m out c).after 4 t))))
            ∗ (∃ X, owns (c : Thread nD τ) (st0_5 t) fullShare X))) := by
  unfold Pipeline.ΦA
  rw [scopedRest0_eq c]
  iintro ⟨⟨⟨%fs, HS⟩, Hg⟩, Ho, ⟨%d0, H0⟩, ⟨%d1, H1⟩, ⟨%d2, H2⟩, ⟨%d3, H3⟩, ⟨%d4, H4⟩, ⟨%X5, H5⟩⟩
  rw [before_0 m out c t d0]
  by_cases h0 : t.val % 4 = 0
  · have hc1 : condFirst (grid0.coords t) := (hcondFirst t).mpr h0
    have hc2 : ¬condLast (grid0.coords t) := fun h => by have := (hcondLast t).mp h; omega
    iapply ((kernelRunFirst (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) hc1 hc2 (iblk m c 0 t) ((datOf m out c).before 1 t d1) ((datOf m out c).before 2 t d2) ((datOf m out c).before 3 t d3) ((datOf m out c).before 4 t d4)).2 Set.univ _)
    isplitl [H0]; · iexact H0
    isplitl [H1]; · iexact H1
    isplitl [H2]; · iexact H2
    isplitl [H3]; · iexact H3
    isplitl [H4]; · iexact H4
    isplitl [H5]; · iexists X5; iexact H5
    isplitl [HS]
    · iapply (scr_in (F := F) c); iexists fs; iexact HS
    iintro ⟨H0, H1, H2, H3, H4, ⟨%f8, H8⟩, H9⟩
    isplitl [H9 Hg]
    · isplitl [H9]
      · iapply (scr_out (F := F) c); iexact H9
      · iexact Hg
    isplitl [Ho]; · iexact Ho
    isplitl [H0]; · rw [after_0]; iexact H0
    isplitl [H1]; · iexists d1; rw [leaves_1 m out c t d1]; iexact H1
    isplitl [H2]; · iexists d2; rw [leaves_2 m out c t d2]; iexact H2
    isplitl [H3]; · iexists d3; rw [leaves_3 m out c t d3]; iexact H3
    isplitl [H4]; · iexists d4; rw [leaves_4 m out c t d4]; iexact H4
    unfold owns; iexists _, _; isplitr; swap; · iexact H8
    ipureintro; rfl
  by_cases h3 : t.val % 4 = 3
  · have hc1 : ¬condFirst (grid0.coords t) := fun h => h0 ((hcondFirst t).mp h)
    have hc2 : condLast (grid0.coords t) := (hcondLast t).mpr h3
    iapply ((kernelRunLast (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) hc1 hc2 (iblk m c 0 t) ((datOf m out c).before 1 t d1) ((datOf m out c).before 2 t d2) ((datOf m out c).before 3 t d3) ((datOf m out c).before 4 t d4) X5).2 Set.univ _)
    isplitl [H0]; · iexact H0
    isplitl [H1]; · iexact H1
    isplitl [H2]; · iexact H2
    isplitl [H3]; · iexact H3
    isplitl [H4]; · iexact H4
    isplitl [H5]; · iexact H5
    isplitl [HS]
    · iapply (scr_in (F := F) c); iexists fs; iexact HS
    iintro ⟨H0, H1, H2, H3, H4, ⟨%f8, H8⟩, H9⟩
    isplitl [H9 Hg]
    · isplitl [H9]
      · iapply (scr_out (F := F) c); iexact H9
      · iexact Hg
    isplitl [Ho]; · iexact Ho
    isplitl [H0]; · rw [after_0]; iexact H0
    isplitl [H1]; · iexists d1; rw [leaves_1 m out c t d1]; iexact H1
    isplitl [H2]; · iexists d2; rw [leaves_2 m out c t d2]; iexact H2
    isplitl [H3]; · iexists d3; rw [leaves_3 m out c t d3]; iexact H3
    isplitl [H4]; · iexists d4; rw [leaves_4 m out c t d4]; iexact H4
    unfold owns; iexists _, _; isplitr; swap; · iexact H8
    ipureintro; rfl
  · have hc1 : ¬condFirst (grid0.coords t) := fun h => h0 ((hcondFirst t).mp h)
    have hc2 : ¬condLast (grid0.coords t) := fun h => h3 ((hcondLast t).mp h)
    iapply ((kernelRunMid (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) hc1 hc2 (iblk m c 0 t) ((datOf m out c).before 1 t d1) ((datOf m out c).before 2 t d2) ((datOf m out c).before 3 t d3) ((datOf m out c).before 4 t d4) X5).2 Set.univ _)
    isplitl [H0]; · iexact H0
    isplitl [H1]; · iexact H1
    isplitl [H2]; · iexact H2
    isplitl [H3]; · iexact H3
    isplitl [H4]; · iexact H4
    isplitl [H5]; · iexact H5
    isplitl [HS]
    · iapply (scr_in (F := F) c); iexists fs; iexact HS
    iintro ⟨H0, H1, H2, H3, H4, ⟨%f8, H8⟩, H9⟩
    isplitl [H9 Hg]
    · isplitl [H9]
      · iapply (scr_out (F := F) c); iexact H9
      · iexact Hg
    isplitl [Ho]; · iexact Ho
    isplitl [H0]; · rw [after_0]; iexact H0
    isplitl [H1]; · iexists d1; rw [leaves_1 m out c t d1]; iexact H1
    isplitl [H2]; · iexists d2; rw [leaves_2 m out c t d2]; iexact H2
    isplitl [H3]; · iexists d3; rw [leaves_3 m out c t d3]; iexact H3
    isplitl [H4]; · iexists d4; rw [leaves_4 m out c t d4]; iexact H4
    unfold owns; iexists _, _; isplitr; swap; · iexact H8
    ipureintro; rfl

/-- The loose body obligation with the output window forgotten. -/
theorem obl_fgt : BodyObligationLoose (datOf m out c) (defs₀ (F := F)) Variants.none () Set.univ fgtOut := fun t => by
  rw [bigSep_W0, bigSep_W0]
  exact sound_body_fgt m out c t

/-- The one buffer the host operation after the call writes: the reshaped result. -/
abbrev tailWrites : Finset (Ref sig .tc) := {main_v22}

theorem tail_writes : ∀ ops ∈ ([hostOps1] : List (List (HloOp τ sig (Elt F)))), ∀ op ∈ ops, ∀ b : Ref sig .tc,
    Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  obtain rfl : b = main_v22 := Proc.devRef_injective (τ := τ) _ hb
  exact Finset.mem_singleton_self _

variable (ρ : Dev nD → PrngReg)

set_option backward.isDefEq.respectTransparency.types false in
/-- The frame run, the output window forgotten. -/
theorem run_fgt :
    θ_run defs (onTc (τ := τ) (main (F := F))) (s₀ m ρ)
      (Pipeline.RDat.FramePostR cfg0 (fun c => (datOf m out c).toRForget fgtOut) tailWrites (fun c b => V0 m c (Proc.devRef .tc b))) :=
  Pipeline.RDat.θ_run_frame_around_T cfgs 0 launch0 defs₀ Variants.none (fun c => (datOf m out c).toRForget fgtOut) tailWrites m ρ main
    (hbody := fun c => (obl_fgt m out c).toRForget)
    (hshare := fun c => ((datOf m out c).toRForget fgtOut).share_full fun _ => rfl)
    (howed := fun _ _ => rfl)
    (V₀ := V0 m) (opss := [hostOps1]) (hsub := sfx_sub) (hfresh := sfx_fresh) (hkeep := sfx_keeps) (hT := tail_writes)
    (hmain := hmain m Variants.none) (hA := fun _ _ => rfl) (hΦ := fun _ _ => rfl)

/-- THE FRAME, at any float instance: every weakly fair execution terminates without a fault and the five argument
    arrays end as they began. -/
theorem frame_post :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_fgt m (fun _ _ => (Scalar.ofBits .f32 0#32 : F .f32)) ρ)
  have h1 := Pipeline.RDat.FramePostR.arr_in h c 1 rfl
  have h3 := Pipeline.RDat.FramePostR.arr_in h c 3 rfl
  exact ⟨((h c).2 main_arg0 (Finset.mem_sdiff.mpr ⟨Pipeline.mem_restRefs_of main_arg0 (by decide) (by decide), by decide⟩)).trans (V_main_arg0 m c),
    h1.trans (V_main_arg1 m c),
    ((h c).2 main_arg2 (Finset.mem_sdiff.mpr ⟨Pipeline.mem_restRefs_of main_arg2 (by decide) (by decide), by decide⟩)).trans (V_main_arg2 m c),
    h3.trans (V_main_arg3 m c),
    ((h c).2 main_arg4 (Finset.mem_sdiff.mpr ⟨Pipeline.mem_restRefs_of main_arg4 (by decide) (by decide), by decide⟩)).trans (V_main_arg4 m c)⟩

end Cert.KernelIdeal.Hand

end
-- ==== Proof.Spec.lean ====
/-
  The function both programs compute, written once over the extended reals and by coordinates.

  A packed word holds eight 4-bit fields; field `s` of a word is its arithmetic shift right by `4 s` masked to the low
  four bits (`nib`). The weight table packs eight consecutive rows of the reduction axis into one word (row `kk` is
  field `kk % 8` of packed row `kk / 8`); the zero-point table packs eight consecutive columns into one word (column `n`
  is field `n % 8` of packed column `n / 8`), and a zero point is the field plus one, wrapped to four bits. Rows are
  grouped by 128: row `kk` uses the zero point and the scale of group `kk / 128`. The dequantised weight is
  `(w - z) * scale`, and the result is the product of `x` with it along the reduction axis, plus the bias:

      out[b, s, n] = (∑ kk < 4096, x[b, s, kk] * ((w[kk, n] - z[kk / 128, n]) * scale[kk / 128, n])) + bias[n].

  The integers `w` and `z` enter as exact reals (a signed word's value), so every factor but `x`, `scale` and `bias`
  is a finite real; nothing below needs the inputs finite.
-/
import Idealize.ShloMosaic.PureOps.Ideal
import Idealize.ShloMosaic.Lib.ValueIdx

noncomputable section

open scoped BigOperators

namespace Cert.Spec

open Idealize.ShloMosaic Idealize.ShloMosaic.ValueIdx

/-- The argument and result shapes, as literals (each printed program names the same literals by its own abbreviations). -/
abbrev SX : Shape := ⟨3, ![4, 2048, 4096]⟩
abbrev SQW : Shape := ⟨2, ![512, 11008]⟩
abbrev SQZ : Shape := ⟨2, ![32, 1376]⟩
abbrev SSC : Shape := ⟨2, ![32, 11008]⟩
abbrev SB : Shape := ⟨1, ![11008]⟩
abbrev SOUT : Shape := ⟨3, ![4, 2048, 11008]⟩

/-- Field `s` of a packed word: the arithmetic shift right by `4 s`, masked to four bits. -/
def nib (w : BitVec 32) (s : Nat) : BitVec 32 := (w.sshiftRight (4 * s)) &&& 15#32

/-- Packed row of reduction row `kk`. -/
def prow (kk : Fin 4096) : Fin 512 := ⟨kk.val / 8, by have := kk.isLt; omega⟩
/-- Packed column of column `n`. -/
def pcol (n : Fin 11008) : Fin 1376 := ⟨n.val / 8, by have := n.isLt; omega⟩
/-- Group of reduction row `kk`. -/
def grp (kk : Fin 4096) : Fin 32 := ⟨kk.val / 128, by have := kk.isLt; omega⟩

/-- The unpacked weight integer at `(kk, n)`, as a word. -/
def wWord (qw : IVec SQW 32) (kk : Fin 4096) (n : Fin 11008) : BitVec 32 := nib (qw (ix2 (prow kk) n)) (kk.val % 8)
/-- The unpacked zero point at `(g, n)`, as a word: the field plus one, wrapped to four bits. -/
def zWord (qz : IVec SQZ 32) (g : Fin 32) (n : Fin 11008) : BitVec 32 := (nib (qz (ix2 g (pcol n))) (n.val % 8) + 1#32) &&& 15#32

/-- The dequantised weight at `(kk, n)`. -/
def wDeq (qw : IVec SQW 32) (qz : IVec SQZ 32) (sc : SSC.Idx → EReal) (kk : Fin 4096) (n : Fin 11008) : EReal :=
  ((((wWord qw kk n).toInt : ℝ) : EReal) - (((zWord qz (grp kk) n).toInt : ℝ) : EReal)) * sc (ix2 (grp kk) n)

/-- The result at `(b, s, n)`. -/
def outAt (x : SX.Idx → EReal) (qw : IVec SQW 32) (qz : IVec SQZ 32) (sc : SSC.Idx → EReal) (bias : SB.Idx → EReal)
    (b : Fin 4) (s : Fin 2048) (n : Fin 11008) : EReal :=
  (∑ kk : Fin 4096, x (ix3 b s kk) * wDeq qw qz sc kk n) + bias (ix1 n)

/-- The result array. -/
def out (x : SX.Idx → EReal) (qw : IVec SQW 32) (qz : IVec SQZ 32) (sc : SSC.Idx → EReal) (bias : SB.Idx → EReal) :
    SOUT.Idx → EReal :=
  fun i => outAt x qw qz sc bias (i 0) (i 1) (i 2)

theorem out_ix3 (x : SX.Idx → EReal) (qw : IVec SQW 32) (qz : IVec SQZ 32) (sc : SSC.Idx → EReal) (bias : SB.Idx → EReal)
    (b : Fin 4) (s : Fin 2048) (n : Fin 11008) :
    out x qw qz sc bias (ix3 b s n) = outAt x qw qz sc bias b s n := rfl

end Cert.Spec

end
-- ==== Proof.KTile.lean ====
/-
  The dequantised weight of one staged tile, by coordinates: row `j` of the 1024-row tile is field `j % 8` of packed row
  `j / 8` of the staged packed block `q`, and uses row `j / 128` of the staged zero-point block `z` and of the staged
  scale block `s`:   wTile q z s j n = (field − z[j / 128, n]) · s[j / 128, n].
  Column `n` of the tile depends on column `n` of the three blocks only.
-/
import proofs.«416578_j10419590660824_3_alg».proof.KernelIdeal
import proofs.«416578_j10419590660824_3_alg».proof.Proof.Spec

noncomputable section

namespace Cert.KernelIdeal.Hand

open Cert.KernelIdeal
open Idealize.ShloMosaic Idealize.ShloMosaic.ValueIdx

/-- The dequantised weight of a staged tile at `(j, n)`. -/
def wTile (q : Vec Ideal S128x1024 .i32) (z s : Vec Ideal S8x1024 .f32) (j n : Fin 1024) : EReal :=
  ((((Cert.Spec.nib (q (ix2 (⟨j.val / 8, by have := j.isLt; omega⟩ : Fin 128) n)) (j.val % 8)).toInt : ℝ) : EReal)
      - z (ix2 (⟨j.val / 128, by have := j.isLt; omega⟩ : Fin 8) n))
    * s (ix2 (⟨j.val / 128, by have := j.isLt; omega⟩ : Fin 8) n)

/-- Column `n` of the tile depends on column `n` of the three staged blocks only. -/
theorem wTile_congr {q q' : Vec Ideal S128x1024 .i32} {z z' s s' : Vec Ideal S8x1024 .f32} (n : Fin 1024)
    (hq : ∀ a : Fin 128, q (ix2 a n) = q' (ix2 a n)) (hz : ∀ a : Fin 8, z (ix2 a n) = z' (ix2 a n))
    (hs : ∀ a : Fin 8, s (ix2 a n) = s' (ix2 a n)) (j : Fin 1024) : wTile q z s j n = wTile q' z' s' j n := by
  unfold wTile; rw [hq, hz, hs]

end Cert.KernelIdeal.Hand

end
-- ==== Proof.KAcc.lean ====
/-
  What the output block's staging buffer holds after the body at each grid point, at the ideal instance, named on the
  whole 2048 × 1024 block by recursion on the point.

  The staged input blocks are named on their whole block shapes: the `x` block as it is; each cut block as the array's
  block on the columns inside the array and a zero word on the rest (what the proof data says the buffers hold). The
  product of the point's `x` block with its dequantised tile is `tileProd`. Along the reduction steps of one
  (row-block, column-block) the output block accumulates: at the first step it is `0 + tileProd`; at a middle step
  what the step before left plus `tileProd`; at the last step that plus the bias row. On the columns past the array's
  end these are sums over the zero filler and mean nothing; nothing ever reads them.
-/
import proofs.«416578_j10419590660824_3_alg».proof.Proof.KData
import proofs.«416578_j10419590660824_3_alg».proof.Proof.KTile

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

/-- The staged blocks at point `t`, on their whole block shapes. -/
def xB (t : Fin cfg0.N) : Vec Ideal S2048x1024 .bf16 := iblk m c 0 t
def qB (t : Fin cfg0.N) : Vec Ideal S128x1024 .i32 := win0_1.fill (grid0.coords t) (fun _ => (0#32 : BitVec 32)) (iblk m c 1 t)
def zB (t : Fin cfg0.N) : Vec Ideal S8x1024 .f32 := win0_2.fill (grid0.coords t) (fun _ => (Scalar.ofBits .f32 0#32 : Ideal .f32)) (iblk m c 2 t)
def sB (t : Fin cfg0.N) : Vec Ideal S8x1024 .f32 := win0_3.fill (grid0.coords t) (fun _ => (Scalar.ofBits .f32 0#32 : Ideal .f32)) (iblk m c 3 t)
def bB (t : Fin cfg0.N) : Vec Ideal S1x1024 .f32 := win0_4.fill (grid0.coords t) (fun _ => (Scalar.ofBits .f32 0#32 : Ideal .f32)) (iblk m c 4 t)

/-- The product of the point's `x` block with its dequantised tile, at `(r, n)`. -/
def tileProd (t : Fin cfg0.N) (r : Fin 2048) (n : Fin 1024) : EReal :=
  ∑ j : Fin 1024, xB m c t (ix2 r j) * wTile (qB m c t) (zB m c t) (sB m c t) j n

/-- One reduction step on top of what the step before left (`prev`). -/
def accStep (t : Fin cfg0.N) (prev : S2048x1024.Idx → EReal) : S2048x1024.Idx → EReal := fun y =>
  if t.val % 4 = 0 then 0 + tileProd m c t (y 0) (y 1)
  else if t.val % 4 = 3 then (prev y + tileProd m c t (y 0) (y 1)) + bB m c t (ix2 (0 : Fin 1) (y 1))
  else prev y + tileProd m c t (y 0) (y 1)

/-- The output block's buffer after the body at the point numbered `n`. -/
def accNat : (n : Nat) → n < cfg0.N → S2048x1024.Idx → EReal
  | 0, h => accStep m c ⟨0, h⟩ (fun _ => 0)
  | n + 1, h => accStep m c ⟨n + 1, h⟩ (accNat n (Nat.lt_of_succ_lt h))

/-- The output block's buffer after the body at point `t`. -/
def accFull (t : Fin cfg0.N) : S2048x1024.Idx → EReal := accNat m c t.val t.isLt

/-- The point before `t`. -/
abbrev prevPt (t : Fin cfg0.N) : Fin cfg0.N := ⟨t.val - 1, Nat.lt_of_le_of_lt (Nat.sub_le _ _) t.isLt⟩

theorem accFull_first (t : Fin cfg0.N) (h : t.val % 4 = 0) (y : S2048x1024.Idx) :
    accFull m c t y = 0 + tileProd m c t (y 0) (y 1) := by
  obtain ⟨n, hn⟩ := t
  unfold accFull; dsimp only
  cases n with
  | zero => unfold accNat accStep; rw [if_pos h]
  | succ k => unfold accNat accStep; rw [if_pos h]

theorem accFull_mid (t : Fin cfg0.N) (h0 : t.val % 4 ≠ 0) (h3 : t.val % 4 ≠ 3) (y : S2048x1024.Idx) :
    accFull m c t y = accFull m c (prevPt t) y + tileProd m c t (y 0) (y 1) := by
  obtain ⟨n, hn⟩ := t
  unfold accFull; dsimp only
  cases n with
  | zero => exact absurd rfl h0
  | succ k => conv_lhs => unfold accNat accStep
              rw [if_neg h0, if_neg h3]; rfl

theorem accFull_last (t : Fin cfg0.N) (h3 : t.val % 4 = 3) (y : S2048x1024.Idx) :
    accFull m c t y = (accFull m c (prevPt t) y + tileProd m c t (y 0) (y 1)) + bB m c t (ix2 (0 : Fin 1) (y 1)) := by
  obtain ⟨n, hn⟩ := t
  have h0 : n % 4 ≠ 0 := by dsimp only at h3; omega
  unfold accFull; dsimp only
  cases n with
  | zero => exact absurd rfl h0
  | succ k => conv_lhs => unfold accNat accStep
              rw [if_neg h0, if_pos h3]; rfl

/-- The proof data with the output block named. -/
abbrev datV (c : Dev nD) : Pipeline.Dat τ (Elt Ideal) Unit ℕ (UR sig nD τ) ℕ cfg0 c := datOf m (accFull m c) c

end Cert.KernelIdeal.Hand

end
-- ==== Proof.KGrid.lean ====
/-
  The grid of the call and its windows, as arithmetic on the point's number.

  The grid is 4 × 11 × 4 with the reduction axis innermost: point `t` has row-block `t / 44`, column-block
  `(t / 4) % 11` and reduction step `t % 4`. The `x` window's block index is (row-block, step); the packed-weight,
  zero-point and scale windows' is (step, column-block); the bias window's is (0, column-block); the output window's is
  (row-block, column-block). Every window but `x`'s is cut on its column axis at the last column block, where only
  768 = 11008 − 10·1024 columns lie inside the array; no window is cut on its row axis. All of it is decided over the
  176 points.
-/
import proofs.«416578_j10419590660824_3_alg».proof.Proof.Gen.KernelIdeal.Frame

set_option maxRecDepth 16384

noncomputable section

namespace Cert.KernelIdeal.Hand

open Cert.KernelIdeal Cert.KernelIdeal.Gen
open Idealize.ShloMosaic

/-- The row-block, the column-block and the reduction step of grid point `t`. -/
def gi (t : Fin cfg0.N) : Nat := t.val / 44
def gj (t : Fin cfg0.N) : Nat := (t.val / 4) % 11
def gk (t : Fin cfg0.N) : Nat := t.val % 4
/-- The columns of a cut block that lie inside the array at point `t`. -/
def ncols (t : Fin cfg0.N) : Nat := if gj t = 10 then 768 else 1024

theorem gi_lt (t : Fin cfg0.N) : gi t < 4 := by have := t.isLt; have e : cfg0.N = 176 := N_0; unfold gi; omega
theorem gj_lt (t : Fin cfg0.N) : gj t < 11 := by unfold gj; omega
theorem gk_lt (t : Fin cfg0.N) : gk t < 4 := by unfold gk; omega
theorem ncols_le (t : Fin cfg0.N) : ncols t ≤ 1024 := by unfold ncols; split <;> omega
theorem ncols_pos (t : Fin cfg0.N) : 0 < ncols t := by unfold ncols; split <;> omega
/-- A column inside the block at `t` is a column of the array. -/
theorem col_lt (t : Fin cfg0.N) (n : Nat) (h : n < ncols t) : gj t * 1024 + n < 11008 := by
  have := gj_lt t; unfold ncols at h; split at h <;> omega

theorem coords_eq : ∀ t : Fin cfg0.N, (grid0.coords t 0).val = gi t ∧ (grid0.coords t 1).val = gj t ∧ (grid0.coords t 2).val = gk t :=
  (by decide +kernel : ∀ t : Fin grid0.N, (grid0.coords t 0).val = gi t ∧ (grid0.coords t 1).val = gj t ∧ (grid0.coords t 2).val = gk t)

theorem index_0 : ∀ t : Fin cfg0.N, win0_0.index t 0 = gi t ∧ win0_0.index t 1 = gk t :=
  (by decide +kernel : ∀ t : Fin grid0.N, win0_0.index t 0 = gi t ∧ win0_0.index t 1 = gk t)
theorem index_1 : ∀ t : Fin cfg0.N, win0_1.index t 0 = gk t ∧ win0_1.index t 1 = gj t :=
  (by decide +kernel : ∀ t : Fin grid0.N, win0_1.index t 0 = gk t ∧ win0_1.index t 1 = gj t)
theorem index_2 : ∀ t : Fin cfg0.N, win0_2.index t 0 = gk t ∧ win0_2.index t 1 = gj t :=
  (by decide +kernel : ∀ t : Fin grid0.N, win0_2.index t 0 = gk t ∧ win0_2.index t 1 = gj t)
theorem index_3 : ∀ t : Fin cfg0.N, win0_3.index t 0 = gk t ∧ win0_3.index t 1 = gj t :=
  (by decide +kernel : ∀ t : Fin grid0.N, win0_3.index t 0 = gk t ∧ win0_3.index t 1 = gj t)
theorem index_4 : ∀ t : Fin cfg0.N, win0_4.index t 0 = 0 ∧ win0_4.index t 1 = gj t :=
  (by decide +kernel : ∀ t : Fin grid0.N, win0_4.index t 0 = 0 ∧ win0_4.index t 1 = gj t)
theorem index_5 : ∀ t : Fin cfg0.N, win0_5.index t 0 = gi t ∧ win0_5.index t 1 = gj t :=
  (by decide +kernel : ∀ t : Fin grid0.N, win0_5.index t 0 = gi t ∧ win0_5.index t 1 = gj t)

theorem xsize_1 : ∀ t : Fin cfg0.N, win0_1.xsize (grid0.coords t) 0 = 128 ∧ win0_1.xsize (grid0.coords t) 1 = ncols t :=
  (by decide +kernel : ∀ t : Fin grid0.N, win0_1.xsize (grid0.coords t) 0 = 128 ∧ win0_1.xsize (grid0.coords t) 1 = ncols t)
theorem xsize_2 : ∀ t : Fin cfg0.N, win0_2.xsize (grid0.coords t) 0 = 8 ∧ win0_2.xsize (grid0.coords t) 1 = ncols t :=
  (by decide +kernel : ∀ t : Fin grid0.N, win0_2.xsize (grid0.coords t) 0 = 8 ∧ win0_2.xsize (grid0.coords t) 1 = ncols t)
theorem xsize_3 : ∀ t : Fin cfg0.N, win0_3.xsize (grid0.coords t) 0 = 8 ∧ win0_3.xsize (grid0.coords t) 1 = ncols t :=
  (by decide +kernel : ∀ t : Fin grid0.N, win0_3.xsize (grid0.coords t) 0 = 8 ∧ win0_3.xsize (grid0.coords t) 1 = ncols t)
theorem xsize_4 : ∀ t : Fin cfg0.N, win0_4.xsize (grid0.coords t) 0 = 1 ∧ win0_4.xsize (grid0.coords t) 1 = ncols t :=
  (by decide +kernel : ∀ t : Fin grid0.N, win0_4.xsize (grid0.coords t) 0 = 1 ∧ win0_4.xsize (grid0.coords t) 1 = ncols t)
theorem xsize_5 : ∀ t : Fin cfg0.N, win0_5.xsize (grid0.coords t) 0 = 2048 ∧ win0_5.xsize (grid0.coords t) 1 = ncols t :=
  (by decide +kernel : ∀ t : Fin grid0.N, win0_5.xsize (grid0.coords t) 0 = 2048 ∧ win0_5.xsize (grid0.coords t) 1 = ncols t)

/-- A point that is not a first reduction step has the row-block and column-block of the point before it. -/
theorem prev_same (t : Fin cfg0.N) (h : t.val % 4 ≠ 0) :
    gi ⟨t.val - 1, Nat.lt_of_le_of_lt (Nat.sub_le _ _) t.isLt⟩ = gi t ∧ gj ⟨t.val - 1, Nat.lt_of_le_of_lt (Nat.sub_le _ _) t.isLt⟩ = gj t
      ∧ gk ⟨t.val - 1, Nat.lt_of_le_of_lt (Nat.sub_le _ _) t.isLt⟩ + 1 = gk t := by
  unfold gi gj gk; dsimp only; omega

end Cert.KernelIdeal.Hand

end
-- ==== Proof.KInside.lean ====
/-
  The cut windows on the columns that lie inside the array.

  Every window but the first is cut on its column axis only: at grid point `t` the transfer moves, of every row of the
  block, the columns `n < ncols t` (all `1024`, or `768` at the last column block). A staging buffer after a fetch is
  the fetched part laid over what the buffer held (`fill`); a write-back writes the leading part (`cut`). So at an
  index `(a, n)` with `n < ncols t`: what the buffer held before a fetch does not matter; filling with a block's own
  leading part gives the block back; and two blocks that agree on those columns are written back alike. A block
  index with its column inside the array is the embedding of an index of the leading part, and the library's laws of
  `fill` and `cut` at embedded indices give all of it.
-/
import proofs.«416578_j10419590660824_3_alg».proof.Proof.KGrid
import Idealize.ShloMosaic.Lib.Pipeline
import Idealize.ShloMosaic.Lib.ValueIdx

set_option maxRecDepth 16384

noncomputable section

namespace Cert.KernelIdeal.Hand

open Cert.KernelIdeal Cert.KernelIdeal.Gen Idealize.ShloMosaic Idealize.ShloMosaic.ValueIdx

/-- A block index of the packed weights' window whose column lies inside the array is one the transfer at `t` moves: as the
    embedding of an index of the leading part. -/
theorem inside_1 (t : Fin cfg0.N) (a : Fin 128) (n : Fin 1024) (hn : n.val < ncols t) :
    ∃ j : (win0_1.xblock (grid0.coords t)).Idx, win0_1.xinj (grid0.coords t) j = (ix2 a n : S128x1024.Idx) :=
  have hlt : ∀ ax : Fin 2, ((ix2 a n : S128x1024.Idx) ax).val < win0_1.xsize (grid0.coords t) ax := fun ax =>
    match ax with
    | ⟨0, _⟩ => lt_of_lt_of_eq a.isLt (xsize_1 t).1.symm
    | ⟨1, _⟩ => lt_of_lt_of_eq hn (xsize_1 t).2.symm
  ⟨fun ax => ⟨((ix2 a n : S128x1024.Idx) ax).val, hlt ax⟩, rfl⟩

/-- On a column inside the array the filler does not matter: the fetch at `t` overwrites that element. -/
theorem fill_inside_1 {α : Type} (t : Fin cfg0.N) (d d' : S128x1024.Idx → α) (g : (win0_1.xblock (grid0.coords t)).Idx → α)
    (a : Fin 128) (n : Fin 1024) (hn : n.val < ncols t) :
    win0_1.fill (grid0.coords t) d g (ix2 a n) = win0_1.fill (grid0.coords t) d' g (ix2 a n) := by
  obtain ⟨j, hj⟩ := inside_1 t a n hn
  exact hj ▸ (win0_1.fill_xinj (grid0.coords t) d g j).trans (win0_1.fill_xinj (grid0.coords t) d' g j).symm

/-- A block index of the zero points' window whose column lies inside the array is one the transfer at `t` moves: as the
    embedding of an index of the leading part. -/
theorem inside_2 (t : Fin cfg0.N) (a : Fin 8) (n : Fin 1024) (hn : n.val < ncols t) :
    ∃ j : (win0_2.xblock (grid0.coords t)).Idx, win0_2.xinj (grid0.coords t) j = (ix2 a n : S8x1024.Idx) :=
  have hlt : ∀ ax : Fin 2, ((ix2 a n : S8x1024.Idx) ax).val < win0_2.xsize (grid0.coords t) ax := fun ax =>
    match ax with
    | ⟨0, _⟩ => lt_of_lt_of_eq a.isLt (xsize_2 t).1.symm
    | ⟨1, _⟩ => lt_of_lt_of_eq hn (xsize_2 t).2.symm
  ⟨fun ax => ⟨((ix2 a n : S8x1024.Idx) ax).val, hlt ax⟩, rfl⟩

/-- On a column inside the array the filler does not matter: the fetch at `t` overwrites that element. -/
theorem fill_inside_2 {α : Type} (t : Fin cfg0.N) (d d' : S8x1024.Idx → α) (g : (win0_2.xblock (grid0.coords t)).Idx → α)
    (a : Fin 8) (n : Fin 1024) (hn : n.val < ncols t) :
    win0_2.fill (grid0.coords t) d g (ix2 a n) = win0_2.fill (grid0.coords t) d' g (ix2 a n) := by
  obtain ⟨j, hj⟩ := inside_2 t a n hn
  exact hj ▸ (win0_2.fill_xinj (grid0.coords t) d g j).trans (win0_2.fill_xinj (grid0.coords t) d' g j).symm

/-- A block index of the scales' window whose column lies inside the array is one the transfer at `t` moves: as the
    embedding of an index of the leading part. -/
theorem inside_3 (t : Fin cfg0.N) (a : Fin 8) (n : Fin 1024) (hn : n.val < ncols t) :
    ∃ j : (win0_3.xblock (grid0.coords t)).Idx, win0_3.xinj (grid0.coords t) j = (ix2 a n : S8x1024.Idx) :=
  have hlt : ∀ ax : Fin 2, ((ix2 a n : S8x1024.Idx) ax).val < win0_3.xsize (grid0.coords t) ax := fun ax =>
    match ax with
    | ⟨0, _⟩ => lt_of_lt_of_eq a.isLt (xsize_3 t).1.symm
    | ⟨1, _⟩ => lt_of_lt_of_eq hn (xsize_3 t).2.symm
  ⟨fun ax => ⟨((ix2 a n : S8x1024.Idx) ax).val, hlt ax⟩, rfl⟩

/-- On a column inside the array the filler does not matter: the fetch at `t` overwrites that element. -/
theorem fill_inside_3 {α : Type} (t : Fin cfg0.N) (d d' : S8x1024.Idx → α) (g : (win0_3.xblock (grid0.coords t)).Idx → α)
    (a : Fin 8) (n : Fin 1024) (hn : n.val < ncols t) :
    win0_3.fill (grid0.coords t) d g (ix2 a n) = win0_3.fill (grid0.coords t) d' g (ix2 a n) := by
  obtain ⟨j, hj⟩ := inside_3 t a n hn
  exact hj ▸ (win0_3.fill_xinj (grid0.coords t) d g j).trans (win0_3.fill_xinj (grid0.coords t) d' g j).symm

/-- A block index of the bias's window whose column lies inside the array is one the transfer at `t` moves: as the
    embedding of an index of the leading part. -/
theorem inside_4 (t : Fin cfg0.N) (a : Fin 1) (n : Fin 1024) (hn : n.val < ncols t) :
    ∃ j : (win0_4.xblock (grid0.coords t)).Idx, win0_4.xinj (grid0.coords t) j = (ix2 a n : S1x1024.Idx) :=
  have hlt : ∀ ax : Fin 2, ((ix2 a n : S1x1024.Idx) ax).val < win0_4.xsize (grid0.coords t) ax := fun ax =>
    match ax with
    | ⟨0, _⟩ => lt_of_lt_of_eq a.isLt (xsize_4 t).1.symm
    | ⟨1, _⟩ => lt_of_lt_of_eq hn (xsize_4 t).2.symm
  ⟨fun ax => ⟨((ix2 a n : S1x1024.Idx) ax).val, hlt ax⟩, rfl⟩

/-- On a column inside the array the filler does not matter: the fetch at `t` overwrites that element. -/
theorem fill_inside_4 {α : Type} (t : Fin cfg0.N) (d d' : S1x1024.Idx → α) (g : (win0_4.xblock (grid0.coords t)).Idx → α)
    (a : Fin 1) (n : Fin 1024) (hn : n.val < ncols t) :
    win0_4.fill (grid0.coords t) d g (ix2 a n) = win0_4.fill (grid0.coords t) d' g (ix2 a n) := by
  obtain ⟨j, hj⟩ := inside_4 t a n hn
  exact hj ▸ (win0_4.fill_xinj (grid0.coords t) d g j).trans (win0_4.fill_xinj (grid0.coords t) d' g j).symm

/-- A block index of the output's window whose column lies inside the array is one the transfer at `t` moves: as the
    embedding of an index of the leading part. -/
theorem inside_5 (t : Fin cfg0.N) (a : Fin 2048) (n : Fin 1024) (hn : n.val < ncols t) :
    ∃ j : (win0_5.xblock (grid0.coords t)).Idx, win0_5.xinj (grid0.coords t) j = (ix2 a n : S2048x1024.Idx) :=
  have hlt : ∀ ax : Fin 2, ((ix2 a n : S2048x1024.Idx) ax).val < win0_5.xsize (grid0.coords t) ax := fun ax =>
    match ax with
    | ⟨0, _⟩ => lt_of_lt_of_eq a.isLt (xsize_5 t).1.symm
    | ⟨1, _⟩ => lt_of_lt_of_eq hn (xsize_5 t).2.symm
  ⟨fun ax => ⟨((ix2 a n : S2048x1024.Idx) ax).val, hlt ax⟩, rfl⟩

/-- On a column inside the array the filler does not matter: the fetch at `t` overwrites that element. -/
theorem fill_inside_5 {α : Type} (t : Fin cfg0.N) (d d' : S2048x1024.Idx → α) (g : (win0_5.xblock (grid0.coords t)).Idx → α)
    (a : Fin 2048) (n : Fin 1024) (hn : n.val < ncols t) :
    win0_5.fill (grid0.coords t) d g (ix2 a n) = win0_5.fill (grid0.coords t) d' g (ix2 a n) := by
  obtain ⟨j, hj⟩ := inside_5 t a n hn
  exact hj ▸ (win0_5.fill_xinj (grid0.coords t) d g j).trans (win0_5.fill_xinj (grid0.coords t) d' g j).symm

/-- Filling with a block's own leading part gives the block back, on a column inside the array whatever the buffer
    held. -/
theorem fill_cut_inside_5 {α : Type} (t : Fin cfg0.N) (d X : S2048x1024.Idx → α) (r : Fin 2048) (n : Fin 1024)
    (hn : n.val < ncols t) :
    win0_5.fill (grid0.coords t) d (win0_5.cut (grid0.coords t) X) (ix2 r n) = X (ix2 r n) :=
  (fill_inside_5 t d X (win0_5.cut (grid0.coords t) X) r n hn).trans
    (congrFun (win0_5.fill_cut (grid0.coords t) X) (ix2 r n))

/-- Two blocks that agree on the columns inside the array have the same leading part: an index of the leading part
    has its column below the cut size, which is `ncols t`. -/
theorem cut_ext_5 {α : Type} (t : Fin cfg0.N) (X Y : S2048x1024.Idx → α)
    (h : ∀ (r : Fin 2048) (n : Fin 1024), n.val < ncols t → X (ix2 r n) = Y (ix2 r n)) :
    win0_5.cut (grid0.coords t) X = win0_5.cut (grid0.coords t) Y := by
  funext y
  have e := eq_ix2 (n0 := 2048) (n1 := 1024) (win0_5.xinj (grid0.coords t) y)
  have hlt : ((win0_5.xinj (grid0.coords t) y : S2048x1024.Idx) 1).val < ncols t :=
    lt_of_lt_of_eq (y 1).isLt (xsize_5 t).2
  exact (congrArg X e).trans ((h _ _ hlt).trans (congrArg Y e).symm)

/-- The same at the point before a point that is not a first reduction step: it has the same column block, so the
    same columns lie inside the array. -/
theorem fill_cut_prev_5 {α : Type} (t : Fin cfg0.N) (h : t.val % 4 ≠ 0) (d X : S2048x1024.Idx → α) (r : Fin 2048)
    (n : Fin 1024) (hn : n.val < ncols t) :
    win0_5.fill (grid0.coords ⟨t.val - 1, Nat.lt_of_le_of_lt (Nat.sub_le _ _) t.isLt⟩) d
        (win0_5.cut (grid0.coords ⟨t.val - 1, Nat.lt_of_le_of_lt (Nat.sub_le _ _) t.isLt⟩) X) (ix2 r n)
      = X (ix2 r n) := by
  have e : ncols ⟨t.val - 1, Nat.lt_of_le_of_lt (Nat.sub_le _ _) t.isLt⟩ = ncols t := by
    unfold ncols; rw [(prev_same t h).2.1]
  exact fill_cut_inside_5 _ d X r n (e.symm ▸ hn)

end Cert.KernelIdeal.Hand

end
-- ==== Proof.KPay.lean ====
/-
  The kernel body's arithmetic, read at an index over the extended reals.

  The body dequantises a `[1024, 1024]` weight tile in eight slabs of 128 rows. Slab `g` takes sixteen packed rows
  `q : [16, 1024]` of 32-bit words (eight 4-bit fields per word: row `r` of the slab is field `r % 8` of packed row
  `r / 8`), row `g` of the zero-point block and row `g` of the scale block, and stores `(field - zero) * scale`. Then
  the activation block times the tile is added onto the output block, and the last reduction step adds the bias row.
  Each theorem below reads one stored value at explicit coordinates; `Cert.Spec.nib` is the field of a word.
-/
import proofs.«416578_j10419590660824_3_alg».proof.Proof.Gen.KernelIdeal.Skeleton
import proofs.«416578_j10419590660824_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KPay

open Idealize.ShloMosaic Idealize.ShloMosaic.ValueIdx Cert.KernelIdeal Cert.KernelIdeal.Gen

/-! ## The shift vector -/

/-- The shift vector at field `s` is the word `4 s`. -/
theorem shift_apply (u : Fin 1) (s : Fin 8) (v : Fin 1) : k0_pay4 (ix3 u s v) = BitVec.ofNat 32 (4 * s.val) := by
  unfold k0_pay4
  refine (shapeCast_apply _ _ (ix3 u s v) (ix1 s) ?_).trans ?_
  · rw [Shape.rowMajor_val_three, Shape.rowMajor_val_one]
    show s.val = (u.val * 8 + s.val) * 1 + v.val
    omega
  · show IntOp.addi 0#32 (IntOp.muli 4#32 (shapeCast S8 (iota .tc S1x8 32 [1] _) _ (ix1 s))) = _
    rw [shapeCast_1a_a_apply, iota_single_apply]
    show 0#32 + 4#32 * BitVec.ofNat 32 s.val = _
    rw [BitVec.zero_add, ← BitVec.ofNat_mul]

/-- An arithmetic shift right by the word `4 s`, `s` below eight, then the mask to four bits, is field `s`. -/
theorem shrsi_andi_eq (x : BitVec 32) (s : Nat) (hs : s < 8) :
    IntOp.andi (IntOp.shrsi .vector x (BitVec.ofNat 32 (4 * s))) 15#32 = (x.sshiftRight (4 * s)) &&& 15#32 := by
  have h1 : (BitVec.ofNat 32 (4 * s)).toNat = 4 * s := by
    rw [BitVec.toNat_ofNat]; omega
  unfold IntOp.andi IntOp.shrsi
  rw [if_pos (by rw [h1]; omega)]
  show (x.sshiftRight (BitVec.ofNat 32 (4 * s)).toNat) &&& 15#32 = _
  rw [h1]

/-! ## The layout operations of a slab, at explicit coordinates -/

/-- Row `r` of the unpacked `[128, 1024]` block is field `r % 8` of packed row `r / 8`: the packed block is given a unit
    middle axis, repeated eight times along it, shifted by the shift vector repeated over rows and columns, masked, and
    the three axes `[16, 8, 1024]` are read row-major as `[128, 1024]`. -/
theorem unpack_apply (q : IVec S16x1024 32) (v9 : IVec S1x8x1 32)
    (h1 : S16x1024.ShapeCasts S16x1x1024) (h2 : S16x1x1024.Broadcasts S16x8x1024) (h3 : S1x8x1.Broadcasts S16x8x1024)
    (h4 : S16x8x1024.ShapeCasts S128x1024) (r : Fin 128) (n : Fin 1024) :
    shapeCast S128x1024 (andi (shrsi (broadcastTo S16x8x1024 (shapeCast S16x1x1024 q h1) h2) (broadcastTo S16x8x1024 v9 h3))
        (broadcast S16x8x1024 15#32)) h4 (ix2 r n)
      = IntOp.andi (IntOp.shrsi .vector (q (ix2 (⟨r.val / 8, by have := r.isLt; omega⟩ : Fin 16) n))
          (v9 (ix3 (0 : Fin 1) (⟨r.val % 8, by omega⟩ : Fin 8) (0 : Fin 1)))) 15#32 := by
  refine (shapeCast_apply _ h4 (ix2 r n)
    (ix3 (⟨r.val / 8, by have := r.isLt; omega⟩ : Fin 16) (⟨r.val % 8, by omega⟩ : Fin 8) n) ?_).trans ?_
  · rw [Shape.rowMajor_val_three, Shape.rowMajor_val_two]
    show (r.val / 8 * 8 + r.val % 8) * 1024 + n.val = r.val * 1024 + n.val
    omega
  · show IntOp.andi (IntOp.shrsi .vector (broadcastTo S16x8x1024 (shapeCast S16x1x1024 q h1) h2 _)
        (broadcastTo S16x8x1024 v9 h3 _)) 15#32 = _
    have e1 : broadcastTo S16x8x1024 (shapeCast S16x1x1024 q h1) h2
        (ix3 (⟨r.val / 8, by have := r.isLt; omega⟩ : Fin 16) (⟨r.val % 8, by omega⟩ : Fin 8) n)
        = q (ix2 (⟨r.val / 8, by have := r.isLt; omega⟩ : Fin 16) n) := by
      refine (broadcastTo_apply _ h2 _ (ix3 (⟨r.val / 8, by have := r.isLt; omega⟩ : Fin 16) (0 : Fin 1) n) fun a => ?_).trans ?_
      · match a with
        | ⟨0, _⟩ => rfl
        | ⟨1, _⟩ => rfl
        | ⟨2, _⟩ => rfl
      · refine shapeCast_apply q h1 _ _ ?_
        rw [Shape.rowMajor_val_three, Shape.rowMajor_val_two]
        show r.val / 8 * 1024 + n.val = (r.val / 8 * 1 + 0) * 1024 + n.val
        omega
    have e2 : broadcastTo S16x8x1024 v9 h3
        (ix3 (⟨r.val / 8, by have := r.isLt; omega⟩ : Fin 16) (⟨r.val % 8, by omega⟩ : Fin 8) n)
        = v9 (ix3 (0 : Fin 1) (⟨r.val % 8, by omega⟩ : Fin 8) (0 : Fin 1)) := by
      refine broadcastTo_apply v9 h3 _ _ fun a => ?_
      match a with
      | ⟨0, _⟩ => rfl
      | ⟨1, _⟩ => rfl
      | ⟨2, _⟩ => rfl
    rw [e1, e2]

/-- Row `g` of an `[8, 1024]` block, cut out as one row and repeated over 128 rows, reads the block at `(g, n)`. -/
theorem row_apply {α : Type} (g : Nat) (hg : g < 8) (v : S8x1024.Idx → α) (hs : S8x1024.Slices ![g, 0] S1x1024)
    (hc : S1x1024.ShapeCasts S1x1024) (hb : S1x1024.Broadcasts S128x1024) (r : Fin 128) (n : Fin 1024) :
    broadcastTo S128x1024 (shapeCast S1x1024 (extractStridedSlice S1x1024 ![g, 0] v hs) hc) hb (ix2 r n)
      = v (ix2 (⟨g, hg⟩ : Fin 8) n) := by
  rw [broadcastTo_1b_ab_apply, shapeCast_self]
  exact slice2_axis0_apply g v hs (0 : Fin 1) n ⟨g, hg⟩ rfl

/-! ## The pointwise tail of a slab -/

/-- The scale block narrowed: the same extended reals. -/
theorem pay5_apply (sc : Vec Ideal S8x1024 .f32) (i : S8x1024.Idx) : k0_pay5 sc i = sc i := rfl

/-- The zero-point block narrowed: the same extended reals. -/
theorem pay6_apply (z : Vec Ideal S8x1024 .f32) (i : S8x1024.Idx) : k0_pay6 z i = z i := by
  unfold k0_pay6
  exact congrFun (shapeCast_self z _) i

/-- A slab's value at an index from its three `[128, 1024]` operands: the integer block read as exact reals, minus the
    zero-point rows, times the scale rows. -/
theorem deq_apply (w : IVec S128x1024 32) (zb sb : FVec Ideal S128x1024 .bf16) (h : S128x1024.ShapeCasts S128x1024)
    (i : S128x1024.Idx) :
    shapeCast S128x1024 (mulf (subf (sitofp .bf16 w) zb) sb) h i = ((((w i).toInt : ℝ) : EReal) - zb i) * sb i := by
  rw [shapeCast_self]
  rfl

/-! ## The eight slabs -/

/-- The first slab (rows `0` … `127` of the tile): at `(r, n)` the unpacked field minus the zero point of group
    row `0`, times the scale of group row `0`. -/
theorem slab0_apply (sc z : Vec Ideal S8x1024 .f32) (q : Vec Ideal S16x1024 .i32) (r : Fin 128) (n : Fin 1024) :
    k0_pay7 sc z q (ix2 r n)
      = ((((Cert.Spec.nib (q (ix2 (⟨r.val / 8, by have := r.isLt; omega⟩ : Fin 16) n)) (r.val % 8)).toInt : ℝ) : EReal)
          - z (ix2 (⟨0, by decide⟩ : Fin 8) n)) * sc (ix2 (⟨0, by decide⟩ : Fin 8) n) := by
  unfold k0_pay7
  refine (deq_apply _ _ _ _ _).trans ?_
  rw [unpack_apply, shift_apply, shrsi_andi_eq _ _ (by omega), row_apply 0 (by decide), row_apply 0 (by decide),
    pay5_apply, pay6_apply]
  rfl

/-- The second slab (rows `128` … `255` of the tile): at `(r, n)` the unpacked field minus the zero point of group
    row `1`, times the scale of group row `1`. -/
theorem slab1_apply (sc z : Vec Ideal S8x1024 .f32) (q : Vec Ideal S16x1024 .i32) (r : Fin 128) (n : Fin 1024) :
    k0_pay9 (k0_pay5 sc) (k0_pay6 z) (k0_pay8 q) (ix2 r n)
      = ((((Cert.Spec.nib (q (ix2 (⟨r.val / 8, by have := r.isLt; omega⟩ : Fin 16) n)) (r.val % 8)).toInt : ℝ) : EReal)
          - z (ix2 (⟨1, by decide⟩ : Fin 8) n)) * sc (ix2 (⟨1, by decide⟩ : Fin 8) n) := by
  unfold k0_pay9 k0_pay8
  refine (deq_apply _ _ _ _ _).trans ?_
  rw [unpack_apply, shift_apply, shrsi_andi_eq _ _ (by omega), row_apply 1 (by decide), row_apply 1 (by decide),
    pay5_apply, pay6_apply]
  rfl

/-- The third slab (rows `256` … `383` of the tile): at `(r, n)` the unpacked field minus the zero point of group
    row `2`, times the scale of group row `2`. -/
theorem slab2_apply (sc z : Vec Ideal S8x1024 .f32) (q : Vec Ideal S16x1024 .i32) (r : Fin 128) (n : Fin 1024) :
    k0_pay10 k0_pay4 (k0_pay5 sc) (k0_pay6 z) q (ix2 r n)
      = ((((Cert.Spec.nib (q (ix2 (⟨r.val / 8, by have := r.isLt; omega⟩ : Fin 16) n)) (r.val % 8)).toInt : ℝ) : EReal)
          - z (ix2 (⟨2, by decide⟩ : Fin 8) n)) * sc (ix2 (⟨2, by decide⟩ : Fin 8) n) := by
  unfold k0_pay10
  refine (deq_apply _ _ _ _ _).trans ?_
  rw [unpack_apply, shift_apply, shrsi_andi_eq _ _ (by omega), row_apply 2 (by decide), row_apply 2 (by decide),
    pay5_apply, pay6_apply]
  rfl

/-- The fourth slab (rows `384` … `511` of the tile): at `(r, n)` the unpacked field minus the zero point of group
    row `3`, times the scale of group row `3`. -/
theorem slab3_apply (sc z : Vec Ideal S8x1024 .f32) (q : Vec Ideal S16x1024 .i32) (r : Fin 128) (n : Fin 1024) :
    k0_pay14 (k0_pay11 k0_pay4 q) (k0_pay12 (k0_pay6 z)) (k0_pay13 (k0_pay5 sc)) (ix2 r n)
      = ((((Cert.Spec.nib (q (ix2 (⟨r.val / 8, by have := r.isLt; omega⟩ : Fin 16) n)) (r.val % 8)).toInt : ℝ) : EReal)
          - z (ix2 (⟨3, by decide⟩ : Fin 8) n)) * sc (ix2 (⟨3, by decide⟩ : Fin 8) n) := by
  unfold k0_pay14 k0_pay11 k0_pay12 k0_pay13
  refine (deq_apply _ _ _ _ _).trans ?_
  rw [unpack_apply, shift_apply, shrsi_andi_eq _ _ (by omega), row_apply 3 (by decide), row_apply 3 (by decide),
    pay5_apply, pay6_apply]
  rfl

/-- The fifth slab (rows `512` … `639` of the tile): at `(r, n)` the unpacked field minus the zero point of group
    row `4`, times the scale of group row `4`. -/
theorem slab4_apply (sc z : Vec Ideal S8x1024 .f32) (q : Vec Ideal S16x1024 .i32) (r : Fin 128) (n : Fin 1024) :
    k0_pay15 k0_pay4 (k0_pay5 sc) (k0_pay6 z) q (ix2 r n)
      = ((((Cert.Spec.nib (q (ix2 (⟨r.val / 8, by have := r.isLt; omega⟩ : Fin 16) n)) (r.val % 8)).toInt : ℝ) : EReal)
          - z (ix2 (⟨4, by decide⟩ : Fin 8) n)) * sc (ix2 (⟨4, by decide⟩ : Fin 8) n) := by
  unfold k0_pay15
  refine (deq_apply _ _ _ _ _).trans ?_
  rw [unpack_apply, shift_apply, shrsi_andi_eq _ _ (by omega), row_apply 4 (by decide), row_apply 4 (by decide),
    pay5_apply, pay6_apply]
  rfl

/-- The sixth slab (rows `640` … `767` of the tile): at `(r, n)` the unpacked field minus the zero point of group
    row `5`, times the scale of group row `5`. -/
theorem slab5_apply (sc z : Vec Ideal S8x1024 .f32) (q : Vec Ideal S16x1024 .i32) (r : Fin 128) (n : Fin 1024) :
    k0_pay17 (k0_pay16 k0_pay4 (k0_pay5 sc) (k0_pay6 z) q) (ix2 r n)
      = ((((Cert.Spec.nib (q (ix2 (⟨r.val / 8, by have := r.isLt; omega⟩ : Fin 16) n)) (r.val % 8)).toInt : ℝ) : EReal)
          - z (ix2 (⟨5, by decide⟩ : Fin 8) n)) * sc (ix2 (⟨5, by decide⟩ : Fin 8) n) := by
  unfold k0_pay17 k0_pay16
  refine (deq_apply _ _ _ _ _).trans ?_
  rw [unpack_apply, shift_apply, shrsi_andi_eq _ _ (by omega), row_apply 5 (by decide), row_apply 5 (by decide),
    pay5_apply, pay6_apply]
  rfl

/-- The seventh slab (rows `768` … `895` of the tile): at `(r, n)` the unpacked field minus the zero point of group
    row `6`, times the scale of group row `6`. -/
theorem slab6_apply (sc z : Vec Ideal S8x1024 .f32) (q : Vec Ideal S16x1024 .i32) (r : Fin 128) (n : Fin 1024) :
    k0_pay18 k0_pay4 (k0_pay5 sc) (k0_pay6 z) q (ix2 r n)
      = ((((Cert.Spec.nib (q (ix2 (⟨r.val / 8, by have := r.isLt; omega⟩ : Fin 16) n)) (r.val % 8)).toInt : ℝ) : EReal)
          - z (ix2 (⟨6, by decide⟩ : Fin 8) n)) * sc (ix2 (⟨6, by decide⟩ : Fin 8) n) := by
  unfold k0_pay18
  refine (deq_apply _ _ _ _ _).trans ?_
  rw [unpack_apply, shift_apply, shrsi_andi_eq _ _ (by omega), row_apply 6 (by decide), row_apply 6 (by decide),
    pay5_apply, pay6_apply]
  rfl

/-- The eighth slab (rows `896` … `1023` of the tile): at `(r, n)` the unpacked field minus the zero point of group
    row `7`, times the scale of group row `7`. -/
theorem slab7_apply (sc z : Vec Ideal S8x1024 .f32) (q : Vec Ideal S16x1024 .i32) (r : Fin 128) (n : Fin 1024) :
    k0_pay19 k0_pay4 (k0_pay5 sc) (k0_pay6 z) q (ix2 r n)
      = ((((Cert.Spec.nib (q (ix2 (⟨r.val / 8, by have := r.isLt; omega⟩ : Fin 16) n)) (r.val % 8)).toInt : ℝ) : EReal)
          - z (ix2 (⟨7, by decide⟩ : Fin 8) n)) * sc (ix2 (⟨7, by decide⟩ : Fin 8) n) := by
  unfold k0_pay19
  refine (deq_apply _ _ _ _ _).trans ?_
  rw [unpack_apply, shift_apply, shrsi_andi_eq _ _ (by omega), row_apply 7 (by decide), row_apply 7 (by decide),
    pay5_apply, pay6_apply]
  rfl

/-! ## The product onto the output block -/

/-- The left operand's index at output `(r, n)` and contraction position `k`: row `r` … -/
theorem lhs_0 (j : S2048x1024.Idx) (k : dot_S2048x1024_S1024x1024_S2048x1024_1_0_0_1_n_n.contr.Idx) :
    (dot_S2048x1024_S1024x1024_S2048x1024_1_0_0_1_n_n.lhsIdx j k 0).val = (j 0).val := by
  unfold DotDims.lhsIdx
  rw [dif_neg (show ¬(0 : Fin S2048x1024.rank) ∈ dot_S2048x1024_S1024x1024_S2048x1024_1_0_0_1_n_n.lhsBatch by decide),
    dif_pos (show (0 : Fin S2048x1024.rank) ∈ dot_S2048x1024_S1024x1024_S2048x1024_1_0_0_1_n_n.lhsNonContracting by decide)]
  rfl

/-- … column the contraction coordinate. -/
theorem lhs_1 (j : S2048x1024.Idx) (k : dot_S2048x1024_S1024x1024_S2048x1024_1_0_0_1_n_n.contr.Idx) :
    (dot_S2048x1024_S1024x1024_S2048x1024_1_0_0_1_n_n.lhsIdx j k 1).val = (k ⟨0, by decide⟩).val :=
  dot_S2048x1024_S1024x1024_S2048x1024_1_0_0_1_n_n.lhsIdx_val_of_single rfl j k

/-- The right operand's index: row the contraction coordinate … -/
theorem rhs_0 (j : S2048x1024.Idx) (k : dot_S2048x1024_S1024x1024_S2048x1024_1_0_0_1_n_n.contr.Idx) :
    (dot_S2048x1024_S1024x1024_S2048x1024_1_0_0_1_n_n.rhsIdx j k 0).val = (k ⟨0, by decide⟩).val :=
  dot_S2048x1024_S1024x1024_S2048x1024_1_0_0_1_n_n.rhsIdx_val_of_single rfl j k

/-- … column `n`. -/
theorem rhs_1 (j : S2048x1024.Idx) (k : dot_S2048x1024_S1024x1024_S2048x1024_1_0_0_1_n_n.contr.Idx) :
    (dot_S2048x1024_S1024x1024_S2048x1024_1_0_0_1_n_n.rhsIdx j k 1).val = (j 1).val := by
  unfold DotDims.rhsIdx
  rw [dif_neg (show ¬(1 : Fin S1024x1024.rank) ∈ dot_S2048x1024_S1024x1024_S2048x1024_1_0_0_1_n_n.rhsBatch by decide),
    dif_pos (show (1 : Fin S1024x1024.rank) ∈ dot_S2048x1024_S1024x1024_S2048x1024_1_0_0_1_n_n.rhsNonContracting by decide)]
  rfl

/-- The product of a `[2048, 1024]` block by a `[1024, 1024]` tile onto the zero block, at `(r, n)`: the sum over the shared
    coordinate of the entries' products. -/
theorem matmul_zero_apply (A : FVec Ideal S2048x1024 .bf16) (B : FVec Ideal S1024x1024 .bf16) (r : Fin 2048) (n : Fin 1024) :
    matmul dot_S2048x1024_S1024x1024_S2048x1024_1_0_0_1_n_n none A B (constant (F := Ideal) S2048x1024 .f32 0x00000000#32) (ix2 r n)
      = ∑ j : Fin 1024, A (ix2 r j) * B (ix2 j n) := by
  show FloatOps.matmul dot_S2048x1024_S1024x1024_S2048x1024_1_0_0_1_n_n none A B _ (ix2 r n) = _
  rw [Ideal.matmul_constant_zero_apply,
    ← Equiv.sum_comp (contrEquiv1 dot_S2048x1024_S1024x1024_S2048x1024_1_0_0_1_n_n 1024 rfl rfl).symm]
  refine Finset.sum_congr rfl fun c _ => ?_
  have hk := contrEquiv1_symm_val dot_S2048x1024_S1024x1024_S2048x1024_1_0_0_1_n_n 1024 rfl rfl c
  have hl : dot_S2048x1024_S1024x1024_S2048x1024_1_0_0_1_n_n.lhsIdx (ix2 r n)
      ((contrEquiv1 dot_S2048x1024_S1024x1024_S2048x1024_1_0_0_1_n_n 1024 rfl rfl).symm c) = ix2 r c := by
    funext ax; apply Fin.ext
    match ax with
    | ⟨0, _⟩ => exact lhs_0 _ _
    | ⟨1, _⟩ => exact (lhs_1 _ _).trans hk
  have hr : dot_S2048x1024_S1024x1024_S2048x1024_1_0_0_1_n_n.rhsIdx (ix2 r n)
      ((contrEquiv1 dot_S2048x1024_S1024x1024_S2048x1024_1_0_0_1_n_n 1024 rfl rfl).symm c) = ix2 c n := by
    funext ax; apply Fin.ext
    match ax with
    | ⟨0, _⟩ => exact (rhs_0 _ _).trans hk
    | ⟨1, _⟩ => exact rhs_1 _ _
  rw [hl, hr]

/-- One reduction step: the output block plus the product of the activation block by the dequantised tile. -/
theorem acc_apply (xb : Vec Ideal S2048x1024 .bf16) (W : Vec Ideal S1024x1024 .bf16) (o : Vec Ideal S2048x1024 .f32)
    (r : Fin 2048) (n : Fin 1024) :
    k0_pay1 (k0_pay20 xb) W o (ix2 r n) = o (ix2 r n) + ∑ j : Fin 1024, xb (ix2 r j) * W (ix2 j n) := by
  unfold k0_pay1 k0_pay20
  show shapeCast S2048x1024 o _ (ix2 r n)
      + matmul dot_S2048x1024_S1024x1024_S2048x1024_1_0_0_1_n_n none (shapeCast S2048x1024 xb _) W
          (constant (F := Ideal) S2048x1024 .f32 0x00000000#32) (ix2 r n) = _
  rw [matmul_zero_apply, shapeCast_self, shapeCast_self]

/-- The last step: the bias row added to every row of the output block. -/
theorem bias_apply (o : Vec Ideal S2048x1024 .f32) (bv : Vec Ideal S1x1024 .f32) (r : Fin 2048) (n : Fin 1024) :
    k0_pay2 o bv (ix2 r n) = o (ix2 r n) + bv (ix2 (0 : Fin 1) n) := by
  unfold k0_pay2
  show shapeCast S2048x1024 o _ (ix2 r n) + broadcastTo S2048x1024 (shapeCast S1x1024 bv _) _ (ix2 r n) = _
  rw [broadcastTo_1b_ab_apply, shapeCast_self, shapeCast_self]

/-- The first step's initial block is zero. -/
theorem zero_apply (r : Fin 2048) (n : Fin 1024) : k0_pay3 (F := Ideal) (ix2 r n) = 0 := by
  unfold k0_pay3
  show Ideal.ofBits .f32 0x00000000#32 = 0
  exact Ideal.ofBits_zero_f32

end Cert.KernelIdeal.KPay

end
-- ==== Proof.KOut.lean ====
/-
  The output block after the kernel body, at an index, over the extended reals.

  The body fills a `[1024, 1024]` weight scratch by eight stores of 128 rows each; slab `g` is computed from packed rows
  `16 g` … `16 g + 15` of the staged packed block, row `g` of the staged zero-point block and row `g` of the staged scale
  block. Read back whole, the scratch is the dequantised tile `wTile`: each store's value is the tile on its own rows, and
  the eight row blocks tile the scratch. The output block is then stored once or twice through its whole rectangle, so it
  holds the last store's value: the running contents (or zero, at the first reduction step) plus the product of the
  activation block with the tile, plus the bias row at the last reduction step.
-/
import proofs.«416578_j10419590660824_3_alg».proof.Proof.KRunLast
import proofs.«416578_j10419590660824_3_alg».proof.Proof.KPay
import proofs.«416578_j10419590660824_3_alg».proof.Proof.KTile
import Idealize.ShloMosaic.Lib.Pipeline.FrameBody

set_option maxRecDepth 16384

noncomputable section

open scoped BigOperators

namespace Cert.KernelIdeal.KOut

open Cert.KernelIdeal Cert.KernelIdeal.Gen Cert.KernelIdeal.Hand Cert.KernelIdeal.KPay
open Idealize.ShloMosaic Idealize.ShloMosaic.ValueIdx Idealize.ShloMosaic.Tactic

/-! ## Reading through rectangles -/

theorem hz2 : (![0, 0] : Fin 2 → ℕ) = fun _ => 0 := by
  funext a; match a with | ⟨0, _⟩ => rfl | ⟨1, _⟩ => rfl

/-- Sixteen packed rows from row `o` of the packed block: row `a` of the cut is row `o + a` of the block. -/
theorem packed_apply (x1 : Vec Ideal S128x1024 .i32) (o : Nat)
    (inb : ∀ a, (![o, 0] : Fin 2 → ℕ) a + S16x1024.size a ≤ S128x1024.size a) (a : Fin 16) (n : Fin 1024) (k : Fin 128)
    (hk : k.val = o + a.val) :
    View.ld x1 (Rect.unit (s := S128x1024) ![o, 0] S16x1024.size inb) (ix2 a n) = x1 (ix2 k n) := by
  show x1 _ = x1 _
  refine congrArg x1 (funext fun ax => Fin.ext ?_)
  match ax with
  | ⟨0, _⟩ => show o + 1 * a.val = k.val; omega
  | ⟨1, _⟩ => show 0 + 1 * n.val = n.val; omega

/-! ## The dequantised tile as a function of the scratch index -/

/-- The dequantised tile at a scratch index. -/
def tileFn (x1 : Vec Ideal S128x1024 .i32) (x2 x3 : Vec Ideal S8x1024 .f32) (y : S1024x1024.Idx) : EReal :=
  wTile x1 x2 x3 ⟨(y 0).val, idx2_lt0 y⟩ ⟨(y 1).val, idx2_lt1 y⟩

theorem tileFn_ix2 (x1 : Vec Ideal S128x1024 .i32) (x2 x3 : Vec Ideal S8x1024 .f32) (j n : Fin 1024) :
    tileFn x1 x2 x3 (ix2 j n) = wTile x1 x2 x3 j n := rfl

/-- At row `r` of the 128-row block that starts at row `o`: the tile's row `o + r`. -/
theorem tileFn_emb (x1 : Vec Ideal S128x1024 .i32) (x2 x3 : Vec Ideal S8x1024 .f32) (o : Nat)
    (inb : ∀ a, (![o, 0] : Fin 2 → ℕ) a + S128x1024.size a ≤ S1024x1024.size a) (r : Fin 128) (n : Fin 1024) (j : Fin 1024)
    (hj : j.val = o + r.val) :
    tileFn x1 x2 x3 ((Rect.unit (s := S1024x1024) ![o, 0] S128x1024.size inb).emb (ix2 r n)) = wTile x1 x2 x3 j n := by
  unfold tileFn
  have h0 : (⟨(((Rect.unit (s := S1024x1024) ![o, 0] S128x1024.size inb).emb (ix2 r n)) 0).val, idx2_lt0 _⟩ : Fin 1024) = j :=
    Fin.ext (by show o + 1 * r.val = j.val; omega)
  have h1 : (⟨(((Rect.unit (s := S1024x1024) ![o, 0] S128x1024.size inb).emb (ix2 r n)) 1).val, idx2_lt1 _⟩ : Fin 1024) = n :=
    Fin.ext (by show 0 + 1 * n.val = n.val; omega)
  rw [h0, h1]

/-- Row `128 g + r` of the tile: field `r % 8` of packed row `16 g + r / 8`, with group row `g`. -/
theorem wTile_slab (x1 : Vec Ideal S128x1024 .i32) (x2 x3 : Vec Ideal S8x1024 .f32) (g : Fin 8) (r : Fin 128) (n : Fin 1024)
    (j : Fin 1024) (hj : j.val = 128 * g.val + r.val) :
    wTile x1 x2 x3 j n
      = ((((Cert.Spec.nib (x1 (ix2 (⟨16 * g.val + r.val / 8, by have := g.isLt; have := r.isLt; omega⟩ : Fin 128) n)) (r.val % 8)).toInt : ℝ) : EReal)
          - x2 (ix2 g n)) * x3 (ix2 g n) := by
  unfold wTile
  have h1 : (⟨j.val / 8, by have := j.isLt; omega⟩ : Fin 128)
      = ⟨16 * g.val + r.val / 8, by have := g.isLt; have := r.isLt; omega⟩ := Fin.ext (by show j.val / 8 = 16 * g.val + r.val / 8; omega)
  have h2 : j.val % 8 = r.val % 8 := by omega
  have h3 : (⟨j.val / 128, by have := j.isLt; omega⟩ : Fin 8) = g := Fin.ext (by show j.val / 128 = g.val; have := r.isLt; omega)
  rw [h1, h2, h3]

/-- The eight slab stores into the weight scratch, the last first: slab `g` lies at rows `128 g` … `128 g + 127` and is
    computed from packed rows `16 g` … `16 g + 15` of the packed block. -/
def slabs (x1 : Vec Ideal S128x1024 .i32) (x2 x3 : Vec Ideal S8x1024 .f32) : List (View.Piece (Elt Ideal) S1024x1024 .bf16) :=
  [(⟨Rect.unit (s := S1024x1024) ![896, 0] S128x1024.size inb_S1024x1024_S128x1024_896_0,
      k0_pay19 k0_pay4 (k0_pay5 x3) (k0_pay6 x2) (View.ld x1 (Rect.unit (s := S128x1024) ![112, 0] S16x1024.size inb_S128x1024_S16x1024_112_0))⟩ : View.Piece (Elt Ideal) S1024x1024 .bf16),
   (⟨Rect.unit (s := S1024x1024) ![768, 0] S128x1024.size inb_S1024x1024_S128x1024_768_0,
      k0_pay18 k0_pay4 (k0_pay5 x3) (k0_pay6 x2) (View.ld x1 (Rect.unit (s := S128x1024) ![96, 0] S16x1024.size inb_S128x1024_S16x1024_96_0))⟩ : View.Piece (Elt Ideal) S1024x1024 .bf16),
   (⟨Rect.unit (s := S1024x1024) ![640, 0] S128x1024.size inb_S1024x1024_S128x1024_640_0,
      k0_pay17 (k0_pay16 k0_pay4 (k0_pay5 x3) (k0_pay6 x2) (View.ld x1 (Rect.unit (s := S128x1024) ![80, 0] S16x1024.size inb_S128x1024_S16x1024_80_0)))⟩ : View.Piece (Elt Ideal) S1024x1024 .bf16),
   (⟨Rect.unit (s := S1024x1024) ![512, 0] S128x1024.size inb_S1024x1024_S128x1024_512_0,
      k0_pay15 k0_pay4 (k0_pay5 x3) (k0_pay6 x2) (View.ld x1 (Rect.unit (s := S128x1024) ![64, 0] S16x1024.size inb_S128x1024_S16x1024_64_0))⟩ : View.Piece (Elt Ideal) S1024x1024 .bf16),
   (⟨Rect.unit (s := S1024x1024) ![384, 0] S128x1024.size inb_S1024x1024_S128x1024_384_0,
      k0_pay14 (k0_pay11 k0_pay4 (View.ld x1 (Rect.unit (s := S128x1024) ![48, 0] S16x1024.size inb_S128x1024_S16x1024_48_0))) (k0_pay12 (k0_pay6 x2)) (k0_pay13 (k0_pay5 x3))⟩ : View.Piece (Elt Ideal) S1024x1024 .bf16),
   (⟨Rect.unit (s := S1024x1024) ![256, 0] S128x1024.size inb_S1024x1024_S128x1024_256_0,
      k0_pay10 k0_pay4 (k0_pay5 x3) (k0_pay6 x2) (View.ld x1 (Rect.unit (s := S128x1024) ![32, 0] S16x1024.size inb_S128x1024_S16x1024_32_0))⟩ : View.Piece (Elt Ideal) S1024x1024 .bf16),
   (⟨Rect.unit (s := S1024x1024) ![128, 0] S128x1024.size inb_S1024x1024_S128x1024_128_0,
      k0_pay9 (k0_pay5 x3) (k0_pay6 x2) (k0_pay8 (View.ld x1 (Rect.unit (s := S128x1024) ![16, 0] S16x1024.size inb_S128x1024_S16x1024_16_0)))⟩ : View.Piece (Elt Ideal) S1024x1024 .bf16),
   (⟨Rect.unit (s := S1024x1024) ![0, 0] S128x1024.size inb_S1024x1024_S128x1024_0_0,
      k0_pay7 x3 x2 (View.ld x1 (Rect.unit (s := S128x1024) ![0, 0] S16x1024.size inb_S128x1024_S16x1024_0_0))⟩ : View.Piece (Elt Ideal) S1024x1024 .bf16)]

/-! ## Each slab store is the tile on its rows

Store `g` lies at rows `128 g` … `128 g + 127`; at local index `(r, n)` its value is field `r % 8` of packed row
`16 g + r / 8` minus the zero point of group row `g`, times the scale of group row `g`: the tile at row `128 g + r`. -/

theorem piece0 (x1 : Vec Ideal S128x1024 .i32) (x2 x3 : Vec Ideal S8x1024 .f32)
    (x : (Rect.unit (s := S1024x1024) ![0, 0] S128x1024.size inb_S1024x1024_S128x1024_0_0).shape.Idx) :
    k0_pay7 x3 x2 (View.ld x1 (Rect.unit (s := S128x1024) ![0, 0] S16x1024.size inb_S128x1024_S16x1024_0_0)) x
      = tileFn x1 x2 x3 ((Rect.unit (s := S1024x1024) ![0, 0] S128x1024.size inb_S1024x1024_S128x1024_0_0).emb x) := by
  obtain ⟨r, n, rfl⟩ : ∃ (r : Fin 128) (n : Fin 1024), x = ix2 r n := ⟨x 0, x 1, eq_ix2 x⟩
  rw [tileFn_emb x1 x2 x3 0 _ r n ⟨0 + r.val, by have := r.isLt; omega⟩ rfl,
    wTile_slab x1 x2 x3 ⟨0, by decide⟩ r n _ rfl, slab0_apply,
    packed_apply x1 0 _ _ n ⟨16 * 0 + r.val / 8, by have := r.isLt; omega⟩ rfl]

theorem piece1 (x1 : Vec Ideal S128x1024 .i32) (x2 x3 : Vec Ideal S8x1024 .f32)
    (x : (Rect.unit (s := S1024x1024) ![128, 0] S128x1024.size inb_S1024x1024_S128x1024_128_0).shape.Idx) :
    k0_pay9 (k0_pay5 x3) (k0_pay6 x2) (k0_pay8 (View.ld x1 (Rect.unit (s := S128x1024) ![16, 0] S16x1024.size inb_S128x1024_S16x1024_16_0))) x
      = tileFn x1 x2 x3 ((Rect.unit (s := S1024x1024) ![128, 0] S128x1024.size inb_S1024x1024_S128x1024_128_0).emb x) := by
  obtain ⟨r, n, rfl⟩ : ∃ (r : Fin 128) (n : Fin 1024), x = ix2 r n := ⟨x 0, x 1, eq_ix2 x⟩
  rw [tileFn_emb x1 x2 x3 128 _ r n ⟨128 + r.val, by have := r.isLt; omega⟩ rfl,
    wTile_slab x1 x2 x3 ⟨1, by decide⟩ r n _ rfl, slab1_apply,
    packed_apply x1 16 _ _ n ⟨16 * 1 + r.val / 8, by have := r.isLt; omega⟩ rfl]

theorem piece2 (x1 : Vec Ideal S128x1024 .i32) (x2 x3 : Vec Ideal S8x1024 .f32)
    (x : (Rect.unit (s := S1024x1024) ![256, 0] S128x1024.size inb_S1024x1024_S128x1024_256_0).shape.Idx) :
    k0_pay10 k0_pay4 (k0_pay5 x3) (k0_pay6 x2) (View.ld x1 (Rect.unit (s := S128x1024) ![32, 0] S16x1024.size inb_S128x1024_S16x1024_32_0)) x
      = tileFn x1 x2 x3 ((Rect.unit (s := S1024x1024) ![256, 0] S128x1024.size inb_S1024x1024_S128x1024_256_0).emb x) := by
  obtain ⟨r, n, rfl⟩ : ∃ (r : Fin 128) (n : Fin 1024), x = ix2 r n := ⟨x 0, x 1, eq_ix2 x⟩
  rw [tileFn_emb x1 x2 x3 256 _ r n ⟨256 + r.val, by have := r.isLt; omega⟩ rfl,
    wTile_slab x1 x2 x3 ⟨2, by decide⟩ r n _ rfl, slab2_apply,
    packed_apply x1 32 _ _ n ⟨16 * 2 + r.val / 8, by have := r.isLt; omega⟩ rfl]

theorem piece3 (x1 : Vec Ideal S128x1024 .i32) (x2 x3 : Vec Ideal S8x1024 .f32)
    (x : (Rect.unit (s := S1024x1024) ![384, 0] S128x1024.size inb_S1024x1024_S128x1024_384_0).shape.Idx) :
    k0_pay14 (k0_pay11 k0_pay4 (View.ld x1 (Rect.unit (s := S128x1024) ![48, 0] S16x1024.size inb_S128x1024_S16x1024_48_0))) (k0_pay12 (k0_pay6 x2)) (k0_pay13 (k0_pay5 x3)) x
      = tileFn x1 x2 x3 ((Rect.unit (s := S1024x1024) ![384, 0] S128x1024.size inb_S1024x1024_S128x1024_384_0).emb x) := by
  obtain ⟨r, n, rfl⟩ : ∃ (r : Fin 128) (n : Fin 1024), x = ix2 r n := ⟨x 0, x 1, eq_ix2 x⟩
  rw [tileFn_emb x1 x2 x3 384 _ r n ⟨384 + r.val, by have := r.isLt; omega⟩ rfl,
    wTile_slab x1 x2 x3 ⟨3, by decide⟩ r n _ rfl, slab3_apply,
    packed_apply x1 48 _ _ n ⟨16 * 3 + r.val / 8, by have := r.isLt; omega⟩ rfl]

theorem piece4 (x1 : Vec Ideal S128x1024 .i32) (x2 x3 : Vec Ideal S8x1024 .f32)
    (x : (Rect.unit (s := S1024x1024) ![512, 0] S128x1024.size inb_S1024x1024_S128x1024_512_0).shape.Idx) :
    k0_pay15 k0_pay4 (k0_pay5 x3) (k0_pay6 x2) (View.ld x1 (Rect.unit (s := S128x1024) ![64, 0] S16x1024.size inb_S128x1024_S16x1024_64_0)) x
      = tileFn x1 x2 x3 ((Rect.unit (s := S1024x1024) ![512, 0] S128x1024.size inb_S1024x1024_S128x1024_512_0).emb x) := by
  obtain ⟨r, n, rfl⟩ : ∃ (r : Fin 128) (n : Fin 1024), x = ix2 r n := ⟨x 0, x 1, eq_ix2 x⟩
  rw [tileFn_emb x1 x2 x3 512 _ r n ⟨512 + r.val, by have := r.isLt; omega⟩ rfl,
    wTile_slab x1 x2 x3 ⟨4, by decide⟩ r n _ rfl, slab4_apply,
    packed_apply x1 64 _ _ n ⟨16 * 4 + r.val / 8, by have := r.isLt; omega⟩ rfl]

theorem piece5 (x1 : Vec Ideal S128x1024 .i32) (x2 x3 : Vec Ideal S8x1024 .f32)
    (x : (Rect.unit (s := S1024x1024) ![640, 0] S128x1024.size inb_S1024x1024_S128x1024_640_0).shape.Idx) :
    k0_pay17 (k0_pay16 k0_pay4 (k0_pay5 x3) (k0_pay6 x2) (View.ld x1 (Rect.unit (s := S128x1024) ![80, 0] S16x1024.size inb_S128x1024_S16x1024_80_0))) x
      = tileFn x1 x2 x3 ((Rect.unit (s := S1024x1024) ![640, 0] S128x1024.size inb_S1024x1024_S128x1024_640_0).emb x) := by
  obtain ⟨r, n, rfl⟩ : ∃ (r : Fin 128) (n : Fin 1024), x = ix2 r n := ⟨x 0, x 1, eq_ix2 x⟩
  rw [tileFn_emb x1 x2 x3 640 _ r n ⟨640 + r.val, by have := r.isLt; omega⟩ rfl,
    wTile_slab x1 x2 x3 ⟨5, by decide⟩ r n _ rfl, slab5_apply,
    packed_apply x1 80 _ _ n ⟨16 * 5 + r.val / 8, by have := r.isLt; omega⟩ rfl]

theorem piece6 (x1 : Vec Ideal S128x1024 .i32) (x2 x3 : Vec Ideal S8x1024 .f32)
    (x : (Rect.unit (s := S1024x1024) ![768, 0] S128x1024.size inb_S1024x1024_S128x1024_768_0).shape.Idx) :
    k0_pay18 k0_pay4 (k0_pay5 x3) (k0_pay6 x2) (View.ld x1 (Rect.unit (s := S128x1024) ![96, 0] S16x1024.size inb_S128x1024_S16x1024_96_0)) x
      = tileFn x1 x2 x3 ((Rect.unit (s := S1024x1024) ![768, 0] S128x1024.size inb_S1024x1024_S128x1024_768_0).emb x) := by
  obtain ⟨r, n, rfl⟩ : ∃ (r : Fin 128) (n : Fin 1024), x = ix2 r n := ⟨x 0, x 1, eq_ix2 x⟩
  rw [tileFn_emb x1 x2 x3 768 _ r n ⟨768 + r.val, by have := r.isLt; omega⟩ rfl,
    wTile_slab x1 x2 x3 ⟨6, by decide⟩ r n _ rfl, slab6_apply,
    packed_apply x1 96 _ _ n ⟨16 * 6 + r.val / 8, by have := r.isLt; omega⟩ rfl]

theorem piece7 (x1 : Vec Ideal S128x1024 .i32) (x2 x3 : Vec Ideal S8x1024 .f32)
    (x : (Rect.unit (s := S1024x1024) ![896, 0] S128x1024.size inb_S1024x1024_S128x1024_896_0).shape.Idx) :
    k0_pay19 k0_pay4 (k0_pay5 x3) (k0_pay6 x2) (View.ld x1 (Rect.unit (s := S128x1024) ![112, 0] S16x1024.size inb_S128x1024_S16x1024_112_0)) x
      = tileFn x1 x2 x3 ((Rect.unit (s := S1024x1024) ![896, 0] S128x1024.size inb_S1024x1024_S128x1024_896_0).emb x) := by
  obtain ⟨r, n, rfl⟩ : ∃ (r : Fin 128) (n : Fin 1024), x = ix2 r n := ⟨x 0, x 1, eq_ix2 x⟩
  rw [tileFn_emb x1 x2 x3 896 _ r n ⟨896 + r.val, by have := r.isLt; omega⟩ rfl,
    wTile_slab x1 x2 x3 ⟨7, by decide⟩ r n _ rfl, slab7_apply,
    packed_apply x1 112 _ _ n ⟨16 * 7 + r.val / 8, by have := r.isLt; omega⟩ rfl]

/-! ## The scratch after the eight slab stores is the dequantised tile -/

theorem slabs_pieces (x1 : Vec Ideal S128x1024 .i32) (x2 x3 : Vec Ideal S8x1024 .f32) :
    ∀ p ∈ slabs x1 x2 x3, ∀ x : p.1.shape.Idx, p.2 x = tileFn x1 x2 x3 (p.1.emb x) := by
  intro p hp
  simp only [slabs, List.mem_cons, List.not_mem_nil, or_false] at hp
  rcases hp with rfl | rfl | rfl | rfl | rfl | rfl | rfl | rfl
  · exact piece7 x1 x2 x3
  · exact piece6 x1 x2 x3
  · exact piece5 x1 x2 x3
  · exact piece4 x1 x2 x3
  · exact piece3 x1 x2 x3
  · exact piece2 x1 x2 x3
  · exact piece1 x1 x2 x3
  · exact piece0 x1 x2 x3

theorem slabs_cover (x1 : Vec Ideal S128x1024 .i32) (x2 x3 : Vec Ideal S8x1024 .f32) (y : S1024x1024.Idx) :
    ∃ p ∈ slabs x1 x2 x3, y ∈ p.1.set :=
  View.cover_of_tiledL (slabs x1 x2 x3) S128x1024.size (by sl_kernel_rfl) y

/-- The scratch's contents after the eight stores: the dequantised tile. -/
theorem canon_slabs (x1 : Vec Ideal S128x1024 .i32) (x2 x3 : Vec Ideal S8x1024 .f32) :
    View.canon (slabs x1 x2 x3) = tileFn x1 x2 x3 :=
  funext fun y => View.canon_apply_of_pieces (tileFn x1 x2 x3) (slabs x1 x2 x3) (slabs_pieces x1 x2 x3) y (slabs_cover x1 x2 x3 y)

/-- A load of the whole scratch after a list of stores reads what the stores leave. -/
theorem scratch_read (v : View sig .tc .vmem S1024x1024 .bf16) (L : List (View.Piece (Elt Ideal) S1024x1024 .bf16))
    (inb : ∀ a, (![0, 0] : Fin 2 → ℕ) a + S1024x1024.size a ≤ S1024x1024.size a) :
    v.readCov L (Rect.unit (s := S1024x1024) ![0, 0] S1024x1024.size inb).toLoadRect = View.canon L := by
  rw [View.readCov_eq_canon']
  exact View.ld_unit_zero (S := S1024x1024) hz2 inb (View.canon L)

/-! ## What each case's run leaves in the output block's buffer: the pieces -/

/-- Neither branch taken: one store, of the running contents plus the product with the dequantised tile. -/
theorem pieces_mid (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S1024x1024 .bf16) (harg9 : arg9.IsWhole) (hc1 : ¬condFirst i) (hc2 : ¬condLast i)
    (x0 : Vec Ideal S2048x1024 .bf16) (x1 : Vec Ideal S128x1024 .i32) (x2 : Vec Ideal S8x1024 .f32)
    (x3 : Vec Ideal S8x1024 .f32) (x4 : Vec Ideal S1x1024 .f32) (xo : Vec Ideal S2048x1024 .f32) :
    (kernelRunMid (F := Ideal) c i arg3 harg3 arg4 harg4 arg5 harg5 arg6 harg6 arg7 harg7 arg8 harg8 arg9 harg9 hc1 hc2 x0 x1 x2 x3 x4 xo).1
      = [(⟨Rect.unit (s := S2048x1024) ![0, 0] S2048x1024.size inb_S2048x1024_S2048x1024_0_0, k0_pay1 (k0_pay20 x0) (tileFn x1 x2 x3) xo⟩ : View.Piece (Elt Ideal) S2048x1024 .f32)] := by
  unfold kernelRunMid
  dsimp only
  sl_unfold_words
  simp only [View.readAt_eq_ld, harg3.read_unread, harg4.read_unread, harg5.read_unread, harg6.read_unread,
    harg7.read_unread, harg8.read_unread, View.ld_unit_zero (S := S2048x1024) hz2, View.ld_unit_zero (S := S8x1024) hz2,
    View.ld_unit_zero (S := S1x1024) hz2, scratch_read, View.readCov_unit_zero (S := S2048x1024) _ hz2]
  rw [scratch_read arg9.view]
  show [(⟨Rect.unit (s := S2048x1024) ![0, 0] S2048x1024.size inb_S2048x1024_S2048x1024_0_0, k0_pay1 (k0_pay20 x0) (View.canon (slabs x1 x2 x3)) xo⟩ : View.Piece (Elt Ideal) S2048x1024 .f32)] = _
  rw [canon_slabs]

/-- First branch taken: a store of zeros, then a store of zero plus the product. -/
theorem pieces_first (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S1024x1024 .bf16) (harg9 : arg9.IsWhole) (hc1 : condFirst i) (hc2 : ¬condLast i)
    (x0 : Vec Ideal S2048x1024 .bf16) (x1 : Vec Ideal S128x1024 .i32) (x2 : Vec Ideal S8x1024 .f32)
    (x3 : Vec Ideal S8x1024 .f32) (x4 : Vec Ideal S1x1024 .f32) :
    (kernelRunFirst (F := Ideal) c i arg3 harg3 arg4 harg4 arg5 harg5 arg6 harg6 arg7 harg7 arg8 harg8 arg9 harg9 hc1 hc2 x0 x1 x2 x3 x4).1
      = [(⟨Rect.unit (s := S2048x1024) ![0, 0] S2048x1024.size inb_S2048x1024_S2048x1024_0_0, k0_pay1 (k0_pay20 x0) (tileFn x1 x2 x3) (k0_pay3 (F := Ideal))⟩ : View.Piece (Elt Ideal) S2048x1024 .f32),
         ⟨Rect.unit (s := S2048x1024) ![0, 0] S2048x1024.size inb_S2048x1024_S2048x1024_0_0, k0_pay3 (F := Ideal)⟩] := by
  unfold kernelRunFirst
  dsimp only
  sl_unfold_words
  simp only [View.readAt_eq_ld, harg3.read_unread, harg4.read_unread, harg5.read_unread, harg6.read_unread,
    harg7.read_unread, harg8.read_unread, View.ld_unit_zero (S := S2048x1024) hz2, View.ld_unit_zero (S := S8x1024) hz2,
    View.ld_unit_zero (S := S1x1024) hz2, scratch_read, View.readCov_unit_zero (S := S2048x1024) _ hz2]
  rw [scratch_read arg9.view]
  show [(⟨Rect.unit (s := S2048x1024) ![0, 0] S2048x1024.size inb_S2048x1024_S2048x1024_0_0, k0_pay1 (k0_pay20 x0) (View.canon (slabs x1 x2 x3)) (k0_pay3 (F := Ideal))⟩ : View.Piece (Elt Ideal) S2048x1024 .f32),
      ⟨Rect.unit (s := S2048x1024) ![0, 0] S2048x1024.size inb_S2048x1024_S2048x1024_0_0, k0_pay3 (F := Ideal)⟩] = _
  rw [canon_slabs]

/-- Second branch taken: a store of the running contents plus the product, then a store of that plus the bias row. -/
theorem pieces_last (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S1024x1024 .bf16) (harg9 : arg9.IsWhole) (hc1 : ¬condFirst i) (hc2 : condLast i)
    (x0 : Vec Ideal S2048x1024 .bf16) (x1 : Vec Ideal S128x1024 .i32) (x2 : Vec Ideal S8x1024 .f32)
    (x3 : Vec Ideal S8x1024 .f32) (x4 : Vec Ideal S1x1024 .f32) (xo : Vec Ideal S2048x1024 .f32) :
    (kernelRunLast (F := Ideal) c i arg3 harg3 arg4 harg4 arg5 harg5 arg6 harg6 arg7 harg7 arg8 harg8 arg9 harg9 hc1 hc2 x0 x1 x2 x3 x4 xo).1
      = [(⟨Rect.unit (s := S2048x1024) ![0, 0] S2048x1024.size inb_S2048x1024_S2048x1024_0_0, k0_pay2 (k0_pay1 (k0_pay20 x0) (tileFn x1 x2 x3) xo) x4⟩ : View.Piece (Elt Ideal) S2048x1024 .f32),
         ⟨Rect.unit (s := S2048x1024) ![0, 0] S2048x1024.size inb_S2048x1024_S2048x1024_0_0, k0_pay1 (k0_pay20 x0) (tileFn x1 x2 x3) xo⟩] := by
  unfold kernelRunLast
  dsimp only
  sl_unfold_words
  simp only [View.readAt_eq_ld, harg3.read_unread, harg4.read_unread, harg5.read_unread, harg6.read_unread,
    harg7.read_unread, harg8.read_unread, View.ld_unit_zero (S := S2048x1024) hz2, View.ld_unit_zero (S := S8x1024) hz2,
    View.ld_unit_zero (S := S1x1024) hz2, scratch_read, View.readCov_unit_zero (S := S2048x1024) _ hz2]
  rw [scratch_read arg9.view]
  show [(⟨Rect.unit (s := S2048x1024) ![0, 0] S2048x1024.size inb_S2048x1024_S2048x1024_0_0, k0_pay2 (k0_pay1 (k0_pay20 x0) (View.canon (slabs x1 x2 x3)) xo) x4⟩ : View.Piece (Elt Ideal) S2048x1024 .f32),
      ⟨Rect.unit (s := S2048x1024) ![0, 0] S2048x1024.size inb_S2048x1024_S2048x1024_0_0, k0_pay1 (k0_pay20 x0) (View.canon (slabs x1 x2 x3)) xo⟩] = _
  rw [canon_slabs]

/-! ## The output block after the body, at an index -/

/-- Neither branch taken: the running contents plus the product of the activation block with the dequantised tile. -/
theorem out_mid (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S1024x1024 .bf16) (harg9 : arg9.IsWhole) (hc1 : ¬condFirst i) (hc2 : ¬condLast i)
    (x0 : Vec Ideal S2048x1024 .bf16) (x1 : Vec Ideal S128x1024 .i32) (x2 : Vec Ideal S8x1024 .f32)
    (x3 : Vec Ideal S8x1024 .f32) (x4 : Vec Ideal S1x1024 .f32) (xo : Vec Ideal S2048x1024 .f32)
    (f : arg8.view.ty.Contents (Elt Ideal)) (r : Fin 2048) (n : Fin 1024) :
    arg8.view.read (Elt Ideal) (arg8.view.writes (Elt Ideal) f
        (kernelRunMid (F := Ideal) c i arg3 harg3 arg4 harg4 arg5 harg5 arg6 harg6 arg7 harg7 arg8 harg8 arg9 harg9 hc1 hc2 x0 x1 x2 x3 x4 xo).1) (ix2 r n)
      = xo (ix2 r n) + ∑ j : Fin 1024, x0 (ix2 r j) * wTile x1 x2 x3 j n := by
  rw [pieces_mid, View.read_writes_eq_canon _ _ _ (fun y => ⟨_, List.mem_singleton_self _, View.mem_set_unit_zero hz2 inb_S2048x1024_S2048x1024_0_0 y⟩),
    View.canon_unit_zero hz2, acc_apply]
  rfl

/-- First branch taken: zero plus the product. -/
theorem out_first (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S1024x1024 .bf16) (harg9 : arg9.IsWhole) (hc1 : condFirst i) (hc2 : ¬condLast i)
    (x0 : Vec Ideal S2048x1024 .bf16) (x1 : Vec Ideal S128x1024 .i32) (x2 : Vec Ideal S8x1024 .f32)
    (x3 : Vec Ideal S8x1024 .f32) (x4 : Vec Ideal S1x1024 .f32)
    (f : arg8.view.ty.Contents (Elt Ideal)) (r : Fin 2048) (n : Fin 1024) :
    arg8.view.read (Elt Ideal) (arg8.view.writes (Elt Ideal) f
        (kernelRunFirst (F := Ideal) c i arg3 harg3 arg4 harg4 arg5 harg5 arg6 harg6 arg7 harg7 arg8 harg8 arg9 harg9 hc1 hc2 x0 x1 x2 x3 x4).1) (ix2 r n)
      = 0 + ∑ j : Fin 1024, x0 (ix2 r j) * wTile x1 x2 x3 j n := by
  rw [pieces_first, View.read_writes_eq_canon _ _ _ (fun y => ⟨_, List.mem_cons_self, View.mem_set_unit_zero hz2 inb_S2048x1024_S2048x1024_0_0 y⟩),
    View.canon_cons_unit_zero hz2, acc_apply, zero_apply]
  rfl

/-- Second branch taken: the running contents plus the product, plus the bias row. -/
theorem out_last (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S1024x1024 .bf16) (harg9 : arg9.IsWhole) (hc1 : ¬condFirst i) (hc2 : condLast i)
    (x0 : Vec Ideal S2048x1024 .bf16) (x1 : Vec Ideal S128x1024 .i32) (x2 : Vec Ideal S8x1024 .f32)
    (x3 : Vec Ideal S8x1024 .f32) (x4 : Vec Ideal S1x1024 .f32) (xo : Vec Ideal S2048x1024 .f32)
    (f : arg8.view.ty.Contents (Elt Ideal)) (r : Fin 2048) (n : Fin 1024) :
    arg8.view.read (Elt Ideal) (arg8.view.writes (Elt Ideal) f
        (kernelRunLast (F := Ideal) c i arg3 harg3 arg4 harg4 arg5 harg5 arg6 harg6 arg7 harg7 arg8 harg8 arg9 harg9 hc1 hc2 x0 x1 x2 x3 x4 xo).1) (ix2 r n)
      = (xo (ix2 r n) + ∑ j : Fin 1024, x0 (ix2 r j) * wTile x1 x2 x3 j n) + x4 (ix2 (0 : Fin 1) n) := by
  rw [pieces_last, View.read_writes_eq_canon _ _ _ (fun y => ⟨_, List.mem_cons_self, View.mem_set_unit_zero hz2 inb_S2048x1024_S2048x1024_0_0 y⟩),
    View.canon_cons_unit_zero hz2, bias_apply, acc_apply]
  rfl

end Cert.KernelIdeal.KOut

end
-- ==== Proof.KValObl.lean ====
/-
  The body obligation at the ideal instance with the output block NAMED: after the body at point `t` the output
  window's buffer holds, on the columns inside the array, the accumulated block `accFull t`.

  What the buffer held before the body is anything at a first reduction step (the body stores zeros first) and, at a
  later step, what the step before left on the columns inside the array and anything past them. The body's run leaves
  the buffer at a function of the staged blocks and of what it held (the run's piece list read back: at `(r, n)` what
  it held plus the product of row `r` of the `x` block with column `n` of the dequantised tile, plus the bias at the
  last step). Column `n` of that depends on column `n` of every cut block only, and on a column inside the array a cut
  block's buffer holds the array's block whatever fills the rest — so on those columns the buffer ends at `accFull t`,
  which is all the loose obligation states of a cut window.
-/
import proofs.«416578_j10419590660824_3_alg».proof.Proof.KFrame
import proofs.«416578_j10419590660824_3_alg».proof.Proof.KAcc
import proofs.«416578_j10419590660824_3_alg».proof.Proof.KGrid
import proofs.«416578_j10419590660824_3_alg».proof.Proof.KInside
import proofs.«416578_j10419590660824_3_alg».proof.Proof.KOut

set_option maxRecDepth 16384

noncomputable section

open scoped BigOperators

namespace Cert.KernelIdeal.Hand

open Cert.KernelIdeal Cert.KernelIdeal.Gen Cert.KernelIdeal.KOut
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (c : Dev nD)

/-! ## What the output window's buffer holds when the body runs -/

/-- At a first reduction step: anything (the first point, or the point after a write-back). -/
theorem before_5_first (t : Fin cfg0.N) (h0 : t.val % 4 = 0) (d) : (datV m c).before 5 t d = d := by
  refine (datV m c).before_out_reset 5 rfl t ?_ d
  by_cases ht : t.val = 0
  · exact .inl ht
  · exact .inr ⟨ht, (flush0_5 _).mpr (by dsimp only; omega)⟩

/-- At a later step: what the step before left on the columns its write-back would move, anything elsewhere. -/
theorem before_5_later (t : Fin cfg0.N) (h0 : t.val % 4 ≠ 0) (d) :
    (datV m c).before 5 t d
      = win0_5.fill (grid0.coords (prevPt t)) d (win0_5.cut (grid0.coords (prevPt t)) (accFull m c (prevPt t))) := by
  have ht : t.val ≠ 0 := fun h => h0 (by rw [h])
  have hfl : (cfg0.win 5).flush (prevPt t) = false := by
    rw [Bool.eq_false_iff]; intro h; have := (flush0_5 _).mp h; dsimp only at this; omega
  rw [(datV m c).before_out_acc 5 rfl t ht hfl (fun _ => rfl) d]
  rfl

/-! ## On the columns inside the array the buffer ends at the accumulated block -/

theorem val_first (t : Fin cfg0.N) (h0 : t.val % 4 = 0) (d1 : S128x1024.Idx → BitVec 32) (d2 d3 : S8x1024.Idx → EReal)
    (R : S2048x1024.Idx → EReal)
    (hR : ∀ (r : Fin 2048) (n : Fin 1024), R (ix2 r n) = 0 + ∑ j : Fin 1024, xB m c t (ix2 r j) * wTile (win0_1.fill (grid0.coords t) d1 (iblk m c 1 t)) (win0_2.fill (grid0.coords t) d2 (iblk m c 2 t)) (win0_3.fill (grid0.coords t) d3 (iblk m c 3 t)) j n) :
    win0_5.fill (grid0.coords t) R (win0_5.cut (grid0.coords t) (accFull m c t)) = R := by
  refine win0_5.fill_congr_cut (grid0.coords t) (cut_ext_5 t R _ fun r n hn => ?_)
  rw [hR r n, accFull_first m c t h0 (ix2 r n)]
  unfold tileProd
  exact congrArg (fun s => (0 : EReal) + s) (Finset.sum_congr rfl fun j _ => congrArg (fun w => xB m c t (ix2 r j) * w)
      (wTile_congr n (fun a => fill_inside_1 t d1 _ _ a n hn) (fun a => fill_inside_2 t d2 _ _ a n hn) (fun a => fill_inside_3 t d3 _ _ a n hn) j))

theorem val_mid (t : Fin cfg0.N) (h0 : t.val % 4 ≠ 0) (h3 : t.val % 4 ≠ 3) (d1 : S128x1024.Idx → BitVec 32) (d2 d3 : S8x1024.Idx → EReal)
    (d5 R xo : S2048x1024.Idx → EReal) (hxo : xo = (datV m c).before 5 t d5)
    (hR : ∀ (r : Fin 2048) (n : Fin 1024), R (ix2 r n) = xo (ix2 r n) + ∑ j : Fin 1024, xB m c t (ix2 r j) * wTile (win0_1.fill (grid0.coords t) d1 (iblk m c 1 t)) (win0_2.fill (grid0.coords t) d2 (iblk m c 2 t)) (win0_3.fill (grid0.coords t) d3 (iblk m c 3 t)) j n) :
    win0_5.fill (grid0.coords t) R (win0_5.cut (grid0.coords t) (accFull m c t)) = R := by
  refine win0_5.fill_congr_cut (grid0.coords t) (cut_ext_5 t R _ fun r n hn => ?_)
  rw [hR r n, accFull_mid m c t h0 h3 (ix2 r n), hxo, before_5_later m c t h0 d5]
  unfold tileProd
  exact congrArg₂ (fun a s => (a : EReal) + s) (fill_cut_prev_5 t h0 d5 (accFull m c (prevPt t)) r n hn) (Finset.sum_congr rfl fun j _ => congrArg (fun w => xB m c t (ix2 r j) * w)
      (wTile_congr n (fun a => fill_inside_1 t d1 _ _ a n hn) (fun a => fill_inside_2 t d2 _ _ a n hn) (fun a => fill_inside_3 t d3 _ _ a n hn) j))

theorem val_last (t : Fin cfg0.N) (h3 : t.val % 4 = 3) (d1 : S128x1024.Idx → BitVec 32) (d2 d3 : S8x1024.Idx → EReal) (d4 : S1x1024.Idx → EReal)
    (d5 R xo : S2048x1024.Idx → EReal) (hxo : xo = (datV m c).before 5 t d5) (bv : S1x1024.Idx → EReal)
    (hbv : bv = win0_4.fill (grid0.coords t) d4 (iblk m c 4 t))
    (hR : ∀ (r : Fin 2048) (n : Fin 1024), R (ix2 r n) = (xo (ix2 r n) + ∑ j : Fin 1024, xB m c t (ix2 r j) * wTile (win0_1.fill (grid0.coords t) d1 (iblk m c 1 t)) (win0_2.fill (grid0.coords t) d2 (iblk m c 2 t)) (win0_3.fill (grid0.coords t) d3 (iblk m c 3 t)) j n)
      + bv (ix2 (0 : Fin 1) n)) :
    win0_5.fill (grid0.coords t) R (win0_5.cut (grid0.coords t) (accFull m c t)) = R := by
  have h0 : t.val % 4 ≠ 0 := by omega
  refine win0_5.fill_congr_cut (grid0.coords t) (cut_ext_5 t R _ fun r n hn => ?_)
  rw [hR r n, accFull_last m c t h3 (ix2 r n), hxo, hbv, before_5_later m c t h0 d5]
  unfold tileProd
  exact congrArg₂ (fun a s => (a : EReal) + s)
    (congrArg₂ (fun a s => (a : EReal) + s) (fill_cut_prev_5 t h0 d5 (accFull m c (prevPt t)) r n hn) (Finset.sum_congr rfl fun j _ => congrArg (fun w => xB m c t (ix2 r j) * w)
      (wTile_congr n (fun a => fill_inside_1 t d1 _ _ a n hn) (fun a => fill_inside_2 t d2 _ _ a n hn) (fun a => fill_inside_3 t d3 _ _ a n hn) j)))
    (fill_inside_4 t d4 _ _ (0 : Fin 1) n hn)

/-! ## The obligation -/

set_option maxHeartbeats 2000000 in
theorem sound_body_val (t : Fin cfg0.N) :
    iprop(Pipeline.ΦA spec0 c ∗ (datV m c).owesAt () t.castSucc
        ∗ (∃ d, owns (c : Thread nD τ) (st0_0 t) fullShare ((datV m c).before 0 t d))
        ∗ (∃ d, owns (c : Thread nD τ) (st0_1 t) fullShare ((datV m c).before 1 t d))
        ∗ (∃ d, owns (c : Thread nD τ) (st0_2 t) fullShare ((datV m c).before 2 t d))
        ∗ (∃ d, owns (c : Thread nD τ) (st0_3 t) fullShare ((datV m c).before 3 t d))
        ∗ (∃ d, owns (c : Thread nD τ) (st0_4 t) fullShare ((datV m c).before 4 t d))
        ∗ (∃ d, owns (c : Thread nD τ) (st0_5 t) fullShare ((datV m c).before 5 t d)))
      ⊢ wp frame (wpE (defs₀ (F := Ideal)) Variants.none c none) Set.univ (bodyAt0 (F := Ideal) t) (fun _ =>
          iprop(Pipeline.ΦA spec0 c ∗ (datV m c).owesAt () t.castSucc
            ∗ owns (c : Thread nD τ) (st0_0 t) fullShare ((datV m c).after 0 t)
            ∗ (∃ d, owns (c : Thread nD τ) (st0_1 t) fullShare ((win0 1).fill (grid0.coords t) d ((win0 1).cut (grid0.coords t) ((datV m c).after 1 t))))
            ∗ (∃ d, owns (c : Thread nD τ) (st0_2 t) fullShare ((win0 2).fill (grid0.coords t) d ((win0 2).cut (grid0.coords t) ((datV m c).after 2 t))))
            ∗ (∃ d, owns (c : Thread nD τ) (st0_3 t) fullShare ((win0 3).fill (grid0.coords t) d ((win0 3).cut (grid0.coords t) ((datV m c).after 3 t))))
            ∗ (∃ d, owns (c : Thread nD τ) (st0_4 t) fullShare ((win0 4).fill (grid0.coords t) d ((win0 4).cut (grid0.coords t) ((datV m c).after 4 t))))
            ∗ (∃ d, owns (c : Thread nD τ) (st0_5 t) fullShare ((win0 5).fill (grid0.coords t) d ((win0 5).cut (grid0.coords t) ((datV m c).after 5 t)))))) := by
  unfold Pipeline.ΦA
  rw [scopedRest0_eq c]
  iintro ⟨⟨⟨%fs, HS⟩, Hg⟩, Ho, ⟨%d0, H0⟩, ⟨%d1, H1⟩, ⟨%d2, H2⟩, ⟨%d3, H3⟩, ⟨%d4, H4⟩, ⟨%d5, H5⟩⟩
  rw [before_0 m (accFull m c) c t d0, before_1 m (accFull m c) c t d1, before_2 m (accFull m c) c t d2,
    before_3 m (accFull m c) c t d3, before_4 m (accFull m c) c t d4]
  by_cases h0 : t.val % 4 = 0
  · have hc1 : condFirst (grid0.coords t) := (hcondFirst t).mpr h0
    have hc2 : ¬condLast (grid0.coords t) := fun h => by have := (hcondLast t).mp h; omega
    iapply ((kernelRunFirst (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) hc1 hc2 (iblk m c 0 t) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t))).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]
    · iapply (scr_in (F := Ideal) c); iexists fs; iexact HS
    iintro ⟨H0, H1, H2, H3, H4, ⟨%f8, H8⟩, H9⟩
    isplitl [H9 Hg]
    · isplitl [H9]
      · iapply (scr_out (F := Ideal) c); iexact H9
      · iexact Hg
    isplitl [Ho]; · iexact Ho
    isplitl [H0]; · rw [after_0]; iexact H0
    isplitl [H1]; · iexists d1; rw [leaves_1 m (accFull m c) c t d1, before_1]; iexact H1
    isplitl [H2]; · iexists d2; rw [leaves_2 m (accFull m c) c t d2, before_2]; iexact H2
    isplitl [H3]; · iexists d3; rw [leaves_3 m (accFull m c) c t d3, before_3]; iexact H3
    isplitl [H4]; · iexists d4; rw [leaves_4 m (accFull m c) c t d4, before_4]; iexact H4
    rw [after_5 m (accFull m c) c t]
    iexists ((st0_5 t).view.read (Elt Ideal) ((st0_5 t).view.writes (Elt Ideal) f8 _))
    unfold owns; iexists _; isplitr; swap; · iexact H8
    ipureintro
    exact (val_first m c t h0 d1 d2 d3 _ (fun r n => out_first _ _ _ _ _ _ _ _ _ _ _ _ _ _ _ _ hc1 hc2 _ _ _ _ _ f8 r n)).symm
  by_cases h3 : t.val % 4 = 3
  · have hc1 : ¬condFirst (grid0.coords t) := fun h => h0 ((hcondFirst t).mp h)
    have hc2 : condLast (grid0.coords t) := (hcondLast t).mpr h3
    iapply ((kernelRunLast (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) hc1 hc2 (iblk m c 0 t) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) ((datV m c).before 5 t d5)).2 Set.univ _)
    isplitl [H0]; · iexact H0
    isplitl [H1]; · iexact H1
    isplitl [H2]; · iexact H2
    isplitl [H3]; · iexact H3
    isplitl [H4]; · iexact H4
    isplitl [H5]; · iexact H5
    isplitl [HS]
    · iapply (scr_in (F := Ideal) c); iexists fs; iexact HS
    iintro ⟨H0, H1, H2, H3, H4, ⟨%f8, H8⟩, H9⟩
    isplitl [H9 Hg]
    · isplitl [H9]
      · iapply (scr_out (F := Ideal) c); iexact H9
      · iexact Hg
    isplitl [Ho]; · iexact Ho
    isplitl [H0]; · rw [after_0]; iexact H0
    isplitl [H1]; · iexists d1; rw [leaves_1 m (accFull m c) c t d1, before_1]; iexact H1
    isplitl [H2]; · iexists d2; rw [leaves_2 m (accFull m c) c t d2, before_2]; iexact H2
    isplitl [H3]; · iexists d3; rw [leaves_3 m (accFull m c) c t d3, before_3]; iexact H3
    isplitl [H4]; · iexists d4; rw [leaves_4 m (accFull m c) c t d4, before_4]; iexact H4
    rw [after_5 m (accFull m c) c t]
    iexists ((st0_5 t).view.read (Elt Ideal) ((st0_5 t).view.writes (Elt Ideal) f8 _))
    unfold owns; iexists _; isplitr; swap; · iexact H8
    ipureintro
    exact (val_last m c t h3 d1 d2 d3 d4 d5 _ _ rfl _ rfl (fun r n => out_last _ _ _ _ _ _ _ _ _ _ _ _ _ _ _ _ hc1 hc2 _ _ _ _ _ _ f8 r n)).symm
  · have hc1 : ¬condFirst (grid0.coords t) := fun h => h0 ((hcondFirst t).mp h)
    have hc2 : ¬condLast (grid0.coords t) := fun h => h3 ((hcondLast t).mp h)
    iapply ((kernelRunMid (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) hc1 hc2 (iblk m c 0 t) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) ((datV m c).before 5 t d5)).2 Set.univ _)
    isplitl [H0]; · iexact H0
    isplitl [H1]; · iexact H1
    isplitl [H2]; · iexact H2
    isplitl [H3]; · iexact H3
    isplitl [H4]; · iexact H4
    isplitl [H5]; · iexact H5
    isplitl [HS]
    · iapply (scr_in (F := Ideal) c); iexists fs; iexact HS
    iintro ⟨H0, H1, H2, H3, H4, ⟨%f8, H8⟩, H9⟩
    isplitl [H9 Hg]
    · isplitl [H9]
      · iapply (scr_out (F := Ideal) c); iexact H9
      · iexact Hg
    isplitl [Ho]; · iexact Ho
    isplitl [H0]; · rw [after_0]; iexact H0
    isplitl [H1]; · iexists d1; rw [leaves_1 m (accFull m c) c t d1, before_1]; iexact H1
    isplitl [H2]; · iexists d2; rw [leaves_2 m (accFull m c) c t d2, before_2]; iexact H2
    isplitl [H3]; · iexists d3; rw [leaves_3 m (accFull m c) c t d3, before_3]; iexact H3
    isplitl [H4]; · iexists d4; rw [leaves_4 m (accFull m c) c t d4, before_4]; iexact H4
    rw [after_5 m (accFull m c) c t]
    iexists ((st0_5 t).view.read (Elt Ideal) ((st0_5 t).view.writes (Elt Ideal) f8 _))
    unfold owns; iexists _; isplitr; swap; · iexact H8
    ipureintro
    exact (val_mid m c t h0 h3 d1 d2 d3 d5 _ _ rfl (fun r n => out_mid _ _ _ _ _ _ _ _ _ _ _ _ _ _ _ _ hc1 hc2 _ _ _ _ _ _ f8 r n)).symm

/-- The loose body obligation with the output block named. -/
theorem obl_val : BodyObligationLoose (datV m c) (defs₀ (F := Ideal)) Variants.none () Set.univ := fun t => by
  rw [bigSep_W0, bigSep_W0]
  exact sound_body_val m c t

end Cert.KernelIdeal.Hand

end
-- ==== Proof.KHost.lean ====
/-
  The host operations around the kernel's one launch, read at an index over the extended reals.

  Before the launch: the activations `x` [4, 2048, 4096] are reshaped to [8192, 4096] (row `b * 2048 + s`), the change of
  format being the identity; the packed zero points [32, 1376] are unpacked to [32, 1376, 8] (field `s` of word `(g, p)` is
  the word shifted right arithmetically by `0 + 4 s` and masked to four bits; the zero point is the field plus one, masked
  again), reshaped to [32, 11008] (column `n` is field `n % 8` of packed column `n / 8`) and converted exactly; the bias
  [11008] is reshaped to one row [1, 11008]. After the launch: the output [8192, 11008] is reshaped to [4, 2048, 11008].
-/
import proofs.«416578_j10419590660824_3_alg».proof.Proof.Gen.KernelIdeal.Frame
import proofs.«416578_j10419590660824_3_alg».proof.Proof.Spec
import Idealize.ShloMosaic.Lib.ValueIdx
import Idealize.ShloMosaic.Lib.Pipeline.Value

set_option maxRecDepth 16384

noncomputable section

namespace Cert.KernelIdeal.KHost

open Cert.KernelIdeal Cert.KernelIdeal.Gen Idealize.ShloMosaic Idealize.ShloMosaic.ValueIdx Idealize.ShloMosaic.TcCoe

variable (m : (ℓ : Loc nD τ sig) → Buf (Elt Ideal) ℓ)

/-- The activation array the region finds: the reshape of `x` to rows `b * 2048 + s`, its format change the identity. -/
theorem V_v1_fun (c : Dev nD) :
    (V (F := Ideal) m c main_v1 : S8192x4096.Idx → EReal)
      = truncf (F := Ideal) .bf16 (shapeCast S8192x4096 (m ((c : Thread nD τ).loc main_arg0) : S4x2048x4096.Idx → EReal) shapeCasts_S4x2048x4096_S8192x4096) bitsLt_bf16_f32 := by
  show StableHlo.after hostOps0 (fun b => m (c, b)) (Proc.devRef .tc main_v1) = _
  after_results
  rfl

/-- A reshape [4,2048,4096] → [8192,4096] read at row `r`, column `k`: the element at `(r / 2048, r % 2048, k)`. -/
theorem reshape_x_apply {α : Type} (x : S4x2048x4096.Idx → α) (r : Fin 8192) (k : Fin 4096) :
    shapeCast S8192x4096 x shapeCasts_S4x2048x4096_S8192x4096 (ix2 r k)
      = x (ix3 (⟨r.val / 2048, by have := r.isLt; omega⟩ : Fin 4) (⟨r.val % 2048, Nat.mod_lt _ (by decide)⟩ : Fin 2048) k) := by
  refine shapeCast_apply x _ (ix2 r k) _ ?_
  rw [Shape.rowMajor_val_three, Shape.rowMajor_val_two]
  show (r.val / 2048 * 2048 + r.val % 2048) * 4096 + k.val = r.val * 4096 + k.val
  have := Nat.div_add_mod r.val 2048
  omega

theorem V_v1_apply (c : Dev nD) (r : Fin 8192) (k : Fin 4096) :
    V (F := Ideal) m c main_v1 (ix2 r k)
      = m ((c : Thread nD τ).loc main_arg0) (ix3 (⟨r.val / 2048, by have := r.isLt; omega⟩ : Fin 4) (⟨r.val % 2048, Nat.mod_lt _ (by decide)⟩ : Fin 2048) k) := by
  refine (congrFun (V_v1_fun m c) (ix2 r k)).trans ?_
  exact reshape_x_apply (m ((c : Thread nD τ).loc main_arg0) : S4x2048x4096.Idx → EReal) r k

/-- The bias row the region finds: the reshape of `bias` to one row. -/
theorem V_v20_fun (c : Dev nD) :
    (V (F := Ideal) m c main_v20 : S1x11008.Idx → EReal)
      = shapeCast S1x11008 (m ((c : Thread nD τ).loc main_arg4) : S11008.Idx → EReal) shapeCasts_S11008_S1x11008 := by
  show StableHlo.after hostOps0 (fun b => m (c, b)) (Proc.devRef .tc main_v20) = _
  after_results
  rfl

theorem reshape_bias_apply {α : Type} (x : S11008.Idx → α) (n : Fin 11008) :
    shapeCast S1x11008 x shapeCasts_S11008_S1x11008 (ix2 (0 : Fin 1) n) = x (ix1 n) := by
  refine shapeCast_apply x _ (ix2 (0 : Fin 1) n) _ ?_
  rw [Shape.rowMajor_val_one, Shape.rowMajor_val_two]
  show n.val = 0 * 11008 + n.val
  omega

theorem V_v20_apply (c : Dev nD) (n : Fin 11008) :
    V (F := Ideal) m c main_v20 (ix2 (0 : Fin 1) n) = m ((c : Thread nD τ).loc main_arg4) (ix1 n) := by
  refine (congrFun (V_v20_fun m c) (ix2 (0 : Fin 1) n)).trans ?_
  exact reshape_bias_apply (m ((c : Thread nD τ).loc main_arg4) : S11008.Idx → EReal) n

/-- The result array after the lines that follow the region: the reshape of the region's output array. -/
theorem tail_v22_fun (dats : (p : Fin 1) → (c : Dev nD) → Pipeline.Dat τ (Elt Ideal) Unit ℕ (UR sig nD τ) ℕ (cfgs p) c) (c : Dev nD) :
    (Pipeline.afterTail₀ cfgs dats 0 (V0 m) [hostOps1] c main_v22 : S4x2048x11008.Idx → EReal)
      = shapeCast S4x2048x11008 ((dats 0 c).arrAt 5 cfg0.N : S8192x11008.Idx → EReal) shapeCasts_S8192x11008_S4x2048x11008 := by
  unfold Pipeline.afterTail₀
  show StableHlo.after hostOps1 _ (Proc.devRef .tc main_v22) = _
  after_results
  have e : Pipeline.withArrays (cfgs 0).spec c (V0 m c) (fun w => (dats 0 c).arrAt w (cfgs 0).N) (Proc.devRef .tc main_v21)
      = (dats 0 c).arrAt 5 cfg0.N :=
    Pipeline.withArrays_arr spec0 launch0.win.arr_inj c (V0 m c) (fun w => (dats 0 c).arrAt w cfg0.N) 5
  rw [e]
  rfl

/-- A reshape [8192,11008] → [4,2048,11008] read at `(b, s, n)`: the element at row `b * 2048 + s`, column `n`. -/
theorem reshape_out_apply {α : Type} (y : S8192x11008.Idx → α) (b : Fin 4) (s : Fin 2048) (n : Fin 11008) :
    shapeCast S4x2048x11008 y shapeCasts_S8192x11008_S4x2048x11008 (ix3 b s n)
      = y (ix2 (⟨b.val * 2048 + s.val, by have := b.isLt; have := s.isLt; omega⟩ : Fin 8192) n) := by
  refine shapeCast_apply y _ (ix3 b s n) _ ?_
  rw [Shape.rowMajor_val_three, Shape.rowMajor_val_two]
  show (b.val * 2048 + s.val) * 11008 + n.val = (b.val * 2048 + s.val) * 11008 + n.val
  rfl

theorem tail_v22_apply (dats : (p : Fin 1) → (c : Dev nD) → Pipeline.Dat τ (Elt Ideal) Unit ℕ (UR sig nD τ) ℕ (cfgs p) c) (c : Dev nD)
    (b : Fin 4) (s : Fin 2048) (n : Fin 11008) :
    Pipeline.afterTail₀ cfgs dats 0 (V0 m) [hostOps1] c main_v22 (ix3 b s n)
      = (dats 0 c).arrAt 5 cfg0.N (ix2 (⟨b.val * 2048 + s.val, by have := b.isLt; have := s.isLt; omega⟩ : Fin 8192) n) := by
  refine (congrFun (tail_v22_fun m dats c) (ix3 b s n)).trans ?_
  exact reshape_out_apply ((dats 0 c).arrAt 5 cfg0.N : S8192x11008.Idx → EReal) b s n

/-- The zero points unpacked on the host, before the final reshape: word `(g, p)` of the packed table shifted right
    by `0 + 4 s`, masked to four bits, plus one, masked again, at `(g, p, s)`. -/
def zHost (qz : IVec S32x1376 32) : IVec S32x1376x8 32 :=
  andi
    (addi
      (andi
        (Host.shrsi
          (broadcastInDim S32x1376x8 ![0, 1, 2] bcast_S32x1376x1_S32x1376x8_0_1_2
            (broadcastInDim S32x1376x1 ![0, 1] bcast_S32x1376_S32x1376x1_0_1 qz))
          (broadcastInDim S32x1376x8 ![0, 1, 2] bcast_S1x1x8_S32x1376x8_0_1_2
            (broadcastInDim S1x1x8 ![2] bcast_S8_S1x1x8_2
              (addi (broadcastInDim S8 ![] bcast_S_S8 (constantI S_ 32 0#32))
                (muli (broadcastInDim S8 ![] bcast_S_S8 (constantI S_ 32 4#32)) (iotaInDim S8 32 0))))))
        (broadcastInDim S32x1376x8 ![] bcast_S_S32x1376x8 (constantI S_ 32 15#32)))
      (broadcastInDim S32x1376x8 ![] bcast_S_S32x1376x8 (constantI S_ 32 1#32)))
    (broadcastInDim S32x1376x8 ![] bcast_S_S32x1376x8 (constantI S_ 32 15#32))

/-- The zero-point array the region finds: the unpacked integers reshaped to [32, 11008] and converted. -/
theorem V_v19_fun (c : Dev nD) :
    (V (F := Ideal) m c main_v19 : S32x11008.Idx → EReal)
      = sitofp (F := Ideal) .f32 (shapeCast S32x11008 (zHost (m ((c : Thread nD τ).loc main_arg2) : IVec S32x1376 32)) shapeCasts_S32x1376x8_S32x11008) := by
  show StableHlo.after hostOps0 (fun b => m (c, b)) (Proc.devRef .tc main_v19) = _
  after_results
  rfl

/-! ## The unpacked zero points at an index -/

/-- The shift amount of field `s`: the word `0 + 4 * s`. -/
def shamt (s : Fin 8) : BitVec 32 := IntOp.addi 0#32 (IntOp.muli 4#32 (BitVec.ofNat 32 s.val))

/-- Its value is `4 s`, below the word width. -/
theorem shamt_toNat (s : Fin 8) : (shamt s).toNat = 4 * s.val := by
  revert s; decide

/-- The host's arithmetic shift right by `0 + 4 s`, masked to four bits, is field `s` of the word: the amount is below 32,
    so the shift is the word's own. -/
theorem nib_host (x : BitVec 32) (s : Fin 8) :
    IntOp.andi (IntOp.shrsi .host x (shamt s)) 15#32 = Cert.Spec.nib x s.val := by
  have hlt : (shamt s).toNat < 32 := by rw [shamt_toNat]; have := s.isLt; omega
  unfold IntOp.shrsi IntOp.andi Cert.Spec.nib
  rw [if_pos hlt, BitVec.sshiftRight_eq', shamt_toNat]

/-- The shift amounts laid along the last axis of [32, 1376, 8]: at `(g, p, s)` the amount of field `s`. -/
theorem shamt_bcast_apply (g : Fin 32) (p : Fin 1376) (s : Fin 8) :
    (broadcastInDim S32x1376x8 ![0, 1, 2] bcast_S1x1x8_S32x1376x8_0_1_2
      (broadcastInDim S1x1x8 ![2] bcast_S8_S1x1x8_2
        (addi (broadcastInDim S8 ![] bcast_S_S8 (constantI S_ 32 0#32))
          (muli (broadcastInDim S8 ![] bcast_S_S8 (constantI S_ 32 4#32)) (iotaInDim S8 32 0))))) (ix3 g p s)
      = shamt s := by
  refine (broadcastInDim_apply _ bcast_S1x1x8_S32x1376x8_0_1_2 _ (ix3 g p s) (ix3 (0 : Fin 1) (0 : Fin 1) s)
    (fun a => match a with | ⟨0, _⟩ => rfl | ⟨1, _⟩ => rfl | ⟨2, _⟩ => rfl)).trans ?_
  refine (broadcastInDim_apply _ bcast_S8_S1x1x8_2 _ (ix3 (0 : Fin 1) (0 : Fin 1) s) (ix1 s)
    (fun a => match a with | ⟨0, _⟩ => rfl)).trans ?_
  rfl

/-- The packed words laid along the first two axes of [32, 1376, 8]: at `(g, p, s)` word `(g, p)`. -/
theorem word_bcast_apply (qz : IVec S32x1376 32) (g : Fin 32) (p : Fin 1376) (s : Fin 8) :
    (broadcastInDim S32x1376x8 ![0, 1, 2] bcast_S32x1376x1_S32x1376x8_0_1_2
      (broadcastInDim S32x1376x1 ![0, 1] bcast_S32x1376_S32x1376x1_0_1 qz)) (ix3 g p s) = qz (ix2 g p) := by
  refine (broadcastInDim_apply _ bcast_S32x1376x1_S32x1376x8_0_1_2 _ (ix3 g p s) (ix3 g p (0 : Fin 1))
    (fun a => match a with | ⟨0, _⟩ => rfl | ⟨1, _⟩ => rfl | ⟨2, _⟩ => rfl)).trans ?_
  exact broadcastInDim_apply _ bcast_S32x1376_S32x1376x1_0_1 qz (ix3 g p (0 : Fin 1)) (ix2 g p)
    (fun a => match a with | ⟨0, _⟩ => rfl | ⟨1, _⟩ => rfl)

/-- The unpacked integers at `(g, p, s)`: field `s` of word `(g, p)`, plus one, wrapped to four bits. -/
theorem zHost_apply (qz : IVec S32x1376 32) (g : Fin 32) (p : Fin 1376) (s : Fin 8) :
    zHost qz (ix3 g p s) = (Cert.Spec.nib (qz (ix2 g p)) s.val + 1#32) &&& 15#32 := by
  show IntOp.andi (IntOp.addi (IntOp.andi (IntOp.shrsi .host
      ((broadcastInDim S32x1376x8 ![0, 1, 2] bcast_S32x1376x1_S32x1376x8_0_1_2
        (broadcastInDim S32x1376x1 ![0, 1] bcast_S32x1376_S32x1376x1_0_1 qz)) (ix3 g p s))
      ((broadcastInDim S32x1376x8 ![0, 1, 2] bcast_S1x1x8_S32x1376x8_0_1_2
        (broadcastInDim S1x1x8 ![2] bcast_S8_S1x1x8_2
          (addi (broadcastInDim S8 ![] bcast_S_S8 (constantI S_ 32 0#32))
            (muli (broadcastInDim S8 ![] bcast_S_S8 (constantI S_ 32 4#32)) (iotaInDim S8 32 0))))) (ix3 g p s)))
      15#32) 1#32) 15#32 = _
  rw [word_bcast_apply, shamt_bcast_apply, nib_host]
  rfl

/-- A reshape [32,1376,8] → [32,11008] read at `(g, n)`: the element at `(g, n / 8, n % 8)`. -/
theorem reshape_z_apply {α : Type} (z : S32x1376x8.Idx → α) (g : Fin 32) (n : Fin 11008) :
    shapeCast S32x11008 z shapeCasts_S32x1376x8_S32x11008 (ix2 g n)
      = z (ix3 g (Cert.Spec.pcol n) (⟨n.val % 8, Nat.mod_lt _ (by decide)⟩ : Fin 8)) := by
  refine shapeCast_apply z _ (ix2 g n) _ ?_
  rw [Shape.rowMajor_val_three, Shape.rowMajor_val_two]
  show (g.val * 1376 + n.val / 8) * 8 + n.val % 8 = g.val * 11008 + n.val
  have := Nat.div_add_mod n.val 8
  omega

theorem V_v19_apply (c : Dev nD) (g : Fin 32) (n : Fin 11008) :
    V (F := Ideal) m c main_v19 (ix2 g n)
      = (((Cert.Spec.zWord (m ((c : Thread nD τ).loc main_arg2)) g n).toInt : ℝ) : EReal) := by
  refine (congrFun (V_v19_fun m c) (ix2 g n)).trans ?_
  show (((shapeCast S32x11008 (zHost (m ((c : Thread nD τ).loc main_arg2) : IVec S32x1376 32)) shapeCasts_S32x1376x8_S32x11008 (ix2 g n)).toInt : ℝ) : EReal) = _
  rw [reshape_z_apply, zHost_apply]
  rfl

end Cert.KernelIdeal.KHost

end
-- ==== Proof.KBlocks.lean ====
/-
  The staged blocks of the call read at an index, by coordinates.

  At grid point `t` (row-block `gi t`, column-block `gj t`, reduction step `gk t`) a window's block sits in its array at
  block index × block size, so the element at coordinate `y` inside the block is the array's at index × size + `y` on each
  axis. The `x` block is rows `gi t · 2048 ..`, columns `gk t · 1024 ..` of the reshaped activations, which are batch
  `gi t` of `x`; the packed-weight block is packed rows `gk t · 128 ..`; the zero-point and scale blocks are groups
  `gk t · 8 ..`; the bias block is the one row; all four at columns `gj t · 1024 ..`, and each named on the whole block
  shape is the array's block on the columns inside the array (`n < ncols t`). The output block is rows `gi t · 2048 ..`,
  columns `gj t · 1024 ..`, and the blocks written back at the last reduction steps cover the output array.
-/
import proofs.«416578_j10419590660824_3_alg».proof.Proof.KHost
import proofs.«416578_j10419590660824_3_alg».proof.Proof.KGrid
import proofs.«416578_j10419590660824_3_alg».proof.Proof.KAcc

set_option maxRecDepth 16384

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

/-- A filled block at an index the transfer moves is the fetched part at that index. -/
theorem fill_apply_of_lt {G : Pipeline.Grid} (w : Pipeline.Window sig G) {α : Type} (i : G.Coords) (d : w.block.Idx → α)
    (g : (w.xblock i).Idx → α) (j : w.block.Idx) (h : ∀ a, (j a).val < w.xsize i a) :
    w.fill i d g j = g (fun a => ⟨(j a).val, h a⟩) := by
  unfold Pipeline.Window.fill
  rw [dif_pos ((w.moved_iff i j).mpr h)]

/-! ## The staged input blocks at an index inside the array -/

/-- The `x` block at `t`: rows `gi t * 2048 ..` of the reshaped activations are batch `gi t`; columns `gk t * 1024 ..`. -/
theorem xB_apply (t : Fin cfg0.N) (r : Fin 2048) (j : Fin 1024) :
    xB m c t (ix2 r j)
      = m ((c : Thread nD τ).loc main_arg0)
          (ix3 (⟨gi t, gi_lt t⟩ : Fin 4) r (⟨gk t * 1024 + j.val, by have := gk_lt t; have := j.isLt; omega⟩ : Fin 4096)) := by
  have hg := gi_lt t
  have hk := gk_lt t
  have hr := r.isLt
  have hj := j.isLt
  obtain ⟨e0, e1⟩ := index_0 t
  show V m c main_v1 (((cfg0.win 0).blk t).view.emb (ix2 r j)) = _
  have hemb : ((cfg0.win 0).blk t).view.emb (ix2 r j)
      = ix2 (⟨gi t * 2048 + r.val, by omega⟩ : Fin 8192) (⟨gk t * 1024 + j.val, by omega⟩ : Fin 4096) := by
    funext a; apply Fin.ext
    match a with
    | ⟨0, _⟩ => show win0_0.index t 0 * 2048 + 1 * r.val = gi t * 2048 + r.val; rw [e0]; omega
    | ⟨1, _⟩ => show win0_0.index t 1 * 1024 + 1 * j.val = gk t * 1024 + j.val; rw [e1]; omega
  rw [hemb]
  refine (KHost.V_v1_apply m c (⟨gi t * 2048 + r.val, by omega⟩ : Fin 8192) (⟨gk t * 1024 + j.val, by omega⟩ : Fin 4096)).trans ?_
  refine congrArg (m ((c : Thread nD τ).loc main_arg0)) ?_
  funext a; apply Fin.ext
  match a with
  | ⟨0, _⟩ => show (gi t * 2048 + r.val) / 2048 = gi t; omega
  | ⟨1, _⟩ => show (gi t * 2048 + r.val) % 2048 = r.val; omega
  | ⟨2, _⟩ => rfl

/-- The packed-weight block at `t`, on a column inside the array: packed rows `gk t * 128 ..`, columns `gj t * 1024 ..`. -/
theorem qB_apply (t : Fin cfg0.N) (a : Fin 128) (n : Fin 1024) (hn : n.val < ncols t) :
    qB m c t (ix2 a n)
      = m ((c : Thread nD τ).loc main_arg1)
          (ix2 (⟨gk t * 128 + a.val, by have := gk_lt t; have := a.isLt; omega⟩ : Fin 512)
            (⟨gj t * 1024 + n.val, col_lt t n.val hn⟩ : Fin 11008)) := by
  have hlt : ∀ a' : Fin 2, ((ix2 a n : S128x1024.Idx) a').val < win0_1.xsize (grid0.coords t) a' := fun a' =>
    match a' with
    | ⟨0, _⟩ => by show a.val < win0_1.xsize (grid0.coords t) 0; rw [(xsize_1 t).1]; exact a.isLt
    | ⟨1, _⟩ => by show n.val < win0_1.xsize (grid0.coords t) 1; rw [(xsize_1 t).2]; exact hn
  obtain ⟨e0, e1⟩ := index_1 t
  unfold qB
  refine (fill_apply_of_lt win0_1 (grid0.coords t) (fun _ => (0#32 : BitVec 32)) (iblk m c 1 t) (ix2 a n) hlt).trans ?_
  show V m c main_arg1 (((cfg0.win 1).blk t).view.emb (fun a' => ⟨((ix2 a n : S128x1024.Idx) a').val, hlt a'⟩)) = _
  refine (congrFun (V_main_arg1 m c) _).trans ?_
  refine congrArg (m ((c : Thread nD τ).loc main_arg1)) ?_
  funext a'; apply Fin.ext
  match a' with
  | ⟨0, _⟩ => show win0_1.index t 0 * 128 + 1 * a.val = gk t * 128 + a.val; rw [e0]; omega
  | ⟨1, _⟩ => show win0_1.index t 1 * 1024 + 1 * n.val = gj t * 1024 + n.val; rw [e1]; omega

/-- The zero-point block at `t`, on a column inside the array: groups `gk t * 8 ..`, columns `gj t * 1024 ..` of the
    unpacked zero points, as exact reals. -/
theorem zB_apply (t : Fin cfg0.N) (g : Fin 8) (n : Fin 1024) (hn : n.val < ncols t) :
    zB m c t (ix2 g n)
      = (((Cert.Spec.zWord (m ((c : Thread nD τ).loc main_arg2))
            (⟨gk t * 8 + g.val, by have := gk_lt t; have := g.isLt; omega⟩ : Fin 32)
            (⟨gj t * 1024 + n.val, col_lt t n.val hn⟩ : Fin 11008)).toInt : ℝ) : EReal) := by
  have hlt : ∀ a' : Fin 2, ((ix2 g n : S8x1024.Idx) a').val < win0_2.xsize (grid0.coords t) a' := fun a' =>
    match a' with
    | ⟨0, _⟩ => by show g.val < win0_2.xsize (grid0.coords t) 0; rw [(xsize_2 t).1]; exact g.isLt
    | ⟨1, _⟩ => by show n.val < win0_2.xsize (grid0.coords t) 1; rw [(xsize_2 t).2]; exact hn
  have hk := gk_lt t
  have hg := g.isLt
  obtain ⟨e0, e1⟩ := index_2 t
  unfold zB
  refine (fill_apply_of_lt win0_2 (grid0.coords t) (fun _ => (Scalar.ofBits .f32 0#32 : Ideal .f32)) (iblk m c 2 t) (ix2 g n) hlt).trans ?_
  show V m c main_v19 (((cfg0.win 2).blk t).view.emb (fun a' => ⟨((ix2 g n : S8x1024.Idx) a').val, hlt a'⟩)) = _
  have hemb : ((cfg0.win 2).blk t).view.emb (fun a' => ⟨((ix2 g n : S8x1024.Idx) a').val, hlt a'⟩)
      = ix2 (⟨gk t * 8 + g.val, by omega⟩ : Fin 32) (⟨gj t * 1024 + n.val, col_lt t n.val hn⟩ : Fin 11008) := by
    funext a'; apply Fin.ext
    match a' with
    | ⟨0, _⟩ => show win0_2.index t 0 * 8 + 1 * g.val = gk t * 8 + g.val; rw [e0]; omega
    | ⟨1, _⟩ => show win0_2.index t 1 * 1024 + 1 * n.val = gj t * 1024 + n.val; rw [e1]; omega
  rw [hemb]
  exact KHost.V_v19_apply m c (⟨gk t * 8 + g.val, by omega⟩ : Fin 32) (⟨gj t * 1024 + n.val, col_lt t n.val hn⟩ : Fin 11008)

/-- The scale block at `t`, on a column inside the array: groups `gk t * 8 ..`, columns `gj t * 1024 ..`. -/
theorem sB_apply (t : Fin cfg0.N) (g : Fin 8) (n : Fin 1024) (hn : n.val < ncols t) :
    sB m c t (ix2 g n)
      = m ((c : Thread nD τ).loc main_arg3)
          (ix2 (⟨gk t * 8 + g.val, by have := gk_lt t; have := g.isLt; omega⟩ : Fin 32)
            (⟨gj t * 1024 + n.val, col_lt t n.val hn⟩ : Fin 11008)) := by
  have hlt : ∀ a' : Fin 2, ((ix2 g n : S8x1024.Idx) a').val < win0_3.xsize (grid0.coords t) a' := fun a' =>
    match a' with
    | ⟨0, _⟩ => by show g.val < win0_3.xsize (grid0.coords t) 0; rw [(xsize_3 t).1]; exact g.isLt
    | ⟨1, _⟩ => by show n.val < win0_3.xsize (grid0.coords t) 1; rw [(xsize_3 t).2]; exact hn
  obtain ⟨e0, e1⟩ := index_3 t
  unfold sB
  refine (fill_apply_of_lt win0_3 (grid0.coords t) (fun _ => (Scalar.ofBits .f32 0#32 : Ideal .f32)) (iblk m c 3 t) (ix2 g n) hlt).trans ?_
  show V m c main_arg3 (((cfg0.win 3).blk t).view.emb (fun a' => ⟨((ix2 g n : S8x1024.Idx) a').val, hlt a'⟩)) = _
  refine (congrFun (V_main_arg3 m c) _).trans ?_
  refine congrArg (m ((c : Thread nD τ).loc main_arg3)) ?_
  funext a'; apply Fin.ext
  match a' with
  | ⟨0, _⟩ => show win0_3.index t 0 * 8 + 1 * g.val = gk t * 8 + g.val; rw [e0]; omega
  | ⟨1, _⟩ => show win0_3.index t 1 * 1024 + 1 * n.val = gj t * 1024 + n.val; rw [e1]; omega

/-- The bias block at `t`, on a column inside the array: columns `gj t * 1024 ..` of the bias. -/
theorem bB_apply (t : Fin cfg0.N) (n : Fin 1024) (hn : n.val < ncols t) :
    bB m c t (ix2 (0 : Fin 1) n)
      = m ((c : Thread nD τ).loc main_arg4) (ix1 (⟨gj t * 1024 + n.val, col_lt t n.val hn⟩ : Fin 11008)) := by
  have hlt : ∀ a' : Fin 2, ((ix2 (0 : Fin 1) n : S1x1024.Idx) a').val < win0_4.xsize (grid0.coords t) a' := fun a' =>
    match a' with
    | ⟨0, _⟩ => by show (0 : Nat) < win0_4.xsize (grid0.coords t) 0; rw [(xsize_4 t).1]; exact Nat.one_pos
    | ⟨1, _⟩ => by show n.val < win0_4.xsize (grid0.coords t) 1; rw [(xsize_4 t).2]; exact hn
  obtain ⟨e0, e1⟩ := index_4 t
  unfold bB
  refine (fill_apply_of_lt win0_4 (grid0.coords t) (fun _ => (Scalar.ofBits .f32 0#32 : Ideal .f32)) (iblk m c 4 t) (ix2 (0 : Fin 1) n) hlt).trans ?_
  show V m c main_v20 (((cfg0.win 4).blk t).view.emb (fun a' => ⟨((ix2 (0 : Fin 1) n : S1x1024.Idx) a').val, hlt a'⟩)) = _
  have hemb : ((cfg0.win 4).blk t).view.emb (fun a' => ⟨((ix2 (0 : Fin 1) n : S1x1024.Idx) a').val, hlt a'⟩)
      = ix2 (0 : Fin 1) (⟨gj t * 1024 + n.val, col_lt t n.val hn⟩ : Fin 11008) := by
    funext a'; apply Fin.ext
    match a' with
    | ⟨0, _⟩ => show win0_4.index t 0 * 1 + 1 * 0 = 0; rw [e0]
    | ⟨1, _⟩ => show win0_4.index t 1 * 1024 + 1 * n.val = gj t * 1024 + n.val; rw [e1]; omega
  rw [hemb]
  exact KHost.V_v20_apply m c (⟨gj t * 1024 + n.val, col_lt t n.val hn⟩ : Fin 11008)

/-! ## The output window: a block read, and the cover of the array by the blocks written back -/

/-- An array read through the output window's block at `t`: rows `gi t * 2048 ..`, columns `gj t * 1024 ..`. -/
theorem read_blk_5 (t : Fin cfg0.N) (G : S8192x11008.Idx → EReal) (y : (win0_5.xblock (grid0.coords t)).Idx) :
    ((cfg0.win 5).blk t).view.read (Elt Ideal) G y
      = G (ix2 (⟨gi t * 2048 + (y 0).val, by
                  have h : (y 0).val < win0_5.xsize (grid0.coords t) 0 := (y 0).isLt
                  rw [(xsize_5 t).1] at h; have := gi_lt t; omega⟩ : Fin 8192)
            (⟨gj t * 1024 + (y 1).val, col_lt t (y 1).val (by
                  have h : (y 1).val < win0_5.xsize (grid0.coords t) 1 := (y 1).isLt
                  rw [(xsize_5 t).2] at h; exact h)⟩ : Fin 11008)) := by
  obtain ⟨e0, e1⟩ := index_5 t
  show G (((cfg0.win 5).blk t).view.emb y) = _
  refine congrArg G ?_
  funext a; apply Fin.ext
  match a with
  | ⟨0, _⟩ => show win0_5.index t 0 * 2048 + 1 * (y 0).val = gi t * 2048 + (y 0).val; rw [e0]; omega
  | ⟨1, _⟩ => show win0_5.index t 1 * 1024 + 1 * (y 1).val = gj t * 1024 + (y 1).val; rw [e1]; omega

/-- Every index of the output array lies in the block of a point that writes back: the last reduction step of its
    row-block and column-block. -/
theorem cover_5 : ∀ i : S8192x11008.Idx, ∃ t : Fin cfg0.N, (cfg0.win 5).flush t = true ∧ i ∈ ((cfg0.win 5).blk t).view.set := by
  intro i
  have hN : cfg0.N = 176 := N_0
  have h0 : (i 0).val < 8192 := (i 0).isLt
  have h1 : (i 1).val < 11008 := (i 1).isLt
  let t : Fin cfg0.N := ⟨(i 0).val / 2048 * 44 + (i 1).val / 1024 * 4 + 3, by rw [hN]; omega⟩
  have htv : t.val = (i 0).val / 2048 * 44 + (i 1).val / 1024 * 4 + 3 := rfl
  have hgi : gi t = (i 0).val / 2048 := by unfold gi; rw [htv]; omega
  have hgj : gj t = (i 1).val / 1024 := by unfold gj; rw [htv]; omega
  obtain ⟨e0, e1⟩ := index_5 t
  obtain ⟨x0, x1⟩ := xsize_5 t
  have hnc : ncols t = if (i 1).val / 1024 = 10 then 768 else 1024 := by unfold ncols; rw [hgj]
  refine ⟨t, (flush0_5 t).mpr (by rw [htv]; omega), ?_⟩
  show i ∈ ((View.whole main_v21).slice (win0_5.rect t)).set
  rw [View.set_slice_whole, Rect.mem_set_unit]
  intro a
  match a with
  | ⟨0, _⟩ =>
    show win0_5.index t 0 * 2048 ≤ (i 0).val ∧ (i 0).val < win0_5.index t 0 * 2048 + win0_5.xsize (grid0.coords t) 0
    rw [e0, x0, hgi]; omega
  | ⟨1, _⟩ =>
    show win0_5.index t 1 * 1024 ≤ (i 1).val ∧ (i 1).val < win0_5.index t 1 * 1024 + win0_5.xsize (grid0.coords t) 1
    rw [e1, x1, hgj, hnc]; split <;> omega

end Cert.KernelIdeal.Hand

end
-- ==== Proof.SumSplit.lean ====
/-
  A sum over `4096` consecutive indices, accumulated tile by tile: the four partial sums over the tiles
  `[0, 1024)`, `[1024, 2048)`, `[2048, 3072)`, `[3072, 4096)`, added in that order onto zero, are the one sum over
  all the indices. It holds in any additive commutative monoid: only the splitting of a sum over `a + b` indices into
  its first `a` and its last `b` terms is used, three times, and `0 + s = s`.
-/
import Mathlib.Algebra.BigOperators.Fin

open scoped BigOperators

namespace Cert.SumSplit

/-- A sum over `a + b` indices is the sum over the first `a` plus the sum over the last `b`, the latter indexed from
    `a`. -/
theorem sum_add_split {M : Type*} [AddCommMonoid M] (a b : ℕ) (f : Fin (a + b) → M) :
    ∑ k : Fin (a + b), f k
      = (∑ i : Fin a, f ⟨i.val, by omega⟩) + ∑ j : Fin b, f ⟨a + j.val, by omega⟩ := by
  rw [Fin.sum_univ_add]
  rfl

/-- The four tile sums, accumulated from zero in order, are the whole sum. -/
theorem sum_four_tiles {M : Type*} [AddCommMonoid M] (f : Fin 4096 → M) :
    ((((0 : M) + ∑ j : Fin 1024, f ⟨j.val, by omega⟩) + ∑ j : Fin 1024, f ⟨1024 + j.val, by omega⟩)
        + ∑ j : Fin 1024, f ⟨2048 + j.val, by omega⟩) + ∑ j : Fin 1024, f ⟨3072 + j.val, by omega⟩
      = ∑ kk : Fin 4096, f kk := by
  -- the last tile off the whole, then the third off the first 3072, then the second off the first 2048
  have e1 : ∑ kk : Fin 4096, f kk
      = (∑ i : Fin 3072, f ⟨i.val, by omega⟩) + ∑ j : Fin 1024, f ⟨3072 + j.val, by omega⟩ :=
    sum_add_split 3072 1024 f
  have e2 : (∑ i : Fin 3072, f ⟨i.val, by omega⟩)
      = (∑ i : Fin 2048, f ⟨i.val, by omega⟩) + ∑ j : Fin 1024, f ⟨2048 + j.val, by omega⟩ :=
    sum_add_split 2048 1024 (fun i => f ⟨i.val, by omega⟩)
  have e3 : (∑ i : Fin 2048, f ⟨i.val, by omega⟩)
      = (∑ i : Fin 1024, f ⟨i.val, by omega⟩) + ∑ j : Fin 1024, f ⟨1024 + j.val, by omega⟩ :=
    sum_add_split 1024 1024 (fun i => f ⟨i.val, by omega⟩)
  rw [e1, e2, e3, zero_add]

end Cert.SumSplit
-- ==== Proof.KValFinal.lean ====
/-
  The output block at a last reduction step, and the output array after the call, in the shared vocabulary.

  Along the four reduction steps of one (row-block, column-block) the output block accumulates the four tile products
  onto zero and then the bias row. Each tile product, read through the staged blocks' coordinates, is the sum over the
  tile's 1024 reduction rows of `x` times the dequantised weight of the specification: row `j` of the tile at step `k`
  is reduction row `1024 k + j`, whose packed row is `128 k + j / 8` (field `j % 8`) and whose group is `8 k + j / 128`.
  Four consecutive tiles make the whole reduction axis, so at a last step the block holds the specification's value on
  every column inside the array. The blocks written back at the last steps cover the output array, so the array ends
  at the specification's value everywhere.
-/
import proofs.«416578_j10419590660824_3_alg».proof.Proof.KAcc
import proofs.«416578_j10419590660824_3_alg».proof.Proof.KGrid
import proofs.«416578_j10419590660824_3_alg».proof.Proof.KTile
import proofs.«416578_j10419590660824_3_alg».proof.Proof.KBlocks
import proofs.«416578_j10419590660824_3_alg».proof.Proof.SumSplit
import proofs.«416578_j10419590660824_3_alg».proof.Proof.Spec
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

/-- The activations' launch contents, as an array of extended reals (so that a product with them is a product of extended
    reals on its face). -/
abbrev argX : Cert.Spec.SX.Idx → EReal := m ((c : Thread nD τ).loc main_arg0)

/-- The dequantised weight of the staged tile at `t` is the specification's at reduction row `1024 k + j` (`k` the
    step of `t`) and the array's column, on a column inside the array. -/
theorem wTile_eq (t : Fin cfg0.N) (j n : Fin 1024) (hn : n.val < ncols t) :
    wTile (qB m c t) (zB m c t) (sB m c t) j n
      = Cert.Spec.wDeq (m ((c : Thread nD τ).loc main_arg1)) (m ((c : Thread nD τ).loc main_arg2)) (m ((c : Thread nD τ).loc main_arg3))
          (⟨gk t * 1024 + j.val, by have := gk_lt t; have := j.isLt; omega⟩ : Fin 4096)
          (⟨gj t * 1024 + n.val, col_lt t n.val hn⟩ : Fin 11008) := by
  have hk := gk_lt t
  have hj := j.isLt
  have hp : (⟨gk t * 128 + j.val / 8, by omega⟩ : Fin 512)
      = Cert.Spec.prow (⟨gk t * 1024 + j.val, by omega⟩ : Fin 4096) :=
    Fin.ext (by show gk t * 128 + j.val / 8 = (gk t * 1024 + j.val) / 8; omega)
  have hg : (⟨gk t * 8 + j.val / 128, by omega⟩ : Fin 32)
      = Cert.Spec.grp (⟨gk t * 1024 + j.val, by omega⟩ : Fin 4096) :=
    Fin.ext (by show gk t * 8 + j.val / 128 = (gk t * 1024 + j.val) / 128; omega)
  have hm : j.val % 8 = (gk t * 1024 + j.val) % 8 := by omega
  unfold wTile Cert.Spec.wDeq Cert.Spec.wWord
  rw [qB_apply m c t _ n hn, zB_apply m c t _ n hn, sB_apply m c t _ n hn, hp, hg, hm]

/-- A tile product on a column inside the array: the sum over the tile's reduction rows of `x` times the
    specification's dequantised weight. -/
theorem tileProd_eq (t : Fin cfg0.N) (r : Fin 2048) (n : Fin 1024) (hn : n.val < ncols t) :
    tileProd m c t r n
      = ∑ j : Fin 1024,
          argX m c
              (ix3 (⟨gi t, gi_lt t⟩ : Fin 4) r (⟨gk t * 1024 + j.val, by have := gk_lt t; have := j.isLt; omega⟩ : Fin 4096))
            * Cert.Spec.wDeq (m ((c : Thread nD τ).loc main_arg1)) (m ((c : Thread nD τ).loc main_arg2)) (m ((c : Thread nD τ).loc main_arg3))
                (⟨gk t * 1024 + j.val, by have := gk_lt t; have := j.isLt; omega⟩ : Fin 4096)
                (⟨gj t * 1024 + n.val, col_lt t n.val hn⟩ : Fin 11008) := by
  unfold tileProd
  refine Finset.sum_congr rfl fun j _ => ?_
  rw [xB_apply m c t r j, wTile_eq m c t j n hn]

/-- The tile product at a point `t'` of the same row-block and column-block as `t`, its reduction rows named by any
    `φ` with `φ j = 1024 k' + j` (`k'` the step of `t'`). -/
theorem tile_sum (t t' : Fin cfg0.N) (hi : gi t' = gi t) (hj : gj t' = gj t) (φ : Fin 1024 → Fin 4096)
    (hφ : ∀ j : Fin 1024, (φ j).val = gk t' * 1024 + j.val) (r : Fin 2048) (n : Fin 1024) (hn : n.val < ncols t) :
    tileProd m c t' r n
      = ∑ j : Fin 1024,
          argX m c (ix3 (⟨gi t, gi_lt t⟩ : Fin 4) r (φ j))
            * Cert.Spec.wDeq (m ((c : Thread nD τ).loc main_arg1)) (m ((c : Thread nD τ).loc main_arg2)) (m ((c : Thread nD τ).loc main_arg3)) (φ j) (⟨gj t * 1024 + n.val, col_lt t n.val hn⟩ : Fin 11008) := by
  have hn' : n.val < ncols t' := by unfold ncols at hn ⊢; rw [hj]; exact hn
  rw [tileProd_eq m c t' r n hn']
  refine Finset.sum_congr rfl fun j _ => ?_
  have e1 : (⟨gi t', gi_lt t'⟩ : Fin 4) = ⟨gi t, gi_lt t⟩ := Fin.ext hi
  have e2 : (⟨gk t' * 1024 + j.val, by have := gk_lt t'; have := j.isLt; omega⟩ : Fin 4096) = φ j :=
    Fin.ext (hφ j).symm
  have e3 : (⟨gj t' * 1024 + n.val, col_lt t' n.val hn'⟩ : Fin 11008) = (⟨gj t * 1024 + n.val, col_lt t n.val hn⟩ : Fin 11008) :=
    Fin.ext (by show gj t' * 1024 + n.val = gj t * 1024 + n.val; rw [hj])
  rw [e1, e2, e3]

/-- At a last reduction step the output block holds the specification's value, on every column inside the array:
    the four tile products of the block's four steps, accumulated onto zero, are the sum over the whole reduction
    axis; then the bias. -/
theorem acc_last_eq (t : Fin cfg0.N) (h3 : t.val % 4 = 3) (r : Fin 2048) (n : Fin 1024) (hn : n.val < ncols t) :
    accFull m c t (ix2 r n)
      = Cert.Spec.outAt (m ((c : Thread nD τ).loc main_arg0)) (m ((c : Thread nD τ).loc main_arg1)) (m ((c : Thread nD τ).loc main_arg2)) (m ((c : Thread nD τ).loc main_arg3)) (m ((c : Thread nD τ).loc main_arg4))
          (⟨gi t, gi_lt t⟩ : Fin 4) r (⟨gj t * 1024 + n.val, col_lt t n.val hn⟩ : Fin 11008) := by
  -- the three points before `t`: steps 2, 1, 0 of the same row-block and column-block
  have k3 : gk t = 3 := h3
  have k2 : gk (prevPt t) = 2 := by show (t.val - 1) % 4 = 2; omega
  have k1 : gk (prevPt (prevPt t)) = 1 := by show (t.val - 1 - 1) % 4 = 1; omega
  have k0 : gk (prevPt (prevPt (prevPt t))) = 0 := by show (t.val - 1 - 1 - 1) % 4 = 0; omega
  have i2 : gi (prevPt t) = gi t := by show (t.val - 1) / 44 = t.val / 44; omega
  have i1 : gi (prevPt (prevPt t)) = gi t := by show (t.val - 1 - 1) / 44 = t.val / 44; omega
  have i0 : gi (prevPt (prevPt (prevPt t))) = gi t := by show (t.val - 1 - 1 - 1) / 44 = t.val / 44; omega
  have j2 : gj (prevPt t) = gj t := by show ((t.val - 1) / 4) % 11 = (t.val / 4) % 11; omega
  have j1 : gj (prevPt (prevPt t)) = gj t := by show ((t.val - 1 - 1) / 4) % 11 = (t.val / 4) % 11; omega
  have j0 : gj (prevPt (prevPt (prevPt t))) = gj t := by show ((t.val - 1 - 1 - 1) / 4) % 11 = (t.val / 4) % 11; omega
  -- the accumulation unrolled over the four steps
  have e3 : accFull m c t (ix2 r n)
      = (accFull m c (prevPt t) (ix2 r n) + tileProd m c t r n) + bB m c t (ix2 (0 : Fin 1) n) :=
    accFull_last m c t h3 (ix2 r n)
  have e2 : accFull m c (prevPt t) (ix2 r n)
      = accFull m c (prevPt (prevPt t)) (ix2 r n) + tileProd m c (prevPt t) r n :=
    accFull_mid m c (prevPt t) (by show (t.val - 1) % 4 ≠ 0; omega) (by show (t.val - 1) % 4 ≠ 3; omega) (ix2 r n)
  have e1 : accFull m c (prevPt (prevPt t)) (ix2 r n)
      = accFull m c (prevPt (prevPt (prevPt t))) (ix2 r n) + tileProd m c (prevPt (prevPt t)) r n :=
    accFull_mid m c (prevPt (prevPt t)) (by show (t.val - 1 - 1) % 4 ≠ 0; omega) (by show (t.val - 1 - 1) % 4 ≠ 3; omega)
      (ix2 r n)
  have e0 : accFull m c (prevPt (prevPt (prevPt t))) (ix2 r n) = 0 + tileProd m c (prevPt (prevPt (prevPt t))) r n :=
    accFull_first m c (prevPt (prevPt (prevPt t))) (by show (t.val - 1 - 1 - 1) % 4 = 0; omega) (ix2 r n)
  -- each tile product as the sum over its quarter of the reduction axis
  have s0 := tile_sum m c t (prevPt (prevPt (prevPt t))) i0 j0 (fun j => ⟨j.val, by have := j.isLt; omega⟩)
    (fun j => by show j.val = gk (prevPt (prevPt (prevPt t))) * 1024 + j.val; omega) r n hn
  have s1 := tile_sum m c t (prevPt (prevPt t)) i1 j1 (fun j => ⟨1024 + j.val, by have := j.isLt; omega⟩)
    (fun j => by show 1024 + j.val = gk (prevPt (prevPt t)) * 1024 + j.val; omega) r n hn
  have s2 := tile_sum m c t (prevPt t) i2 j2 (fun j => ⟨2048 + j.val, by have := j.isLt; omega⟩)
    (fun j => by show 2048 + j.val = gk (prevPt t) * 1024 + j.val; omega) r n hn
  have s3 := tile_sum m c t t rfl rfl (fun j => ⟨3072 + j.val, by have := j.isLt; omega⟩)
    (fun j => by show 3072 + j.val = gk t * 1024 + j.val; omega) r n hn
  rw [e3, e2, e1, e0, s0, s1, s2, s3, bB_apply m c t n hn]
  unfold Cert.Spec.outAt
  congr 1
  exact Cert.SumSplit.sum_four_tiles fun kk : Fin 4096 =>
    argX m c (ix3 (⟨gi t, gi_lt t⟩ : Fin 4) r kk) * Cert.Spec.wDeq (m ((c : Thread nD τ).loc main_arg1)) (m ((c : Thread nD τ).loc main_arg2)) (m ((c : Thread nD τ).loc main_arg3)) kk (⟨gj t * 1024 + n.val, col_lt t n.val hn⟩ : Fin 11008)

/-- The specification's value depends on its three indices only through their values. -/
theorem outAt_congr (x : Cert.Spec.SX.Idx → EReal) (qw : IVec Cert.Spec.SQW 32) (qz : IVec Cert.Spec.SQZ 32)
    (sc : Cert.Spec.SSC.Idx → EReal) (bias : Cert.Spec.SB.Idx → EReal) {b b' : Fin 4} {s s' : Fin 2048} {n n' : Fin 11008}
    (hb : b = b') (hs : s = s') (hn : n = n') :
    Cert.Spec.outAt x qw qz sc bias b s n = Cert.Spec.outAt x qw qz sc bias b' s' n' := by
  subst hb hs hn; rfl

/-- The output array the call leaves, over its two flattened leading axes: row `i` is batch `i / 2048`, position
    `i % 2048`. -/
def G2 : S8192x11008.Idx → EReal := fun i =>
  Cert.Spec.outAt (m ((c : Thread nD τ).loc main_arg0)) (m ((c : Thread nD τ).loc main_arg1)) (m ((c : Thread nD τ).loc main_arg2)) (m ((c : Thread nD τ).loc main_arg3)) (m ((c : Thread nD τ).loc main_arg4))
    (⟨(i 0).val / 2048, by have := idx2_lt0 i; omega⟩ : Fin 4) (⟨(i 0).val % 2048, Nat.mod_lt _ (by decide)⟩ : Fin 2048) (i 1)

/-- What a last reduction step writes back is its block of `G2`: the write-back moves the columns inside the array,
    where the block holds the specification's value; row `2048 a + r` of the flattened array is batch `a`, position `r`. -/
theorem flushed_5 (t : Fin cfg0.N) (hf : (cfg0.win 5).flush t = true) :
    (datV m c).flushed 5 t = ((cfg0.win 5).blk t).view.read (Elt Ideal) (G2 m c) := by
  have h3 : t.val % 4 = 3 := (flush0_5 t).mp hf
  have hgi := gi_lt t
  funext y
  have hy0 : (y 0).val < 2048 := lt_of_lt_of_eq (y 0).isLt (xsize_5 t).1
  have hy1 : (y 1).val < ncols t := lt_of_lt_of_eq (y 1).isLt (xsize_5 t).2
  have hy1' : (y 1).val < 1024 := lt_of_lt_of_le hy1 (ncols_le t)
  have hL : (datV m c).flushed 5 t y
      = accFull m c t (ix2 (⟨(y 0).val, hy0⟩ : Fin 2048) (⟨(y 1).val, hy1'⟩ : Fin 1024)) := by
    show accFull m c t (win0_5.xinj (grid0.coords t) y) = _
    refine congrArg (accFull m c t) ?_
    funext a
    match a with
    | ⟨0, _⟩ => rfl
    | ⟨1, _⟩ => rfl
  refine ((hL.trans (acc_last_eq m c t h3 _ _ hy1)).trans ?_).trans (read_blk_5 t (G2 m c) y).symm
  exact outAt_congr _ _ _ _ _
    (Fin.ext (by show gi t = (gi t * 2048 + (y 0).val) / 2048; omega))
    (Fin.ext (by show (y 0).val = (gi t * 2048 + (y 0).val) % 2048; omega))
    (Fin.ext rfl)

/-- After the call the output array holds `G2`: every flushing point writes its block of it, and those blocks cover
    the array. -/
theorem final_5 : (datV m c).arrAt 5 cfg0.N = G2 m c :=
  (datV m c).arrAt_eq_of_cover 5 (G2 m c) (fun t hf => flushed_5 m c t hf) cover_5

end Cert.KernelIdeal.Hand

end
-- ==== Proof.KValRun.lean ====
/-
  The idealized kernel program's run: every weakly fair execution terminates without a fault, the result array ends
  holding the specification of the argument arrays, and the argument arrays end as they began.

  The run is the library's frame run around the call, with the output block named (`datV`): its post gives the
  call's output array at what the proof data computes — which is the specification in its two-dimensional form
  (`final_5`: every element lies in the block of a point that writes back, and such a point's block holds the
  accumulated sum over the four reduction steps plus the bias) — and every other unscoped buffer at what the host
  operation after the call makes of it: the result is the output array reshaped, rows `b · 2048 + s` to `(b, s)`.
-/
import proofs.«416578_j10419590660824_3_alg».proof.Proof.KValObl
import proofs.«416578_j10419590660824_3_alg».proof.Proof.KValFinal
import proofs.«416578_j10419590660824_3_alg».proof.Proof.KHost

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The proof data of the one call, on every core. -/
abbrev datsV (_ : Fin 1) (c : Dev nD) : Pipeline.Dat τ (Elt Ideal) Unit ℕ (UR sig nD τ) ℕ cfg0 c := datV m c

set_option backward.isDefEq.respectTransparency.types false in
/-- The frame run with the output block named. -/
theorem run_val :
    θ_run defs (onTc (τ := τ) (main (F := Ideal))) (s₀ m ρ)
      (Pipeline.FramePost cfgs (datsV m) 0 (Pipeline.afterTail₀ cfgs (datsV m) 0 (V0 m) [hostOps1])) :=
  Pipeline.θ_run_frame_around cfgs (datsV m) 0 launch0 defs₀ Variants.none m ρ main
    (hbody := fun c => obl_val m c)
    (hshare := fun c => (datV m c).share_full fun _ => rfl)
    (howed := fun _ _ => rfl)
    (V₀ := V0 m) (opss := [hostOps1]) (hsub := sfx_sub) (hfresh := sfx_fresh) (hkeep := sfx_keeps)
    (hmain := hmain m Variants.none) (hA := fun _ _ => rfl) (hΦ := fun _ _ => rfl)

/-- The specification of core `c`'s argument arrays. -/
abbrev specOut (c : Dev nD) : Cert.Spec.SOUT.Idx → EReal :=
  Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- What the host operation after the call leaves in the result: the specification. -/
theorem tail_eq (c : Dev nD) : Pipeline.afterTail₀ cfgs (datsV m) 0 (V0 m) [hostOps1] c main_v22 = specOut m c := by
  funext i
  obtain ⟨b, s, n, rfl⟩ : ∃ (b : Fin 4) (s : Fin 2048) (n : Fin 11008), i = ix3 b s n := ⟨i 0, i 1, i 2, eq_ix3 i⟩
  rw [Cert.KernelIdeal.KHost.tail_v22_apply m (datsV m) c b s n]
  show (datV m c).arrAt 5 cfg0.N _ = _
  rw [final_5 m c]
  unfold G2
  have hb : (b.val * 2048 + s.val) / 2048 = b.val := by have := s.isLt; omega
  have hs : (b.val * 2048 + s.val) % 2048 = s.val := by have := s.isLt; omega
  show Cert.Spec.outAt _ _ _ _ _ _ _ _ = Cert.Spec.outAt _ _ _ _ _ b s n
  exact outAt_congr _ _ _ _ _ (Fin.ext hb) (Fin.ext hs) rfl

/-- THE RUN: the result is the specification of the arguments, which end as they began. -/
theorem run_out :
    θ_run defs (onTc (τ := τ) (main (F := Ideal))) ⟨m, fun _ => 0, ρ⟩ (fun r => ∀ c : Dev nD,
      r.2.mem ((c.tc : Thread nD τ).loc main_v22) = specOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_val m ρ)
  exact ⟨((h c).2 main_v22 (Pipeline.mem_restRefs_of main_v22 (by decide) (by decide))).trans (tail_eq m c),
    ((h c).2 main_arg0 (Pipeline.mem_restRefs_of main_arg0 (by decide) (by decide))).trans (W_main_arg0 m (datsV m) c),
    ((h c).1 1).trans (((datsV m 0 c).arrAt_in 1 rfl _).trans (V_main_arg1 m c)),
    ((h c).2 main_arg2 (Pipeline.mem_restRefs_of main_arg2 (by decide) (by decide))).trans (W_main_arg2 m (datsV m) c),
    ((h c).1 3).trans (((datsV m 0 c).arrAt_in 3 rfl _).trans (V_main_arg3 m c)),
    ((h c).2 main_arg4 (Pipeline.mem_restRefs_of main_arg4 (by decide) (by decide))).trans (W_main_arg4 m (datsV m) c)⟩

end Cert.KernelIdeal.Hand

end
-- ==== Proof.RefTerm.lean ====
/-
  The reference program's result as ONE term of its five arguments: the operations of its main function composed in
  the printed order, the outlined floor division (and the selection inside it) written out where it is called.

  Reading guide. `v0 … v12` unpack the weight table: the shift amounts `4 * j` (`j < 8`), each packed word shifted by
  each amount and masked to four bits, then the `512 × 8` rows laid out as `4096`. `v13 … v29` unpack the zero points
  the same way along the columns, add one and mask again. `v30 … v31` are the row groups: `kk / 128` as a floored
  quotient (the truncated quotient, less one where the signs differ and the remainder is not zero). `v32 … v49` bring a
  negative group index into range, fetch each row's zero points and scales by its group, and form
  `(w - z) * scale`. `v50 … v55` flatten the two leading axes of `x`, contract with that table along the
  reduction axis, restore the axes and add the bias along the last axis.
-/
import proofs.«416578_j10419590660824_3_alg».proof.ReferenceIdeal
import proofs.«416578_j10419590660824_3_alg».proof.Proof.Gen.ReferenceIdeal

noncomputable section

namespace Cert.RefSide

open Idealize.ShloMosaic Cert.ReferenceIdeal Cert.ReferenceIdeal.Gen

variable {F : FTy → Type} [FloatOps F]

/-- The reference's value: each line is one operation of the program, in its order, named after the value it defines
    (`call0_*`: the values of the outlined floor division of the row index by `128`). -/
noncomputable def refTerm (x : FVec F S4x2048x4096 .f32) (qw : IVec S512x11008 32) (qz : IVec S32x1376 32)
    (sc : FVec F S32x11008 .f32) (bias : FVec F S11008 .f32) : FVec F S4x2048x11008 .f32 :=
  -- the weight table unpacked: field `j` of packed row `r` is row `8 r + j`
  have v0 : IVec S8 32 := iotaInDim S8 32 0
  have c : IVec S_ 32 := constantI S_ 32 4#32
  have v1 : IVec S8 32 := broadcastInDim S8 ![] bcast_S_S8 c
  have v2 : IVec S8 32 := muli v1 v0
  have c_0 : IVec S_ 32 := constantI S_ 32 0#32
  have v3 : IVec S8 32 := broadcastInDim S8 ![] bcast_S_S8 c_0
  have v4 : IVec S8 32 := addi v3 v2
  have v5 : IVec S512x1x11008 32 := broadcastInDim S512x1x11008 ![0, 2] bcast_S512x11008_S512x1x11008_0_2 qw
  have v6 : IVec S1x8x1 32 := broadcastInDim S1x8x1 ![1] bcast_S8_S1x8x1_1 v4
  have v7 : IVec S512x8x11008 32 := broadcastInDim S512x8x11008 ![0, 1, 2] bcast_S512x1x11008_S512x8x11008_0_1_2 v5
  have v8 : IVec S512x8x11008 32 := broadcastInDim S512x8x11008 ![0, 1, 2] bcast_S1x8x1_S512x8x11008_0_1_2 v6
  have v9 : IVec S512x8x11008 32 := Host.shrsi v7 v8
  have c_1 : IVec S_ 32 := constantI S_ 32 15#32
  have v10 : IVec S512x8x11008 32 := broadcastInDim S512x8x11008 ![] bcast_S_S512x8x11008 c_1
  have v11 : IVec S512x8x11008 32 := andi v9 v10
  have v12 : IVec S4096x11008 32 := shapeCast S4096x11008 v11 shapeCasts_S512x8x11008_S4096x11008
  -- the zero points unpacked: field `j` of packed column `p` is column `8 p + j`; plus one, wrapped to four bits
  have v13 : IVec S8 32 := iotaInDim S8 32 0
  have c_2 : IVec S_ 32 := constantI S_ 32 4#32
  have v14 : IVec S8 32 := broadcastInDim S8 ![] bcast_S_S8 c_2
  have v15 : IVec S8 32 := muli v14 v13
  have c_3 : IVec S_ 32 := constantI S_ 32 0#32
  have v16 : IVec S8 32 := broadcastInDim S8 ![] bcast_S_S8 c_3
  have v17 : IVec S8 32 := addi v16 v15
  have v18 : IVec S32x1376x1 32 := broadcastInDim S32x1376x1 ![0, 1] bcast_S32x1376_S32x1376x1_0_1 qz
  have v19 : IVec S1x1x8 32 := broadcastInDim S1x1x8 ![2] bcast_S8_S1x1x8_2 v17
  have v20 : IVec S32x1376x8 32 := broadcastInDim S32x1376x8 ![0, 1, 2] bcast_S32x1376x1_S32x1376x8_0_1_2 v18
  have v21 : IVec S32x1376x8 32 := broadcastInDim S32x1376x8 ![0, 1, 2] bcast_S1x1x8_S32x1376x8_0_1_2 v19
  have v22 : IVec S32x1376x8 32 := Host.shrsi v20 v21
  have c_4 : IVec S_ 32 := constantI S_ 32 15#32
  have v23 : IVec S32x1376x8 32 := broadcastInDim S32x1376x8 ![] bcast_S_S32x1376x8 c_4
  have v24 : IVec S32x1376x8 32 := andi v22 v23
  have c_5 : IVec S_ 32 := constantI S_ 32 1#32
  have v25 : IVec S32x1376x8 32 := broadcastInDim S32x1376x8 ![] bcast_S_S32x1376x8 c_5
  have v26 : IVec S32x1376x8 32 := addi v24 v25
  have c_6 : IVec S_ 32 := constantI S_ 32 15#32
  have v27 : IVec S32x1376x8 32 := broadcastInDim S32x1376x8 ![] bcast_S_S32x1376x8 c_6
  have v28 : IVec S32x1376x8 32 := andi v26 v27
  have v29 : IVec S32x11008 32 := shapeCast S32x11008 v28 shapeCasts_S32x1376x8_S32x11008
  -- the group of each reduction row: the floored quotient of the row index by `128`
  have v30 : IVec S4096 32 := iotaInDim S4096 32 0
  have c_7 : IVec S_ 32 := constantI S_ 32 128#32
  have call0_v0 : IVec S_ 32 := id c_7
  have call0_v1 : IVec S4096 32 := broadcastInDim S4096 ![] bcast_S_S4096 call0_v0
  have call0_v2 : IVec S4096 32 := Host.divsi v30 call0_v1
  have call0_v3 : IVec S4096 32 := signi v30
  have call0_v4 : IVec S_ 32 := signi call0_v0
  have call0_v5 : IVec S4096 32 := broadcastInDim S4096 ![] bcast_S_S4096 call0_v4
  have call0_v6 : IVec S4096 1 := cmpi .ne call0_v3 call0_v5
  have call0_v7 : IVec S4096 32 := broadcastInDim S4096 ![] bcast_S_S4096 call0_v0
  have call0_v8 : IVec S4096 32 := Host.remsi v30 call0_v7
  have call0_c : IVec S_ 32 := constantI S_ 32 0#32
  have call0_v9 : IVec S4096 32 := broadcastInDim S4096 ![] bcast_S_S4096 call0_c
  have call0_v10 : IVec S4096 1 := cmpi .ne call0_v8 call0_v9
  have call0_v11 : IVec S4096 1 := andi call0_v6 call0_v10
  have call0_c_0 : IVec S_ 32 := constantI S_ 32 1#32
  have call0_v12 : IVec S4096 32 := broadcastInDim S4096 ![] bcast_S_S4096 call0_c_0
  have call0_v13 : IVec S4096 32 := subi call0_v2 call0_v12
  have v31 : IVec S4096 32 := select call0_v11 call0_v13 call0_v2
  -- the weights as floats; each row's zero points fetched by its group (a negative group index first brought into range)
  have v32 : FVec F S4096x11008 .f32 := sitofp .f32 v12
  have c_8 : IVec S_ 32 := constantI S_ 32 0#32
  have v33 : IVec S4096 32 := broadcastInDim S4096 ![] bcast_S_S4096 c_8
  have v34 : IVec S4096 1 := cmpi .slt v31 v33
  have c_9 : IVec S_ 32 := constantI S_ 32 32#32
  have v35 : IVec S4096 32 := broadcastInDim S4096 ![] bcast_S_S4096 c_9
  have v36 : IVec S4096 32 := addi v31 v35
  have v37 : IVec S4096 32 := select v34 v36 v31
  have v38 : IVec S4096x1 32 := broadcastInDim S4096x1 ![0] bcast_S4096_S4096x1_0 v37
  have v39 : IVec S4096x11008 32 := Host.gather gather_S32x11008_S4096x1_S4096x11008_1_0_n_n_0_1_111008 v29 v38
  have v40 : FVec F S4096x11008 .f32 := sitofp .f32 v39
  have v41 : FVec F S4096x11008 .f32 := subf v32 v40
  -- each row's scales fetched by its group, and the dequantised table `(w - z) * scale`
  have c_10 : IVec S_ 32 := constantI S_ 32 0#32
  have v42 : IVec S4096 32 := broadcastInDim S4096 ![] bcast_S_S4096 c_10
  have v43 : IVec S4096 1 := cmpi .slt v31 v42
  have c_11 : IVec S_ 32 := constantI S_ 32 32#32
  have v44 : IVec S4096 32 := broadcastInDim S4096 ![] bcast_S_S4096 c_11
  have v45 : IVec S4096 32 := addi v31 v44
  have v46 : IVec S4096 32 := select v43 v45 v31
  have v47 : IVec S4096x1 32 := broadcastInDim S4096x1 ![0] bcast_S4096_S4096x1_0 v46
  have v48 : FVec F S4096x11008 .f32 := Host.gather gather_S32x11008_S4096x1_S4096x11008_1_0_n_n_0_1_111008 sc v47
  have v49 : FVec F S4096x11008 .f32 := mulf v41 v48
  -- the product along the reduction axis, over the two leading axes flattened, and the bias along the last axis
  have v50 : FVec F S8192x4096 .f32 := shapeCast S8192x4096 x shapeCasts_S4x2048x4096_S8192x4096
  have v51 : FVec F S8192x11008 .f32 := Host.dotGeneral dot_S8192x4096_S4096x11008_S8192x11008_1_0_0_1_n_n none v50 v49
  have v52 : FVec F S4x2048x11008 .f32 := shapeCast S4x2048x11008 v51 shapeCasts_S8192x11008_S4x2048x11008
  have v53 : FVec F S1x1x11008 .f32 := broadcastInDim S1x1x11008 ![2] bcast_S11008_S1x1x11008_2 bias
  have v54 : FVec F S4x2048x11008 .f32 := broadcastInDim S4x2048x11008 ![0, 1, 2] bcast_S1x1x11008_S4x2048x11008_0_1_2 v53
  have v55 : FVec F S4x2048x11008 .f32 := addf v52 v54
  v55

end Cert.RefSide

end
-- ==== Proof.RefRun.lean ====
/-
  The reference program's run read back. Its main function is one straight line of host operations — the outlined
  floor division of the row index by the group size (and the selection inside it) taking its place in the line as the
  seventeen operations of its body, over the buffers that call names —, so its run is the fold of the operations'
  results over the launch contents: every weakly fair execution terminates, the result buffer holds the composed term
  `refTerm` of the five arguments' launch contents, and the arguments are unchanged.
-/
import proofs.«416578_j10419590660824_3_alg».proof.Proof.RefTerm
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The main function's 85 operations, in order: its own 68, and in the place of the call (after the constant `128`)
    the callee's 17 over the call's buffers — the row index and the constant are its two arguments, the selection's
    result is the call's result. -/
abbrev ops : List (HloOp τ sig (Elt F)) :=
  [ StableHlo.nullary main_v0 (iotaInDim S8 32 0),
    StableHlo.nullary main_c (constantI S_ 32 4#32),
    StableHlo.unary main_c main_v1 (broadcastInDim S8 ![] bcast_S_S8 : (⟨S_, .i32⟩ : BufTy).Contents (Elt F) → (⟨S8, .i32⟩ : BufTy).Contents (Elt F)),
    StableHlo.binary main_v1 main_v0 main_v2 (muli : (⟨S8, .i32⟩ : BufTy).Contents (Elt F) → (⟨S8, .i32⟩ : BufTy).Contents (Elt F) → (⟨S8, .i32⟩ : BufTy).Contents (Elt F)),
    StableHlo.nullary main_c_0 (constantI S_ 32 0#32),
    StableHlo.unary main_c_0 main_v3 (broadcastInDim S8 ![] bcast_S_S8 : (⟨S_, .i32⟩ : BufTy).Contents (Elt F) → (⟨S8, .i32⟩ : BufTy).Contents (Elt F)),
    StableHlo.binary main_v3 main_v2 main_v4 (addi : (⟨S8, .i32⟩ : BufTy).Contents (Elt F) → (⟨S8, .i32⟩ : BufTy).Contents (Elt F) → (⟨S8, .i32⟩ : BufTy).Contents (Elt F)),
    StableHlo.unary main_arg1 main_v5 (broadcastInDim S512x1x11008 ![0, 2] bcast_S512x11008_S512x1x11008_0_2 : (⟨S512x11008, .i32⟩ : BufTy).Contents (Elt F) → (⟨S512x1x11008, .i32⟩ : BufTy).Contents (Elt F)),
    StableHlo.unary main_v4 main_v6 (broadcastInDim S1x8x1 ![1] bcast_S8_S1x8x1_1 : (⟨S8, .i32⟩ : BufTy).Contents (Elt F) → (⟨S1x8x1, .i32⟩ : BufTy).Contents (Elt F)),
    StableHlo.unary main_v5 main_v7 (broadcastInDim S512x8x11008 ![0, 1, 2] bcast_S512x1x11008_S512x8x11008_0_1_2 : (⟨S512x1x11008, .i32⟩ : BufTy).Contents (Elt F) → (⟨S512x8x11008, .i32⟩ : BufTy).Contents (Elt F)),
    StableHlo.unary main_v6 main_v8 (broadcastInDim S512x8x11008 ![0, 1, 2] bcast_S1x8x1_S512x8x11008_0_1_2 : (⟨S1x8x1, .i32⟩ : BufTy).Contents (Elt F) → (⟨S512x8x11008, .i32⟩ : BufTy).Contents (Elt F)),
    StableHlo.binary main_v7 main_v8 main_v9 (Host.shrsi : (⟨S512x8x11008, .i32⟩ : BufTy).Contents (Elt F) → (⟨S512x8x11008, .i32⟩ : BufTy).Contents (Elt F) → (⟨S512x8x11008, .i32⟩ : BufTy).Contents (Elt F)),
    StableHlo.nullary main_c_1 (constantI S_ 32 15#32),
    StableHlo.unary main_c_1 main_v10 (broadcastInDim S512x8x11008 ![] bcast_S_S512x8x11008 : (⟨S_, .i32⟩ : BufTy).Contents (Elt F) → (⟨S512x8x11008, .i32⟩ : BufTy).Contents (Elt F)),
    StableHlo.binary main_v9 main_v10 main_v11 (andi : (⟨S512x8x11008, .i32⟩ : BufTy).Contents (Elt F) → (⟨S512x8x11008, .i32⟩ : BufTy).Contents (Elt F) → (⟨S512x8x11008, .i32⟩ : BufTy).Contents (Elt F)),
    StableHlo.reshape main_v11 main_v12 rfl shapeCasts_S512x8x11008_S4096x11008,
    StableHlo.nullary main_v13 (iotaInDim S8 32 0),
    StableHlo.nullary main_c_2 (constantI S_ 32 4#32),
    StableHlo.unary main_c_2 main_v14 (broadcastInDim S8 ![] bcast_S_S8 : (⟨S_, .i32⟩ : BufTy).Contents (Elt F) → (⟨S8, .i32⟩ : BufTy).Contents (Elt F)),
    StableHlo.binary main_v14 main_v13 main_v15 (muli : (⟨S8, .i32⟩ : BufTy).Contents (Elt F) → (⟨S8, .i32⟩ : BufTy).Contents (Elt F) → (⟨S8, .i32⟩ : BufTy).Contents (Elt F)),
    StableHlo.nullary main_c_3 (constantI S_ 32 0#32),
    StableHlo.unary main_c_3 main_v16 (broadcastInDim S8 ![] bcast_S_S8 : (⟨S_, .i32⟩ : BufTy).Contents (Elt F) → (⟨S8, .i32⟩ : BufTy).Contents (Elt F)),
    StableHlo.binary main_v16 main_v15 main_v17 (addi : (⟨S8, .i32⟩ : BufTy).Contents (Elt F) → (⟨S8, .i32⟩ : BufTy).Contents (Elt F) → (⟨S8, .i32⟩ : BufTy).Contents (Elt F)),
    StableHlo.unary main_arg2 main_v18 (broadcastInDim S32x1376x1 ![0, 1] bcast_S32x1376_S32x1376x1_0_1 : (⟨S32x1376, .i32⟩ : BufTy).Contents (Elt F) → (⟨S32x1376x1, .i32⟩ : BufTy).Contents (Elt F)),
    StableHlo.unary main_v17 main_v19 (broadcastInDim S1x1x8 ![2] bcast_S8_S1x1x8_2 : (⟨S8, .i32⟩ : BufTy).Contents (Elt F) → (⟨S1x1x8, .i32⟩ : BufTy).Contents (Elt F)),
    StableHlo.unary main_v18 main_v20 (broadcastInDim S32x1376x8 ![0, 1, 2] bcast_S32x1376x1_S32x1376x8_0_1_2 : (⟨S32x1376x1, .i32⟩ : BufTy).Contents (Elt F) → (⟨S32x1376x8, .i32⟩ : BufTy).Contents (Elt F)),
    StableHlo.unary main_v19 main_v21 (broadcastInDim S32x1376x8 ![0, 1, 2] bcast_S1x1x8_S32x1376x8_0_1_2 : (⟨S1x1x8, .i32⟩ : BufTy).Contents (Elt F) → (⟨S32x1376x8, .i32⟩ : BufTy).Contents (Elt F)),
    StableHlo.binary main_v20 main_v21 main_v22 (Host.shrsi : (⟨S32x1376x8, .i32⟩ : BufTy).Contents (Elt F) → (⟨S32x1376x8, .i32⟩ : BufTy).Contents (Elt F) → (⟨S32x1376x8, .i32⟩ : BufTy).Contents (Elt F)),
    StableHlo.nullary main_c_4 (constantI S_ 32 15#32),
    StableHlo.unary main_c_4 main_v23 (broadcastInDim S32x1376x8 ![] bcast_S_S32x1376x8 : (⟨S_, .i32⟩ : BufTy).Contents (Elt F) → (⟨S32x1376x8, .i32⟩ : BufTy).Contents (Elt F)),
    StableHlo.binary main_v22 main_v23 main_v24 (andi : (⟨S32x1376x8, .i32⟩ : BufTy).Contents (Elt F) → (⟨S32x1376x8, .i32⟩ : BufTy).Contents (Elt F) → (⟨S32x1376x8, .i32⟩ : BufTy).Contents (Elt F)),
    StableHlo.nullary main_c_5 (constantI S_ 32 1#32),
    StableHlo.unary main_c_5 main_v25 (broadcastInDim S32x1376x8 ![] bcast_S_S32x1376x8 : (⟨S_, .i32⟩ : BufTy).Contents (Elt F) → (⟨S32x1376x8, .i32⟩ : BufTy).Contents (Elt F)),
    StableHlo.binary main_v24 main_v25 main_v26 (addi : (⟨S32x1376x8, .i32⟩ : BufTy).Contents (Elt F) → (⟨S32x1376x8, .i32⟩ : BufTy).Contents (Elt F) → (⟨S32x1376x8, .i32⟩ : BufTy).Contents (Elt F)),
    StableHlo.nullary main_c_6 (constantI S_ 32 15#32),
    StableHlo.unary main_c_6 main_v27 (broadcastInDim S32x1376x8 ![] bcast_S_S32x1376x8 : (⟨S_, .i32⟩ : BufTy).Contents (Elt F) → (⟨S32x1376x8, .i32⟩ : BufTy).Contents (Elt F)),
    StableHlo.binary main_v26 main_v27 main_v28 (andi : (⟨S32x1376x8, .i32⟩ : BufTy).Contents (Elt F) → (⟨S32x1376x8, .i32⟩ : BufTy).Contents (Elt F) → (⟨S32x1376x8, .i32⟩ : BufTy).Contents (Elt F)),
    StableHlo.reshape main_v28 main_v29 rfl shapeCasts_S32x1376x8_S32x11008,
    StableHlo.nullary main_v30 (iotaInDim S4096 32 0),
    StableHlo.nullary main_c_7 (constantI S_ 32 128#32),
    StableHlo.TRef.unary (.of main_c_7 : TRef sig ⟨S_, .i32⟩) main_call0.v0 id,
    StableHlo.TRef.unary main_call0.v0 main_call0.v1 (broadcastInDim S4096 ![] bcast_S_S4096),
    StableHlo.TRef.binary (.of main_v30 : TRef sig ⟨S4096, .i32⟩) main_call0.v1 main_call0.v2 Host.divsi,
    StableHlo.TRef.unary (.of main_v30 : TRef sig ⟨S4096, .i32⟩) main_call0.v3 signi,
    StableHlo.TRef.unary main_call0.v0 main_call0.v4 signi,
    StableHlo.TRef.unary main_call0.v4 main_call0.v5 (broadcastInDim S4096 ![] bcast_S_S4096),
    StableHlo.TRef.binary main_call0.v3 main_call0.v5 main_call0.v6 (cmpi .ne),
    StableHlo.TRef.unary main_call0.v0 main_call0.v7 (broadcastInDim S4096 ![] bcast_S_S4096),
    StableHlo.TRef.binary (.of main_v30 : TRef sig ⟨S4096, .i32⟩) main_call0.v7 main_call0.v8 Host.remsi,
    StableHlo.TRef.nullary main_call0.c (constantI S_ 32 0#32),
    StableHlo.TRef.unary main_call0.c main_call0.v9 (broadcastInDim S4096 ![] bcast_S_S4096),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S4096 ![] bcast_S_S4096),
    StableHlo.TRef.binary main_call0.v2 main_call0.v12 main_call0.v13 subi,
    StableHlo.TRef.ternary main_call0.v11 main_call0.v13 main_call0.v2 main_call0.call0.v0 select,
    StableHlo.unary main_v12 main_v32 (sitofp .f32 : (⟨S4096x11008, .i32⟩ : BufTy).Contents (Elt F) → (⟨S4096x11008, .f32⟩ : BufTy).Contents (Elt F)),
    StableHlo.nullary main_c_8 (constantI S_ 32 0#32),
    StableHlo.unary main_c_8 main_v33 (broadcastInDim S4096 ![] bcast_S_S4096 : (⟨S_, .i32⟩ : BufTy).Contents (Elt F) → (⟨S4096, .i32⟩ : BufTy).Contents (Elt F)),
    StableHlo.binary main_v31 main_v33 main_v34 (cmpi .slt : (⟨S4096, .i32⟩ : BufTy).Contents (Elt F) → (⟨S4096, .i32⟩ : BufTy).Contents (Elt F) → (⟨S4096, .i1⟩ : BufTy).Contents (Elt F)),
    StableHlo.nullary main_c_9 (constantI S_ 32 32#32),
    StableHlo.unary main_c_9 main_v35 (broadcastInDim S4096 ![] bcast_S_S4096 : (⟨S_, .i32⟩ : BufTy).Contents (Elt F) → (⟨S4096, .i32⟩ : BufTy).Contents (Elt F)),
    StableHlo.binary main_v31 main_v35 main_v36 (addi : (⟨S4096, .i32⟩ : BufTy).Contents (Elt F) → (⟨S4096, .i32⟩ : BufTy).Contents (Elt F) → (⟨S4096, .i32⟩ : BufTy).Contents (Elt F)),
    StableHlo.ternary main_v34 main_v36 main_v31 main_v37 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v37 main_v38 (broadcastInDim S4096x1 ![0] bcast_S4096_S4096x1_0 : (⟨S4096, .i32⟩ : BufTy).Contents (Elt F) → (⟨S4096x1, .i32⟩ : BufTy).Contents (Elt F)),
    StableHlo.binary main_v29 main_v38 main_v39 ((fun x i => Host.gather gather_S32x11008_S4096x1_S4096x11008_1_0_n_n_0_1_111008 x i) : (⟨S32x11008, .i32⟩ : BufTy).Contents (Elt F) → (⟨S4096x1, .i32⟩ : BufTy).Contents (Elt F) → (⟨S4096x11008, .i32⟩ : BufTy).Contents (Elt F)),
    StableHlo.unary main_v39 main_v40 (sitofp .f32 : (⟨S4096x11008, .i32⟩ : BufTy).Contents (Elt F) → (⟨S4096x11008, .f32⟩ : BufTy).Contents (Elt F)),
    StableHlo.binary main_v32 main_v40 main_v41 (subf : (⟨S4096x11008, .f32⟩ : BufTy).Contents (Elt F) → (⟨S4096x11008, .f32⟩ : BufTy).Contents (Elt F) → (⟨S4096x11008, .f32⟩ : BufTy).Contents (Elt F)),
    StableHlo.nullary main_c_10 (constantI S_ 32 0#32),
    StableHlo.unary main_c_10 main_v42 (broadcastInDim S4096 ![] bcast_S_S4096 : (⟨S_, .i32⟩ : BufTy).Contents (Elt F) → (⟨S4096, .i32⟩ : BufTy).Contents (Elt F)),
    StableHlo.binary main_v31 main_v42 main_v43 (cmpi .slt : (⟨S4096, .i32⟩ : BufTy).Contents (Elt F) → (⟨S4096, .i32⟩ : BufTy).Contents (Elt F) → (⟨S4096, .i1⟩ : BufTy).Contents (Elt F)),
    StableHlo.nullary main_c_11 (constantI S_ 32 32#32),
    StableHlo.unary main_c_11 main_v44 (broadcastInDim S4096 ![] bcast_S_S4096 : (⟨S_, .i32⟩ : BufTy).Contents (Elt F) → (⟨S4096, .i32⟩ : BufTy).Contents (Elt F)),
    StableHlo.binary main_v31 main_v44 main_v45 (addi : (⟨S4096, .i32⟩ : BufTy).Contents (Elt F) → (⟨S4096, .i32⟩ : BufTy).Contents (Elt F) → (⟨S4096, .i32⟩ : BufTy).Contents (Elt F)),
    StableHlo.ternary main_v43 main_v45 main_v31 main_v46 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v46 main_v47 (broadcastInDim S4096x1 ![0] bcast_S4096_S4096x1_0 : (⟨S4096, .i32⟩ : BufTy).Contents (Elt F) → (⟨S4096x1, .i32⟩ : BufTy).Contents (Elt F)),
    StableHlo.binary main_arg3 main_v47 main_v48 ((fun x i => Host.gather gather_S32x11008_S4096x1_S4096x11008_1_0_n_n_0_1_111008 x i) : (⟨S32x11008, .f32⟩ : BufTy).Contents (Elt F) → (⟨S4096x1, .i32⟩ : BufTy).Contents (Elt F) → (⟨S4096x11008, .f32⟩ : BufTy).Contents (Elt F)),
    StableHlo.binary main_v41 main_v48 main_v49 (mulf : (⟨S4096x11008, .f32⟩ : BufTy).Contents (Elt F) → (⟨S4096x11008, .f32⟩ : BufTy).Contents (Elt F) → (⟨S4096x11008, .f32⟩ : BufTy).Contents (Elt F)),
    StableHlo.reshape main_arg0 main_v50 rfl shapeCasts_S4x2048x4096_S8192x4096,
    StableHlo.binary main_v50 main_v49 main_v51 ((fun l r => Host.dotGeneral dot_S8192x4096_S4096x11008_S8192x11008_1_0_0_1_n_n none l r) : (⟨S8192x4096, .f32⟩ : BufTy).Contents (Elt F) → (⟨S4096x11008, .f32⟩ : BufTy).Contents (Elt F) → (⟨S8192x11008, .f32⟩ : BufTy).Contents (Elt F)),
    StableHlo.reshape main_v51 main_v52 rfl shapeCasts_S8192x11008_S4x2048x11008,
    StableHlo.unary main_arg4 main_v53 (broadcastInDim S1x1x11008 ![2] bcast_S11008_S1x1x11008_2 : (⟨S11008, .f32⟩ : BufTy).Contents (Elt F) → (⟨S1x1x11008, .f32⟩ : BufTy).Contents (Elt F)),
    StableHlo.unary main_v53 main_v54 (broadcastInDim S4x2048x11008 ![0, 1, 2] bcast_S1x1x11008_S4x2048x11008_0_1_2 : (⟨S1x1x11008, .f32⟩ : BufTy).Contents (Elt F) → (⟨S4x2048x11008, .f32⟩ : BufTy).Contents (Elt F)),
    StableHlo.binary main_v52 main_v54 main_v55 (addf : (⟨S4x2048x11008, .f32⟩ : BufTy).Contents (Elt F) → (⟨S4x2048x11008, .f32⟩ : BufTy).Contents (Elt F) → (⟨S4x2048x11008, .f32⟩ : BufTy).Contents (Elt F)) ]

set_option maxRecDepth 8192 in
set_option maxHeartbeats 4000000 in
/-- The main function is that straight line: its two windows, the callee's body and the selection's unfold at their
    places, and sequencing reassociates by computation on the steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., unary_bufs_sub .., unary_bufs_sub .., unary_bufs_sub .., unary_bufs_sub .., binary_bufs_sub ..,
    nullary_bufs_sub .., unary_bufs_sub .., binary_bufs_sub .., reshape_bufs_sub .., nullary_bufs_sub .., nullary_bufs_sub ..,
    unary_bufs_sub .., binary_bufs_sub .., nullary_bufs_sub .., unary_bufs_sub .., binary_bufs_sub .., unary_bufs_sub ..,
    unary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., reshape_bufs_sub .., nullary_bufs_sub .., nullary_bufs_sub .., unary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., reshape_bufs_sub .., binary_bufs_sub .., reshape_bufs_sub .., unary_bufs_sub .., unary_bufs_sub ..,
    binary_bufs_sub ..⟩

set_option maxRecDepth 8192 in
set_option maxHeartbeats 34000000 in
/-- The fold at the result buffer is `refTerm` of the arguments' contents: each operation's result at its own buffer
    is its function's value, at any other buffer what was there; the typed references' transports are the identity
    at these literal buffers, and a reshape's element-type transport is between equal closed types. -/
theorem out_eq (V : Valuation τ sig (Elt F)) :
    after ops V (Proc.devRef .tc main_v55)
      = refTerm (V (Proc.devRef .tc main_arg0)) (V (Proc.devRef .tc main_arg1)) (V (Proc.devRef .tc main_arg2))
          (V (Proc.devRef .tc main_arg3)) (V (Proc.devRef .tc main_arg4)) := by
  after_results_simp <;> rfl

set_option maxRecDepth 8192 in
set_option maxHeartbeats 34000000 in
/-- No operation writes an argument's buffer. -/
theorem args_eq (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4) := by
  refine ⟨?_, ?_, ?_, ?_, ?_⟩ <;> after_results_simp

/-- On every device, for any float values, from any memory with zero counters: every weakly fair execution of the
    reference terminates with the result at `refTerm` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v55) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v55).trans (out_eq (launchContents m c)),
       (h c main_arg0).trans (args_eq (launchContents m c)).1,
       (h c main_arg1).trans (args_eq (launchContents m c)).2.1,
       (h c main_arg2).trans (args_eq (launchContents m c)).2.2.1,
       (h c main_arg3).trans (args_eq (launchContents m c)).2.2.2.1,
       (h c main_arg4).trans (args_eq (launchContents m c)).2.2.2.2⟩)
    (run_seq scopedRefs_eq scopedSems_eq defs main (fun _ => ops) main_eq (fun _ => ops_sub) m ρ)

end Cert.RefSide

end
-- ==== Proof.LibScatterGather.lean ====
/-
  Reading an accumulating scatter and a row gather at one element, at the ideal instance.

  `scatterAdd_vec_apply`: a vector of `M` updates added into a vector of length `N` at the positions a column of `M` words
  names: element `i` of the result is the operand's element plus the sum of the updates whose word, read as a signed
  integer, is `i` (a word outside `[0, N)` contributes nowhere).
  `scatterAdd_rows_apply`: the same for `M` rows of width `C` added into an `N × C` array: row `i`, column `j` collects
  column `j` of the update rows whose word is `i`.
  `gather_rows_apply`: row `e` of a gather of `M` rows out of an `N × C` array is the array's row at word `e`, read signed
  and clamped into `[0, N - 1]`.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibScatterGather

open Idealize.ShloMosaic Idealize.ShloMosaic.ValueIdx

/-! ## A vector of updates added into a vector -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The vector scatter's dimension numbers: no window axes, the operand's one axis inserted and scatter-indexed, the
    index vector on axis 1 of the column of words. -/
abbrev vecDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update `j` lands on the operand's axis at its word read signed: the start is the word at row `j` of the column, the
    window coordinate is zero (the axis is inserted). -/
theorem vec_landing {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (a : Fin 1) :
    (vecDims N M wf).start j idx a + ((vecDims N M wf).window j a : ℤ) = (idx (ix2 (j 0) (0 : Fin 1))).toInt := by
  obtain rfl : a = 0 := Subsingleton.elim _ _
  unfold ScatterDims.start ScatterDims.window
  rw [dif_pos (show (0 : Fin 1) ∈ (vecDims N M wf).scatterDimsToOperandDims from List.mem_singleton.mpr rfl),
    dif_neg (show (0 : Fin 1) ∉ (vecDims N M wf).sKept by
      show (0 : Fin 1) ∉ (List.finRange 1).filter (· ∉ [0]); decide)]
  have hsi : (vecDims N M wf).siIdx j ⟨List.idxOf (0 : Fin 1) (vecDims N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  simp

/-- The update at `j` lands on element `i` exactly when its word, read signed, is `i`. -/
theorem vec_resultIdx {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (i : Fin N) :
    (vecDims N M wf).resultIdx? j idx = some (ix1 i) ↔ (idx (ix2 (j 0) (0 : Fin 1))).toInt = (i.val : ℤ) := by
  have hl := vec_landing wf idx j
  unfold ScatterDims.resultIdx?
  constructor
  · intro h
    split at h
    · next hc =>
      have h0 := congrFun (Option.some.inj h) 0
      have h1 := congrArg Fin.val h0
      simp only at h1
      have := hc 0
      rw [← hl 0]
      change ((vecDims N M wf).start j idx 0 + ((vecDims N M wf).window j 0 : ℤ)).toNat = i.val at h1
      omega
    · exact absurd h (by simp)
  · intro h
    have hc : ∀ a, 0 ≤ (vecDims N M wf).start j idx a + ((vecDims N M wf).window j a : ℤ) ∧
        (vecDims N M wf).start j idx a + ((vecDims N M wf).window j a : ℤ) < ((⟨1, ![N]⟩ : Shape).size a : ℤ) := by
      intro a
      obtain rfl : a = 0 := Subsingleton.elim _ _
      rw [hl 0, h]
      have := i.isLt
      constructor
      · omega
      · show (i.val : ℤ) < (N : ℤ); omega
    rw [dif_pos hc]
    congr 1
    funext a
    obtain rfl : a = 0 := Subsingleton.elim _ _
    refine Fin.ext ?_
    show ((vecDims N M wf).start j idx 0 + ((vecDims N M wf).window j 0 : ℤ)).toNat = i.val
    rw [hl 0, h]; simp

/-- THE VECTOR SCATTER READ AT `i`: the operand's element plus the sum, over the `M` updates, of those whose word read
    signed is `i`. The filtered sum over update indices becomes the sum over `Fin M` with an `if` (`Finset.sum_filter`,
    then the update index set re-indexed by its one coordinate). -/
theorem scatterAdd_vec_apply {N M w : Nat} {φ : FTy} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![M, 1]⟩ w) (upd : FVec Ideal ⟨1, ![M]⟩ φ) (i : Fin N) :
    Host.scatterAdd d x idx upd (ix1 i)
      = x (ix1 i) + ∑ e : Fin M, if (idx (ix2 e (0 : Fin 1))).toInt = (i.val : ℤ) then upd (ix1 e) else 0 := by
  obtain ⟨uw, iw, sd, ivd, wf⟩ := d
  simp only at huw hiw hsd hivd
  subst huw hiw hsd hivd
  show Ideal.hostScatterAdd (vecDims N M wf) x idx upd (ix1 i) = _
  unfold Ideal.hostScatterAdd
  congr 1
  rw [Finset.sum_filter, sum_idx1]
  refine Finset.sum_congr rfl fun e _ => ?_
  exact if_congr (vec_resultIdx wf idx (ix1 e) i) rfl rfl

/-! ## Rows of updates added into an array -/

/-- The row scatter's dimension numbers: the updates' axis 1 the window axis, the operand's axis 0 inserted and
    scatter-indexed, the index vector on axis 1 of the column of words. -/
abbrev rowDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- On the operand's axis 0 update `q` lands at its word read signed: the start is the word at row `q 0` of the column,
    the window coordinate zero (the axis is inserted). -/
theorem row_landing0 {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) :
    (rowDims N M C wf).start q idx 0 + ((rowDims N M C wf).window q 0 : ℤ) = (idx (ix2 (q 0) (0 : Fin 1))).toInt := by
  unfold ScatterDims.start ScatterDims.window
  rw [dif_pos (show (0 : Fin 2) ∈ (rowDims N M C wf).scatterDimsToOperandDims from List.mem_singleton.mpr rfl),
    dif_neg (show (0 : Fin 2) ∉ (rowDims N M C wf).sKept by
      show (0 : Fin 2) ∉ (List.finRange 2).filter (· ∉ [(0 : Fin 2)]); decide)]
  have hsi : (rowDims N M C wf).siIdx q ⟨List.idxOf (0 : Fin 2) (rowDims N M C wf).scatterDimsToOperandDims,
      List.idxOf_lt_length_iff.2 (List.mem_singleton.mpr rfl)⟩ = ix2 (q 0) (0 : Fin 1) := by
    funext b; refine Fin.ext ?_
    match b with
    | ⟨0, _⟩ => rfl
    | ⟨1, _⟩ => rfl
  rw [hsi]
  simp

/-- On the operand's axis 1 update `q` lands at its own column: the start is 0 (the axis is not scatter-indexed), the
    window coordinate the update's coordinate on its one window axis. -/
theorem row_landing1 {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) :
    (rowDims N M C wf).start q idx 1 + ((rowDims N M C wf).window q 1 : ℤ) = ((q 1).val : ℤ) := by
  unfold ScatterDims.start ScatterDims.window
  rw [dif_neg (show (1 : Fin 2) ∉ (rowDims N M C wf).scatterDimsToOperandDims by
      show (1 : Fin 2) ∉ [(0 : Fin 2)]; decide),
    dif_pos (show (1 : Fin 2) ∈ (rowDims N M C wf).sKept by
      show (1 : Fin 2) ∈ (List.finRange 2).filter (· ∉ [(0 : Fin 2)]); decide), Int.zero_add]
  rfl

/-- The update at `q` lands on element `(i, k)` exactly when its word, read signed, is `i` and its column is `k`. -/
theorem row_resultIdx {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) (i : Fin N) (k : Fin C) :
    (rowDims N M C wf).resultIdx? q idx = some (ix2 i k)
      ↔ (idx (ix2 (q 0) (0 : Fin 1))).toInt = (i.val : ℤ) ∧ q 1 = k := by
  have hl0 := row_landing0 wf idx q
  have hl1 := row_landing1 wf idx q
  unfold ScatterDims.resultIdx?
  constructor
  · intro h
    split at h
    · next hc =>
      have hf := Option.some.inj h
      have h0 := congrArg Fin.val (congrFun hf 0)
      have h1 := congrArg Fin.val (congrFun hf 1)
      change ((rowDims N M C wf).start q idx 0 + ((rowDims N M C wf).window q 0 : ℤ)).toNat = i.val at h0
      change ((rowDims N M C wf).start q idx 1 + ((rowDims N M C wf).window q 1 : ℤ)).toNat = k.val at h1
      have hc0 := (hc 0).1
      rw [hl0] at h0 hc0
      rw [hl1] at h1
      refine ⟨by omega, Fin.ext ?_⟩
      simpa using h1
    · exact absurd h (by simp)
  · rintro ⟨h, hk⟩
    have hc : ∀ a, 0 ≤ (rowDims N M C wf).start q idx a + ((rowDims N M C wf).window q a : ℤ) ∧
        (rowDims N M C wf).start q idx a + ((rowDims N M C wf).window q a : ℤ) < ((⟨2, ![N, C]⟩ : Shape).size a : ℤ) := by
      intro a
      match a with
      | ⟨0, _⟩ =>
        have := i.isLt
        refine ⟨?_, ?_⟩
        · show 0 ≤ (rowDims N M C wf).start q idx 0 + ((rowDims N M C wf).window q 0 : ℤ)
          rw [hl0, h]; omega
        · show (rowDims N M C wf).start q idx 0 + ((rowDims N M C wf).window q 0 : ℤ) < (N : ℤ)
          rw [hl0, h]; omega
      | ⟨1, _⟩ =>
        have := idx2_lt1 q
        refine ⟨?_, ?_⟩
        · show 0 ≤ (rowDims N M C wf).start q idx 1 + ((rowDims N M C wf).window q 1 : ℤ)
          rw [hl1]; omega
        · show (rowDims N M C wf).start q idx 1 + ((rowDims N M C wf).window q 1 : ℤ) < (C : ℤ)
          rw [hl1]; omega
    rw [dif_pos hc]
    congr 1
    funext a
    refine Fin.ext ?_
    match a with
    | ⟨0, _⟩ =>
      show ((rowDims N M C wf).start q idx 0 + ((rowDims N M C wf).window q 0 : ℤ)).toNat = i.val
      rw [hl0, h]; simp
    | ⟨1, _⟩ =>
      show ((rowDims N M C wf).start q idx 1 + ((rowDims N M C wf).window q 1 : ℤ)).toNat = k.val
      rw [hl1, hk]; simp

/-- THE ROW SCATTER READ AT `(i, j)`: the operand's element plus the sum, over the `M` update rows, of column `j` of those
    whose word read signed is `i`. The filtered sum over update indices becomes the double sum over (row, column) with an
    `if` (`Finset.sum_filter`, `sum_idx2`); the column sum keeps the one term at `j` (`Finset.sum_ite_eq'`). -/
theorem scatterAdd_rows_apply {N M C w : Nat} {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ) (i : Fin N) (j : Fin C) :
    Host.scatterAdd d x idx upd (ix2 i j)
      = x (ix2 i j) + ∑ e : Fin M, if (idx (ix2 e (0 : Fin 1))).toInt = (i.val : ℤ) then upd (ix2 e j) else 0 := by
  obtain ⟨uw, iw, sd, ivd, wf⟩ := d
  simp only at huw hiw hsd hivd
  subst huw hiw hsd hivd
  show Ideal.hostScatterAdd (rowDims N M C wf) x idx upd (ix2 i j) = _
  unfold Ideal.hostScatterAdd
  congr 1
  rw [Finset.sum_filter, sum_idx2]
  refine Finset.sum_congr rfl fun e _ => ?_
  have hstep : ∀ b : Fin C,
      (if (rowDims N M C wf).resultIdx? (ix2 e b) idx = some (ix2 i j) then upd (ix2 e b) else 0)
        = if b = j then (if (idx (ix2 e (0 : Fin 1))).toInt = (i.val : ℤ) then upd (ix2 e b) else 0) else 0 := by
    intro b
    have hiff := row_resultIdx wf idx (ix2 e b) i j
    by_cases hb : b = j
    · rw [if_pos hb]
      exact if_congr (hiff.trans ⟨fun h => h.1, fun h => ⟨h, hb⟩⟩) rfl rfl
    · rw [if_neg hb, if_neg]
      exact fun h => hb (hiff.mp h).2
  rw [Finset.sum_congr rfl fun b _ => hstep b, Finset.sum_ite_eq' Finset.univ j, if_pos (Finset.mem_univ j)]

/-! ## Rows gathered out of an array -/

/-- The row gather's dimension numbers: the result's axis 1 the offset axis, the operand's axis 0 collapsed and
    start-indexed, no batching axes, the index vector on axis 1 of the column of words, slices one row wide. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- On the collapsed axis the operand index is the clamped start: the word at row `e` of the column read signed, cut
    into `[0, N - 1]`; no batching or offset coordinate. -/
theorem rowGather_axis0 {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (j : Fin C) :
    ((rowGatherDims N M C wf).operandIdx (ix2 e j) idx 0).val = min (idx (ix2 e (0 : Fin 1))).toInt.toNat (N - 1) := by
  show (rowGatherDims N M C wf).start (ix2 e j) idx 0 + (rowGatherDims N M C wf).batchCoord (ix2 e j) 0
    + (rowGatherDims N M C wf).offCoord (ix2 e j) 0 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowGatherDims N M C wf).startIndexMap from List.mem_singleton.mpr rfl)]
  have hsi : (rowGatherDims N M C wf).siIdx (ix2 e j) ⟨List.idxOf (0 : Fin 2) (rowGatherDims N M C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the offset axis the operand index is the result's column: the start is 0 (the axis is not start-indexed), the
    offset coordinate the result's coordinate on its one offset axis. -/
theorem rowGather_axis1 {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (j : Fin C) :
    ((rowGatherDims N M C wf).operandIdx (ix2 e j) idx 1).val = j.val := by
  show (rowGatherDims N M C wf).start (ix2 e j) idx 1 + (rowGatherDims N M C wf).batchCoord (ix2 e j) 1
    + (rowGatherDims N M C wf).offCoord (ix2 e j) 1 = _
  rw [GatherDims.batchCoord_eq_zero _ _ _ List.not_mem_nil, Nat.add_zero]
  unfold GatherDims.start
  rw [dif_neg (show (1 : Fin 2) ∉ (rowGatherDims N M C wf).startIndexMap by
    show (1 : Fin 2) ∉ [(0 : Fin 2)]; decide), Nat.zero_add]
  unfold GatherDims.offCoord
  rw [dif_pos (show (1 : Fin 2) ∈ (rowGatherDims N M C wf).sKept by
    show (1 : Fin 2) ∈ (List.finRange 2).filter (· ∉ [(0 : Fin 2)] ++ []); decide)]
  rfl

/-- THE ROW GATHER READ AT `(e, j)`: the array at row "word `e`, read signed and clamped into `[0, N - 1]`", column `j`. -/
theorem gather_rows_apply {α : Type} {N M C w : Nat} (d : GatherDims ⟨2, ![N, C]⟩ ⟨2, ![M, 1]⟩ ⟨2, ![M, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![M, 1]⟩ w) (e : Fin M) (j : Fin C) (hN : 0 < N) :
    Host.gather d x idx (ix2 e j)
      = x (ix2 (⟨min (idx (ix2 e (0 : Fin 1))).toInt.toNat (N - 1), by omega⟩ : Fin N) j) := by
  obtain ⟨od, cd, ob, sb, sm, ivd, ss, wf⟩ := d
  simp only at hoff hcoll hob hsb hsim hivd hss
  subst hoff hcoll hob hsb hsim hivd hss
  show x ((rowGatherDims N M C wf).operandIdx (ix2 e j) idx) = _
  congr 1
  funext a
  refine Fin.ext ?_
  match a with
  | ⟨0, _⟩ => exact rowGather_axis0 wf idx e j
  | ⟨1, _⟩ => exact rowGather_axis1 wf idx e j

end Cert.LibScatterGather

end
-- ==== Proof.LibPlainDot.lean ====
/-
  A plain matrix product read at an index, generic in the sizes. For dimension numbers that contract the left
  operand's columns with the right operand's rows, with no batch axis (rows × contraction times contraction ×
  columns), the sum over the contraction shape's indices of the operands' products at the dot's operand indices is the
  sum over k < K of l[p, k] · r[k, q]. A kernel's matrix unit into a zero accumulator and the host's dot both read
  through it at the ideal values. Imports only the library.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : Nat} (D : DotDims ⟨2, ![M, K]⟩ ⟨2, ![K, N]⟩ ⟨2, ![M, N]⟩)

/-- Two spellings of one axis position read the same coordinate. -/
theorem coord_val_congr {s : Shape} (j : s.Idx) (p q : Nat) (hp : p < s.rank) (hq : q < s.rank) (h : p = q) :
    (j ⟨p, hp⟩).val = (j ⟨q, hq⟩).val := by subst h; rfl

/-- The left operand's row is the result's row: axis 0 is the left operand's one free axis, first among the result's. -/
theorem lhs_row (hlb : D.lhsBatch = []) (hln : D.lhsNonContracting = [0]) (p : Fin M) (q : Fin N) (k : D.contr.Idx) :
    (D.lhsIdx (ix2 p q) k 0).val = p.val := by
  unfold DotDims.lhsIdx
  rw [dif_neg (by rw [hlb]; exact List.not_mem_nil), dif_pos (by rw [hln]; exact List.mem_singleton.mpr rfl)]
  simp only [Fin.val_cast]
  exact coord_val_congr (ix2 p q) _ 0 _ (show 0 < 2 by omega) (by simp [hlb, hln])

/-- The right operand's column is the result's column: axis 1 is the right operand's one free axis, second among the result's. -/
theorem rhs_col (hlb : D.lhsBatch = []) (hrb : D.rhsBatch = []) (hln : D.lhsNonContracting = [0]) (hrn : D.rhsNonContracting = [1])
    (p : Fin M) (q : Fin N) (k : D.contr.Idx) : (D.rhsIdx (ix2 p q) k 1).val = q.val := by
  unfold DotDims.rhsIdx
  rw [dif_neg (by rw [hrb]; exact List.not_mem_nil), dif_pos (by rw [hrn]; exact List.mem_singleton.mpr rfl)]
  simp only [Fin.val_cast]
  exact coord_val_congr (ix2 p q) _ 1 _ (show 1 < 2 by omega) (by simp [hlb, hln, hrn])

/-- The product at result index (p, q): the contraction re-indexed by its one coordinate. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  have hr : D.contr.rank = 1 := by rw [D.rank_contr, hlc]; rfl
  have hs : D.contr.size ⟨0, by omega⟩ = K := by
    have h := D.size_contr 0 (by rw [hlc]; exact Nat.one_pos)
    rw [h]; simp [hlc]
  rw [← Equiv.sum_comp (contrEquiv1 D K hr hs).symm]
  refine Finset.sum_congr rfl fun k _ => ?_
  have hk := contrEquiv1_symm_val D K hr hs k
  have e1 : D.lhsIdx (ix2 p q) ((contrEquiv1 D K hr hs).symm k) = ix2 p k := by
    funext a
    match a with
    | ⟨0, _⟩ => exact Fin.ext (lhs_row D hlb hln p q _)
    | ⟨1, _⟩ => exact Fin.ext ((D.lhsIdx_val_of_single hlc (ix2 p q) _).trans hk)
  have e2 : D.rhsIdx (ix2 p q) ((contrEquiv1 D K hr hs).symm k) = ix2 k q := by
    funext a
    match a with
    | ⟨0, _⟩ => exact Fin.ext ((D.rhsIdx_val_of_single hrc (ix2 p q) _).trans hk)
    | ⟨1, _⟩ => exact Fin.ext (rhs_col D hlb hrb hln hrn p q _)
  rw [e1, e2]

/-- The matrix product as a function of the result index: entry (p, q) is ∑_k l[p, k] · r[k, q] on the extended reals. -/
def matProd (l : (⟨2, ![M, K]⟩ : Shape).Idx → EReal) (r : (⟨2, ![K, N]⟩ : Shape).Idx → EReal) :
    (⟨2, ![M, N]⟩ : Shape).Idx → EReal :=
  fun y => ∑ k : Fin K, l (ix2 (y 0) k) * r (ix2 k (y 1))

theorem matProd_ix2 (l : (⟨2, ![M, K]⟩ : Shape).Idx → EReal) (r : (⟨2, ![K, N]⟩ : Shape).Idx → EReal) (p : Fin M) (q : Fin N) :
    matProd l r (ix2 p q) = ∑ k : Fin K, l (ix2 p k) * r (ix2 k q) := rfl

/-- The matrix unit's product into the zero accumulator, at the ideal values, is the matrix product. -/
theorem matmul_zero_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) :
    FloatOps.matmul D prec l r (constant ⟨2, ![M, N]⟩ .f32 0x00000000#32) = matProd (M := M) (K := K) (N := N) l r := by
  funext y
  obtain ⟨p, q, rfl⟩ : ∃ (p : Fin M) (q : Fin N), y = ix2 p q := ⟨y 0, y 1, eq_ix2 y⟩
  rw [Ideal.matmul_constant_zero_apply, matProd_ix2]
  exact sum_plain D hlc hrc hln hrn hlb hrb l r p q

/-- The host's dot, at the ideal values, is the matrix product, whatever its precision and schedule keys. -/
theorem dotGeneral_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision) (sched : HostSchedule)
    (l : FVec Ideal ⟨2, ![M, K]⟩ φ₁) (r : FVec Ideal ⟨2, ![K, N]⟩ φ₂) :
    FloatOps.dotGeneral D prec sched l r = matProd (M := M) (K := K) (N := N) l r := by
  funext y
  obtain ⟨p, q, rfl⟩ : ∃ (p : Fin M) (q : Fin N), y = ix2 p q := ⟨y 0, y 1, eq_ix2 y⟩
  rw [Ideal.dotGeneral_apply, matProd_ix2]
  exact sum_plain D hlc hrc hln hrn hlb hrb l r p q

end Cert.LibPlainDot

end
-- ==== Proof.RefValueLemmas.lean ====
/-
  The reference's operations read at one element.

  Words first. A packed word's field `s` (`s < 8`) is the word shifted right arithmetically by `4 s` and masked to
  four bits; the shift amount the program forms, `0 + 4 * s`, is the word of `4 s`, which is below the width, so the
  shift is the plain arithmetic shift. The floored quotient of a row index `k < 4096` by `128`: both operands are
  non-negative, so the truncated quotient is `k / 128`, and the correction "less one where the signs differ and the
  remainder is not zero" never applies (for `k = 0` the remainder is zero, for `k > 0` the signs agree). The quotient
  is below `32` and non-negative, so bringing a negative index into range leaves it, and read as a signed integer and
  clamped into `[0, 31]` it is `k / 128`.

  Then the arrays. Each layout operation read at an index given by coordinates: the broadcasts read the operand at
  the coordinates they keep; the cast of `[512, 8, 11008]` to `[4096, 11008]` reads row `kk` at packed row `kk / 8`,
  field `kk % 8`; the cast of `[32, 1376, 8]` to `[32, 11008]` reads column `n` at packed column `n / 8`, field
  `n % 8`; the casts between `[4, 2048, ·]` and `[8192, ·]` pair `(b, s)` with row `2048 b + s`. The row gather reads
  the table's row at the group; the product over the reduction axis is the sum over `kk < 4096`.
-/
import Idealize.ShloMosaic.Lib.Pipeline.Value
import Idealize.ShloMosaic.Lib.ValueIdx
import Idealize.ShloMosaic.PureOps.Ideal.Laws
import proofs.«416578_j10419590660824_3_alg».proof.ReferenceIdeal
import proofs.«416578_j10419590660824_3_alg».proof.Proof.Spec
import proofs.«416578_j10419590660824_3_alg».proof.Proof.LibScatterGather
import proofs.«416578_j10419590660824_3_alg».proof.Proof.LibPlainDot

noncomputable section

open scoped BigOperators

namespace Cert.RefSide

open Idealize.ShloMosaic Idealize.ShloMosaic.ValueIdx Cert.ReferenceIdeal

/-! ## Words -/

/-- The shift amount of field `s`: `0 + 4 * s` is the word of `4 s`. -/
theorem shamt_word (s : Fin 8) :
    IntOp.addi 0#32 (IntOp.muli 4#32 (BitVec.ofNat 32 s.val)) = BitVec.ofNat 32 (4 * s.val) := by
  revert s; decide

/-- A word shifted right arithmetically by `4 s` (`s < 8`, so below the width) and masked to four bits is its field `s`. -/
theorem field_word (w : BitVec 32) (s : Fin 8) :
    IntOp.andi (IntOp.shrsi .host w (BitVec.ofNat 32 (4 * s.val))) 15#32 = Cert.Spec.nib w s.val := by
  have hs := s.isLt
  have h1 : (BitVec.ofNat 32 (4 * s.val)).toNat = 4 * s.val := by
    rw [BitVec.toNat_ofNat]; omega
  unfold IntOp.shrsi IntOp.andi Cert.Spec.nib
  rw [if_pos (by rw [h1]; omega)]
  unfold BitVec.sshiftRight'
  rw [h1]

/-- The word of a number below `4096` reads back as that number … -/
theorem toNat_ofNat_small (k : Nat) (hk : k < 4096) : (BitVec.ofNat 32 k).toNat = k := by
  rw [BitVec.toNat_ofNat]; omega

/-- … its sign bit is clear … -/
theorem msb_small (k : Nat) (hk : k < 4096) : (BitVec.ofNat 32 k).msb = false := by
  rw [BitVec.msb_eq_decide, toNat_ofNat_small k hk]
  simp; omega

/-- … and read as a signed integer it is that number. -/
theorem toInt_small (k : Nat) (hk : k < 4096) : (BitVec.ofNat 32 k).toInt = (k : ℤ) := by
  rw [BitVec.toInt_eq_toNat_of_msb (msb_small k hk), toNat_ofNat_small k hk]

/-- The truncated quotient of a row index by `128`: both are non-negative, so it is the quotient of the numbers. -/
theorem divsi_small (k : Nat) (hk : k < 4096) :
    IntOp.divsi .host (BitVec.ofNat 32 k) 128#32 = BitVec.ofNat 32 (k / 128) := by
  unfold IntOp.divsi
  rw [if_neg (by
    unfold IntOp.SDivCorner
    rintro (h | ⟨_, h⟩)
    · exact absurd h (by decide)
    · exact absurd h (by decide))]
  rw [BitVec.sdiv_eq, msb_small k hk]
  have : (128#32).msb = false := by decide
  rw [this]
  apply BitVec.eq_of_toNat_eq
  simp only [BitVec.udiv_eq, BitVec.toNat_udiv, toNat_ofNat_small k hk]
  rw [toNat_ofNat_small (k / 128) (by omega)]
  rfl

/-- The sign of a word as a word: `0`, `-1` or `1`. -/
def sgnW (a : BitVec 32) : BitVec 32 := if a = 0 then 0 else if a.msb then -1 else 1

/-- The sign of a positive row index is `1`. -/
theorem sgnW_pos (k : Nat) (hk : k < 4096) (h0 : k ≠ 0) : sgnW (BitVec.ofNat 32 k) = 1#32 := by
  unfold sgnW
  rw [if_neg (by
    intro h
    have := congrArg BitVec.toNat h
    rw [toNat_ofNat_small k hk] at this
    exact h0 this), msb_small k hk]
  rfl

/-- THE FLOORED QUOTIENT of a row index by `128`: the correction's condition is false (at `0` the remainder is zero,
    above `0` the signs agree), so it is the truncated quotient, `k / 128`. -/
theorem floordiv_word (k : Nat) (hk : k < 4096) :
    Scalar.select
        (IntOp.andi (IntOp.cmpi .ne (sgnW (BitVec.ofNat 32 k)) (sgnW 128#32))
          (IntOp.cmpi .ne (IntOp.remsi .host (BitVec.ofNat 32 k) 128#32) 0#32))
        (IntOp.subi (IntOp.divsi .host (BitVec.ofNat 32 k) 128#32) 1#32)
        (IntOp.divsi .host (BitVec.ofNat 32 k) 128#32)
      = BitVec.ofNat 32 (k / 128) := by
  have hc : IntOp.andi (IntOp.cmpi .ne (sgnW (BitVec.ofNat 32 k)) (sgnW 128#32))
      (IntOp.cmpi .ne (IntOp.remsi .host (BitVec.ofNat 32 k) 128#32) 0#32) = 0#1 := by
    by_cases h0 : k = 0
    · subst h0; decide
    · rw [sgnW_pos k hk h0]
      have h1 : IntOp.cmpi .ne 1#32 (sgnW 128#32) = 0#1 := by decide
      rw [h1]
      unfold IntOp.andi
      exact BitVec.zero_and
  rw [hc, select_zero, divsi_small k hk]

/-- BRINGING A NEGATIVE INDEX INTO RANGE leaves a group index: it is not negative. -/
theorem wrap_word (g : Nat) (hg : g < 32) :
    Scalar.select (IntOp.cmpi .slt (BitVec.ofNat 32 g) 0#32) (IntOp.addi (BitVec.ofNat 32 g) 32#32) (BitVec.ofNat 32 g)
      = BitVec.ofNat 32 g := by
  have hc : IntOp.cmpi .slt (BitVec.ofNat 32 g) 0#32 = 0#1 := by
    revert g; decide
  rw [hc, select_zero]

/-- A group index read as a signed integer and clamped into `[0, 31]` is the group. -/
theorem grp_of_word (kk : Fin 4096) (w : BitVec 32) (hw : w = BitVec.ofNat 32 (kk.val / 128))
    (h : min w.toInt.toNat (32 - 1) < 32) :
    (⟨min w.toInt.toNat (32 - 1), h⟩ : Fin 32) = Cert.Spec.grp kk := by
  subst hw
  have hk := kk.isLt
  refine Fin.ext ?_
  show min (BitVec.ofNat 32 (kk.val / 128)).toInt.toNat (32 - 1) = kk.val / 128
  rw [toInt_small (kk.val / 128) (by omega)]
  omega

/-! ## The integer operations at an index (definitional) -/

section IntAt
variable {s : Shape} {w : Nat}

theorem andi_apply (a b : IVec s w) (i : s.Idx) : andi a b i = IntOp.andi (a i) (b i) := rfl
theorem addi_apply (a b : IVec s w) (i : s.Idx) : addi a b i = IntOp.addi (a i) (b i) := rfl
theorem subi_apply (a b : IVec s w) (i : s.Idx) : subi a b i = IntOp.subi (a i) (b i) := rfl
theorem muli_apply (a b : IVec s w) (i : s.Idx) : muli a b i = IntOp.muli (a i) (b i) := rfl
theorem cmpi_apply (p : CmpIPredicate) (a b : IVec s w) (i : s.Idx) : cmpi p a b i = IntOp.cmpi p (a i) (b i) := rfl
theorem hostShrsi_apply (a b : IVec s w) (i : s.Idx) : Host.shrsi a b i = IntOp.shrsi .host (a i) (b i) := rfl
theorem hostDivsi_apply (a b : IVec s w) (i : s.Idx) : Host.divsi a b i = IntOp.divsi .host (a i) (b i) := rfl
theorem hostRemsi_apply (a b : IVec s w) (i : s.Idx) : Host.remsi a b i = IntOp.remsi .host (a i) (b i) := rfl
theorem signi_apply (a : IVec s 32) (i : s.Idx) : signi a i = sgnW (a i) := rfl
theorem constI_apply (b : BitVec w) (i : s.Idx) : constantI s w b i = b := rfl
theorem iotaInDim_apply (d : Fin s.rank) (i : s.Idx) : iotaInDim s w d i = BitVec.ofNat w (i d).val := rfl

end IntAt

/-- A float conversion at an index, at the ideal values: the word read as a signed integer, exactly. -/
theorem sitofp_ideal_apply {s : Shape} (a : IVec s 32) (i : s.Idx) :
    (sitofp .f32 a : FVec Ideal s .f32) i = (((a i).toInt : ℝ) : EReal) := rfl

/-! ## Broadcasts at an index -/

section Bcast
variable {α : Type}

/-- A scalar broadcast to any shape reads the scalar. -/
theorem bcast_scalar_apply {t : Shape} (h : S_.BroadcastsInDim t (![] : Fin 0 → Fin t.rank)) (c : S_.Idx → α) (j : t.Idx) :
    broadcastInDim t (no_index ![]) h c j = c ix0 :=
  broadcastInDim_apply _ h c j ix0 (fun a => a.elim0)

/-- The packed weights along a new unit axis 1 … -/
theorem bc_w_inner (h : S512x11008.BroadcastsInDim S512x1x11008 (![0, 2] : Fin 2 → Fin S512x1x11008.rank))
    (qw : S512x11008.Idx → α) (r : Fin 512) (u : Fin 1) (n : Fin 11008) :
    broadcastInDim S512x1x11008 (no_index ![0, 2]) h qw (ix3 r u n) = qw (ix2 r n) :=
  broadcastInDim_apply _ h qw _ _ fun a => match a with | ⟨0, _⟩ => rfl | ⟨1, _⟩ => rfl
/-- … then repeated along it eight times. -/
theorem bc_w_outer (h : S512x1x11008.BroadcastsInDim S512x8x11008 (![0, 1, 2] : Fin 3 → Fin S512x8x11008.rank))
    (v : S512x1x11008.Idx → α) (r : Fin 512) (s : Fin 8) (n : Fin 11008) :
    broadcastInDim S512x8x11008 (no_index ![0, 1, 2]) h v (ix3 r s n) = v (ix3 r (0 : Fin 1) n) :=
  broadcastInDim_apply _ h v _ _ fun a => match a with | ⟨0, _⟩ => rfl | ⟨1, _⟩ => rfl | ⟨2, _⟩ => rfl
/-- The eight shift amounts on the middle axis … -/
theorem bc_sh_inner (h : S8.BroadcastsInDim S1x8x1 (![1] : Fin 1 → Fin S1x8x1.rank))
    (v : S8.Idx → α) (u : Fin 1) (s : Fin 8) (u' : Fin 1) :
    broadcastInDim S1x8x1 (no_index ![1]) h v (ix3 u s u') = v (ix1 s) :=
  broadcastInDim_apply _ h v _ _ fun a => match a with | ⟨0, _⟩ => rfl
/-- … repeated over the packed rows and the columns. -/
theorem bc_sh_outer (h : S1x8x1.BroadcastsInDim S512x8x11008 (![0, 1, 2] : Fin 3 → Fin S512x8x11008.rank))
    (v : S1x8x1.Idx → α) (r : Fin 512) (s : Fin 8) (n : Fin 11008) :
    broadcastInDim S512x8x11008 (no_index ![0, 1, 2]) h v (ix3 r s n) = v (ix3 (0 : Fin 1) s (0 : Fin 1)) :=
  broadcastInDim_apply _ h v _ _ fun a => match a with | ⟨0, _⟩ => rfl | ⟨1, _⟩ => rfl | ⟨2, _⟩ => rfl

/-- The packed zero points along a new unit axis 2 … -/
theorem bc_z_inner (h : S32x1376.BroadcastsInDim S32x1376x1 (![0, 1] : Fin 2 → Fin S32x1376x1.rank))
    (qz : S32x1376.Idx → α) (g : Fin 32) (p : Fin 1376) (u : Fin 1) :
    broadcastInDim S32x1376x1 (no_index ![0, 1]) h qz (ix3 g p u) = qz (ix2 g p) :=
  broadcastInDim_apply _ h qz _ _ fun a => match a with | ⟨0, _⟩ => rfl | ⟨1, _⟩ => rfl
/-- … then repeated along it eight times. -/
theorem bc_z_outer (h : S32x1376x1.BroadcastsInDim S32x1376x8 (![0, 1, 2] : Fin 3 → Fin S32x1376x8.rank))
    (v : S32x1376x1.Idx → α) (g : Fin 32) (p : Fin 1376) (s : Fin 8) :
    broadcastInDim S32x1376x8 (no_index ![0, 1, 2]) h v (ix3 g p s) = v (ix3 g p (0 : Fin 1)) :=
  broadcastInDim_apply _ h v _ _ fun a => match a with | ⟨0, _⟩ => rfl | ⟨1, _⟩ => rfl | ⟨2, _⟩ => rfl
/-- The eight shift amounts on the last axis … -/
theorem bc_zsh_inner (h : S8.BroadcastsInDim S1x1x8 (![2] : Fin 1 → Fin S1x1x8.rank))
    (v : S8.Idx → α) (u u' : Fin 1) (s : Fin 8) :
    broadcastInDim S1x1x8 (no_index ![2]) h v (ix3 u u' s) = v (ix1 s) :=
  broadcastInDim_apply _ h v _ _ fun a => match a with | ⟨0, _⟩ => rfl
/-- … repeated over the groups and the packed columns. -/
theorem bc_zsh_outer (h : S1x1x8.BroadcastsInDim S32x1376x8 (![0, 1, 2] : Fin 3 → Fin S32x1376x8.rank))
    (v : S1x1x8.Idx → α) (g : Fin 32) (p : Fin 1376) (s : Fin 8) :
    broadcastInDim S32x1376x8 (no_index ![0, 1, 2]) h v (ix3 g p s) = v (ix3 (0 : Fin 1) (0 : Fin 1) s) :=
  broadcastInDim_apply _ h v _ _ fun a => match a with | ⟨0, _⟩ => rfl | ⟨1, _⟩ => rfl | ⟨2, _⟩ => rfl

/-- The group indices as a column. -/
theorem bc_idx (h : S4096.BroadcastsInDim S4096x1 (![0] : Fin 1 → Fin S4096x1.rank))
    (v : S4096.Idx → α) (kk : Fin 4096) (u : Fin 1) :
    broadcastInDim S4096x1 (no_index ![0]) h v (ix2 kk u) = v (ix1 kk) :=
  broadcastInDim_apply _ h v _ _ fun a => match a with | ⟨0, _⟩ => rfl

/-- The bias on the last of three axes … -/
theorem bc_bias_inner (h : S11008.BroadcastsInDim S1x1x11008 (![2] : Fin 1 → Fin S1x1x11008.rank))
    (v : S11008.Idx → α) (u u' : Fin 1) (n : Fin 11008) :
    broadcastInDim S1x1x11008 (no_index ![2]) h v (ix3 u u' n) = v (ix1 n) :=
  broadcastInDim_apply _ h v _ _ fun a => match a with | ⟨0, _⟩ => rfl
/-- … repeated over the two leading axes. -/
theorem bc_bias_outer (h : S1x1x11008.BroadcastsInDim S4x2048x11008 (![0, 1, 2] : Fin 3 → Fin S4x2048x11008.rank))
    (v : S1x1x11008.Idx → α) (b : Fin 4) (s : Fin 2048) (n : Fin 11008) :
    broadcastInDim S4x2048x11008 (no_index ![0, 1, 2]) h v (ix3 b s n) = v (ix3 (0 : Fin 1) (0 : Fin 1) n) :=
  broadcastInDim_apply _ h v _ _ fun a => match a with | ⟨0, _⟩ => rfl | ⟨1, _⟩ => rfl | ⟨2, _⟩ => rfl

end Bcast

/-! ## Shape casts at an index -/

section Casts
variable {α : Type}

/-- Field `kk % 8` of a reduction row, as a coordinate of the eight-field axis. -/
def fld (kk : Fin 4096) : Fin 8 := ⟨kk.val % 8, Nat.mod_lt _ (by decide)⟩
/-- Field `n % 8` of a column, as a coordinate of the eight-field axis. -/
def cfld (n : Fin 11008) : Fin 8 := ⟨n.val % 8, Nat.mod_lt _ (by decide)⟩
/-- Row `2048 b + s` of the flattened leading axes. -/
def flat (b : Fin 4) (s : Fin 2048) : Fin 8192 := ⟨b.val * 2048 + s.val, by have := b.isLt; have := s.isLt; omega⟩

/-- Row `kk` of the unpacked weights is field `kk % 8` of packed row `kk / 8`. -/
theorem reshape_w (h : S512x8x11008.ShapeCasts S4096x11008) (v : S512x8x11008.Idx → α) (kk : Fin 4096) (n : Fin 11008) :
    shapeCast S4096x11008 v h (ix2 kk n) = v (ix3 (Cert.Spec.prow kk) (fld kk) n) :=
  shapeCast_apply v h _ _ (by
    rw [Shape.rowMajor_val_three, Shape.rowMajor_val_two]
    show (kk.val / 8 * 8 + kk.val % 8) * 11008 + n.val = kk.val * 11008 + n.val
    omega)

/-- Column `n` of the unpacked zero points is field `n % 8` of packed column `n / 8`. -/
theorem reshape_z (h : S32x1376x8.ShapeCasts S32x11008) (v : S32x1376x8.Idx → α) (g : Fin 32) (n : Fin 11008) :
    shapeCast S32x11008 v h (ix2 g n) = v (ix3 g (Cert.Spec.pcol n) (cfld n)) :=
  shapeCast_apply v h _ _ (by
    rw [Shape.rowMajor_val_three, Shape.rowMajor_val_two]
    show (g.val * 1376 + n.val / 8) * 8 + n.val % 8 = g.val * 11008 + n.val
    omega)

/-- Row `2048 b + s` of the flattened `x` is `x[b, s, ·]`. -/
theorem reshape_x (h : S4x2048x4096.ShapeCasts S8192x4096) (v : S4x2048x4096.Idx → α) (b : Fin 4) (s : Fin 2048) (kk : Fin 4096) :
    shapeCast S8192x4096 v h (ix2 (flat b s) kk) = v (ix3 b s kk) :=
  shapeCast_apply v h _ _ (by
    rw [Shape.rowMajor_val_three, Shape.rowMajor_val_two]
    rfl)

/-- The product's row `2048 b + s` is the result's `[b, s, ·]`. -/
theorem reshape_out (h : S8192x11008.ShapeCasts S4x2048x11008) (v : S8192x11008.Idx → α) (b : Fin 4) (s : Fin 2048) (n : Fin 11008) :
    shapeCast S4x2048x11008 v h (ix3 b s n) = v (ix2 (flat b s) n) :=
  shapeCast_apply v h _ _ (by
    rw [Shape.rowMajor_val_three, Shape.rowMajor_val_two]
    rfl)

end Casts

/-! ## The row gather and the product at an index -/

section Records
variable [Facts₀]

/-- The row gather at `(kk, n)`: the table's row at the start index of row `kk`, read signed and clamped, column `n`;
    when that start index is the word of `kk / 128`, the row of `kk`'s group. -/
theorem gather_grp {α : Type} (tbl : S32x11008.Idx → α) (idx : IVec S4096x1 32) (kk : Fin 4096) (n : Fin 11008)
    (hidx : idx (ix2 kk (0 : Fin 1)) = BitVec.ofNat 32 (kk.val / 128)) :
    Host.gather gather_S32x11008_S4096x1_S4096x11008_1_0_n_n_0_1_111008 tbl idx (ix2 kk n)
      = tbl (ix2 (Cert.Spec.grp kk) n) := by
  rw [Cert.LibScatterGather.gather_rows_apply gather_S32x11008_S4096x1_S4096x11008_1_0_n_n_0_1_111008
    rfl rfl rfl rfl rfl rfl rfl tbl idx kk n (by decide)]
  rw [grp_of_word kk _ hidx]

/-- The product at `(m, n)`: the sum over the reduction axis. -/
theorem dot_apply (l : FVec Ideal S8192x4096 .f32) (r : FVec Ideal S4096x11008 .f32) (m : Fin 8192) (n : Fin 11008) :
    Host.dotGeneral (F := Ideal) dot_S8192x4096_S4096x11008_S8192x11008_1_0_0_1_n_n none l r (ix2 m n)
      = ∑ kk : Fin 4096, l (ix2 m kk) * r (ix2 kk n) :=
  (congrFun (Cert.LibPlainDot.dotGeneral_eq_matProd dot_S8192x4096_S4096x11008_S8192x11008_1_0_0_1_n_n
    rfl rfl rfl rfl rfl rfl none .single l r) (ix2 m n)).trans (Cert.LibPlainDot.matProd_ix2 l r m n)

end Records

end Cert.RefSide

end
-- ==== Proof.RefValue.lean ====
/-
  The reference's result term, read at an index, is the specification.

  The result at `(b, s, n)` is read stage by stage, outermost first: the sum of the product and the bias; the product's
  row `2048 b + s`; the product as the sum over the reduction axis `kk < 4096`; the bias at `n`. Inside the sum, row
  `2048 b + s` of the flattened `x` is `x[b, s, kk]`; the dequantised weight at `(kk, n)` is `(w - z) * scale` with
  `w` the field `kk % 8` of packed row `kk / 8`, and `z`, `scale` fetched from the row of the group of `kk`: the index
  fetched at is the floored quotient `kk / 128` (never negative, so unchanged by the wrap of negative indices), and the
  zero point at `(g, n)` is field `n % 8` of packed column `n / 8`, plus one, masked. Term by term this is the
  specification's sum.
-/
import proofs.«416578_j10419590660824_3_alg».proof.Proof.RefTerm
import proofs.«416578_j10419590660824_3_alg».proof.Proof.RefValueLemmas

noncomputable section

open scoped BigOperators

namespace Cert.RefSide

open Idealize.ShloMosaic Idealize.ShloMosaic.ValueIdx Cert.ReferenceIdeal Cert.ReferenceIdeal.Gen

/-! ## The last index lemmas: the two iotas, the fetched row, the words of one row -/

/-- The field index along the eight-field axis. -/
theorem iota8_apply (s : Fin 8) : iotaInDim S8 32 0 (ix1 s) = BitVec.ofNat 32 s.val := rfl
/-- The row index along the reduction axis. -/
theorem iota4096_apply (kk : Fin 4096) : iotaInDim S4096 32 0 (ix1 kk) = BitVec.ofNat 32 kk.val := rfl

/-- A start index read as a signed integer and clamped into `[0, 31]`. -/
def clampGrp (w : BitVec 32) : Fin 32 := ⟨min w.toInt.toNat (32 - 1), by omega⟩

/-- The row gather at `(kk, n)`: the table's row at the clamped start index of row `kk`, column `n`. -/
theorem gather_at {α : Type} (tbl : S32x11008.Idx → α) (idx : IVec S4096x1 32) (kk : Fin 4096) (n : Fin 11008) :
    Host.gather gather_S32x11008_S4096x1_S4096x11008_1_0_n_n_0_1_111008 tbl idx (ix2 kk n)
      = tbl (ix2 (clampGrp (idx (ix2 kk (0 : Fin 1)))) n) :=
  Cert.LibScatterGather.gather_rows_apply gather_S32x11008_S4096x1_S4096x11008_1_0_n_n_0_1_111008
    rfl rfl rfl rfl rfl rfl rfl tbl idx kk n (by decide)

/-- The floored quotient of row `kk` by `128` is the word of `kk / 128` … -/
theorem floordiv_row (kk : Fin 4096) :
    Scalar.select
        (IntOp.andi (IntOp.cmpi .ne (sgnW (BitVec.ofNat 32 kk.val)) (sgnW 128#32))
          (IntOp.cmpi .ne (IntOp.remsi .host (BitVec.ofNat 32 kk.val) 128#32) 0#32))
        (IntOp.subi (IntOp.divsi .host (BitVec.ofNat 32 kk.val) 128#32) 1#32)
        (IntOp.divsi .host (BitVec.ofNat 32 kk.val) 128#32)
      = BitVec.ofNat 32 (kk.val / 128) :=
  floordiv_word kk.val kk.isLt
/-- … which the wrap of negative indices leaves … -/
theorem wrap_row (kk : Fin 4096) :
    Scalar.select (IntOp.cmpi .slt (BitVec.ofNat 32 (kk.val / 128)) 0#32)
        (IntOp.addi (BitVec.ofNat 32 (kk.val / 128)) 32#32) (BitVec.ofNat 32 (kk.val / 128))
      = BitVec.ofNat 32 (kk.val / 128) :=
  wrap_word (kk.val / 128) (by have := kk.isLt; omega)
/-- … and which, clamped, is the group of `kk`. -/
theorem clampGrp_row (kk : Fin 4096) : clampGrp (BitVec.ofNat 32 (kk.val / 128)) = Cert.Spec.grp kk :=
  grp_of_word kk _ rfl _

/-! ## The reference is the specification -/

theorem refTerm_eq (x : FVec Ideal S4x2048x4096 .f32) (qw : IVec S512x11008 32) (qz : IVec S32x1376 32)
    (sc : FVec Ideal S32x11008 .f32) (bias : FVec Ideal S11008 .f32) :
    refTerm (F := Ideal) x qw qz sc bias = Cert.Spec.out x qw qz sc bias := by
  funext i
  obtain ⟨b, s, n, rfl⟩ : ∃ (b : Fin 4) (s : Fin 2048) (n : Fin 11008), i = ix3 b s n := ⟨i 0, i 1, i 2, eq_ix3 i⟩
  rw [Cert.Spec.out_ix3]
  unfold refTerm Cert.Spec.outAt
  -- every stage read at its index, outermost first, down to the words of one row
  simp only [id_eq, addf_apply, mulf_apply, subf_apply, sitofp_ideal_apply, reshape_out, dot_apply, reshape_x,
    bc_bias_outer, bc_bias_inner, gather_at, bc_idx, reshape_w, reshape_z, select_apply, andi_apply, addi_apply,
    subi_apply, muli_apply, cmpi_apply, hostShrsi_apply, hostDivsi_apply, hostRemsi_apply, signi_apply,
    bc_w_outer, bc_w_inner, bc_sh_outer, bc_sh_inner, bc_z_outer, bc_z_inner, bc_zsh_outer, bc_zsh_inner,
    bcast_scalar_apply, constI_apply, iota8_apply, iota4096_apply]
  -- the words: the group index, the shift amounts, the fields
  simp only [floordiv_row, wrap_row, clampGrp_row, shamt_word, field_word]
  -- both sides are now the same sum, term by term (the specification's names unfolded), plus the bias
  exact congrArg (· + bias (ix1 n)) (Finset.sum_congr rfl fun kk _ => rfl)

end Cert.RefSide

end
-- ==== Proof.lean ====
/-
  A 4-bit-quantised linear layer: `x` f32[4, 2048, 4096] against a weight matrix stored as packed 4-bit fields
  (`qweight` i32[512, 11008], eight consecutive rows of the reduction axis per word), per-group zero points
  (`qzeros` i32[32, 1376], eight consecutive columns per word; a zero point is its field plus one, wrapped to four bits)
  and per-group scales (f32[32, 11008]; a group is 128 rows), plus a bias row. Both programs compute, over the extended
  reals,

      out[b, s, n] = (∑ kk < 4096, x[b, s, kk] · ((w[kk, n] − z[kk / 128, n]) · scale[kk / 128, n])) + bias[n]

  (`Cert.Spec.out`). The reference does it in one product over the whole reduction axis. The kernel walks a
  4 × 11 × 4 grid of (row block, column block, reduction step): at each step it dequantises a 1024 × 1024 tile of the
  weight from the staged packed, zero-point and scale blocks, multiplies the staged 2048 × 1024 block of `x` by it, and
  accumulates into the output block, which it zeroes at the first step and to which it adds the bias row at the last.
  The two agree because the integers enter both as exact reals, a change of float format is the identity, the same
  product `x · ((w − z) · scale)` stands on both sides, and a sum over 4096 indices regroups into four sums over 1024
  in any additive commutative monoid: no input need be finite, and the precondition is never opened.

  The array has 11008 = 10 · 1024 + 768 columns, so the last column block overhangs it: there a fetch fills only the
  leading 768 columns of a staged block and the rest of the buffer holds words nothing names, from which the body
  computes output columns the write-back then leaves out. Each output column depends on its own column of the weight,
  the zero points, the scales and the bias only, so the columns inside the array are what the formula says whatever the
  overhang holds; the proof data names every cut block on the inside columns alone.

  The frames (every weakly fair execution terminates, nothing faults, the arguments end unchanged) hold at any float
  instance, with the output block's contents left unnamed: over the word-level instance the matrix product is an
  uninterpreted function of its whole operands, so nothing could be said of them, and nothing need be.
  `preserves` is trivial: the ideal pass rewrote no operation.
-/
import proofs.«416578_j10419590660824_3_alg».proof.Defs
import proofs.«416578_j10419590660824_3_alg».proof.Proof.Gen.Kernel
import proofs.«416578_j10419590660824_3_alg».proof.Proof.Gen.KernelIdeal
import proofs.«416578_j10419590660824_3_alg».proof.Proof.Gen.ReferenceIdeal
import proofs.«416578_j10419590660824_3_alg».proof.Proof.Gen.Pre_finite_inputs
import proofs.«416578_j10419590660824_3_alg».proof.Proof.BFrame
import proofs.«416578_j10419590660824_3_alg».proof.Proof.KFrame
import proofs.«416578_j10419590660824_3_alg».proof.Proof.KValRun
import proofs.«416578_j10419590660824_3_alg».proof.Proof.RefRun
import proofs.«416578_j10419590660824_3_alg».proof.Proof.RefValue

noncomputable section

namespace Cert.Proof

open Idealize.ShloMosaic Idealize.SL.Sem

/-- The word-level program runs and keeps its arguments. -/
theorem frame_word : Cert.frame_Kernel := fun m ρ _ => Cert.Kernel.Hand.frame_post (F := Bits) m ρ

/-- The idealized program runs and keeps its arguments. -/
theorem frame_ideal : Cert.frame_KernelIdeal := fun m ρ _ => Cert.KernelIdeal.Hand.frame_post (F := Ideal) m ρ

/-- The reference runs and keeps its arguments: its run with the result dropped. -/
theorem frame_ref : Cert.frame_ReferenceIdeal := fun m ρ _ =>
  (θ_run Cert.ReferenceIdeal.defs _ _).mono (fun _ h c => (h c).2) (Cert.RefSide.run (F := Ideal) m ρ)

/-- The ideal pass rewrote nothing. -/
theorem preserves : Cert.preserves_Kernel_KernelIdeal := trivial

/-- From memories agreeing on the arguments both idealized programs end at the specification of those arguments. -/
theorem algebraic : Cert.algebraic_KernelIdeal_ReferenceIdeal := by
  intro m ρ m' ρ' _ hagree
  refine ⟨fun c => Cert.KernelIdeal.Hand.specOut m c, Cert.KernelIdeal.Hand.run_out m ρ, ?_⟩
  refine (θ_run Cert.ReferenceIdeal.defs _ _).mono (fun _ h c => ⟨(h c).1.trans ?_, (h c).2⟩)
    (Cert.RefSide.run (F := Ideal) m' ρ')
  rw [Cert.RefSide.refTerm_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_word, frame_ideal, frame_ref, preserves, algebraic⟩

end Cert.Proof

end
